-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x65535 : Shape := ⟨3, ![2, 256, 65535]⟩
abbrev S2x64x1024 : Shape := ⟨3, ![2, 64, 1024]⟩
abbrev S512x1024 : Shape := ⟨2, ![512, 1024]⟩
abbrev S2x1x65535 : Shape := ⟨3, ![2, 1, 65535]⟩
abbrev S_ : Shape := ⟨0, ![]⟩

class Facts : Prop where
  bcast_S_S2x256x65535 : S_.BroadcastsInDim S2x256x65535 (![] : Fin 0 → Fin S2x256x65535.rank)
  reducesTo_S2x256x65535_S_d0_1_2 : S2x256x65535.ReducesTo [0, 1, 2] S_
  h_S_ : 0 < S_.numel
  bcast_S_S2x64x1024 : S_.BroadcastsInDim S2x64x1024 (![] : Fin 0 → Fin S2x64x1024.rank)
  reducesTo_S2x64x1024_S_d0_1_2 : S2x64x1024.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S2x1x65535 : S_.BroadcastsInDim S2x1x65535 (![] : Fin 0 → Fin S2x1x65535.rank)
  reducesTo_S2x1x65535_S_d0_1_2 : S2x1x65535.ReducesTo [0, 1, 2] S_

variable [Facts]

def fn_part1 {F : FTy → Type} [FloatOps F] (main_arg3 : IVec S2x1x65535 32) (main_v13 : IVec S_ 1) (main_v15 : IVec S2x1x65535 1) (main_c_5 : IVec S_ 32) : IVec S_ 1 :=
  let main_v16 : IVec S2x1x65535 32 := broadcastInDim S2x1x65535 ![] bcast_S_S2x1x65535 main_c_5
  let main_v17 : IVec S2x1x65535 1 := cmpi .slt main_arg3 main_v16
  let main_v18 : IVec S2x1x65535 1 := andi main_v15 main_v17
  let main_c_6 : IVec S_ 1 := constantI S_ 1 1#1
  let main_v19 : IVec S_ 1 := (fun x v => Host.reduce IntOp.andi x v reducesTo_S2x1x65535_S_d0_1_2 h_S_) main_v18 main_c_6
  let main_v20 : IVec S_ 1 := andi main_v13 main_v19
  main_v20

def fn {F : FTy → Type} [FloatOps F] (main_arg0 : FVec F S2x256x65535 .f32) (main_arg1 : FVec F S2x64x1024 .f32) (main_arg2 : FVec F S512x1024 .f32) (main_arg3 : IVec S2x1x65535 32) : IVec S_ 1 :=
  let main_v0 : FVec F S2x256x65535 .f32 := Host.absf main_arg0
  let main_cst : FVec F S_ .f32 := constant S_ .f32 0x7F800000#32
  let main_v1 : FVec F S2x256x65535 .f32 := broadcastInDim S2x256x65535 ![] bcast_S_S2x256x65535 main_cst
  let main_v2 : IVec S2x256x65535 1 := cmpf .olt main_v0 main_v1
  let main_c : IVec S_ 1 := constantI S_ 1 1#1
  let main_v3 : IVec S_ 1 := (fun x v => Host.reduce IntOp.andi x v reducesTo_S2x256x65535_S_d0_1_2 h_S_) main_v2 main_c
  let main_v4 : FVec F S2x64x1024 .f32 := Host.absf main_arg1
  let main_cst_0 : FVec F S_ .f32 := constant S_ .f32 0x7F800000#32
  let main_v5 : FVec F S2x64x1024 .f32 := broadcastInDim S2x64x1024 ![] bcast_S_S2x64x1024 main_cst_0
  let main_v6 : IVec S2x64x1024 1 := cmpf .olt main_v4 main_v5
  let main_c_1 : IVec S_ 1 := constantI S_ 1 1#1
  let main_v7 : IVec S_ 1 := (fun x v => Host.reduce IntOp.andi x v reducesTo_S2x64x1024_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_c_4 : IVec S_ 32 := constantI S_ 32 0#32
  let main_v14 : IVec S2x1x65535 32 := broadcastInDim S2x1x65535 ![] bcast_S_S2x1x65535 main_c_4
  let main_v15 : IVec S2x1x65535 1 := cmpi .sge main_arg3 main_v14
  let main_c_5 : IVec S_ 32 := constantI S_ 32 256#32
  fn_part1 (F := F) main_arg3 main_v13 main_v15 main_c_5
-- ==== Kernel.lean ====
abbrev S2x256x65535 : Shape := ⟨3, ![2, 256, 65535]⟩
abbrev S2x64x1024 : Shape := ⟨3, ![2, 64, 1024]⟩
abbrev S512x1024 : Shape := ⟨2, ![512, 1024]⟩
abbrev S2x1x65535 : Shape := ⟨3, ![2, 1, 65535]⟩
abbrev S2x1024 : Shape := ⟨2, ![2, 1024]⟩
abbrev S2x1x1024 : Shape := ⟨3, ![2, 1, 1024]⟩
abbrev S1x512x1024 : Shape := ⟨3, ![1, 512, 1024]⟩
abbrev S2x512x1024 : Shape := ⟨3, ![2, 512, 1024]⟩
abbrev S2x1024x64 : Shape := ⟨3, ![2, 1024, 64]⟩
abbrev S2x65536 : Shape := ⟨2, ![2, 65536]⟩
abbrev S2x65535 : Shape := ⟨2, ![2, 65535]⟩
abbrev S2x1x128 : Shape := ⟨3, ![2, 1, 128]⟩
abbrev S1x256x8192 : Shape := ⟨3, ![1, 256, 8192]⟩
abbrev S1x1x8192 : Shape := ⟨3, ![1, 1, 8192]⟩
abbrev S1x1x128 : Shape := ⟨3, ![1, 1, 128]⟩
abbrev S1x8192 : Shape := ⟨2, ![1, 8192]⟩
abbrev S1x256x1 : Shape := ⟨3, ![1, 256, 1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 16
  | .vmem => 12
  | .smem => 0
  | _ => 0

abbrev bufTy : (tb : Table) → Fin (tcTables nBuf tb) → BufTy
  | .hbm, ⟨0, _⟩ => ⟨S2x256x65535, .f32⟩
  | .hbm, ⟨1, _⟩ => ⟨S2x64x1024, .f32⟩
  | .hbm, ⟨2, _⟩ => ⟨S512x1024, .f32⟩
  | .hbm, ⟨3, _⟩ => ⟨S2x1x65535, .i32⟩
  | .hbm, ⟨4, _⟩ => ⟨S2x1024, .f32⟩
  | .hbm, ⟨5, _⟩ => ⟨S2x1024x64, .f32⟩
  | .hbm, ⟨6, _⟩ => ⟨S2x65536, .f32⟩
  | .hbm, ⟨7, _⟩ => ⟨S2x65535, .f32⟩
  | .hbm, ⟨8, _⟩ => ⟨S2x1x65535, .f32⟩
  | .hbm, ⟨9, _⟩ => ⟨S2x1x128, .f32⟩
  | .hbm, ⟨10, _⟩ => ⟨S2x1x1, .f32⟩
  | .hbm, ⟨11, _⟩ => ⟨S2, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S2x64x1024, .f32⟩
  | .local _ .vmem, ⟨1, _⟩ => ⟨S512x1024, .f32⟩
  | .local _ .vmem, ⟨2, _⟩ => ⟨S2x1024, .f32⟩
  | .local _ .vmem, ⟨3, _⟩ => ⟨S1x256x8192, .f32⟩
  | .local _ .vmem, ⟨4, _⟩ => ⟨S1x256x8192, .f32⟩
  | .local _ .vmem, ⟨5, _⟩ => ⟨S1x1x8192, .i32⟩
  | .local _ .vmem, ⟨6, _⟩ => ⟨S1x1x8192, .i32⟩
  | .local _ .vmem, ⟨7, _⟩ => ⟨S1x1x8192, .f32⟩
  | .local _ .vmem, ⟨8, _⟩ => ⟨S1x1x8192, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | _, _ => ⟨S2x256x65535, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_20 : BitVec 32 := 0#32
  let v45 : BitVec 1 := Scalar.cmpi .ne v44 c0_i32_20
  v45

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S2x64x1024_S2x64x1024_0_0_0 : ∀ a, (![0, 0, 0] : Fin 3 → Nat) a + S2x64x1024.size a ≤ S2x64x1024.size a
  h_S2x64x1024 : 0 < S2x64x1024.numel
  inb_S512x1024_S512x1024_0_0 : ∀ a, (![0, 0] : Fin 2 → Nat) a + S512x1024.size a ≤ S512x1024.size a
  h_S512x1024 : 0 < S512x1024.numel
  reduces_S2x64x1024_S2x1024 : S2x64x1024.Reduces [1] S2x1024
  shapeCasts_S2x1024_S2x1x1024 : S2x1024.ShapeCasts S2x1x1024
  shapeCasts_S512x1024_S1x512x1024 : S512x1024.ShapeCasts S1x512x1024
  broadcasts_S2x1x1024_S2x512x1024 : S2x1x1024.Broadcasts S2x512x1024
  broadcasts_S1x512x1024_S2x512x1024 : S1x512x1024.Broadcasts S2x512x1024
  reduces_S2x512x1024_S2x1024 : S2x512x1024.Reduces [1] S2x1024
  shapeCasts_S2x1x1024_S2x1024 : S2x1x1024.ShapeCasts S2x1024
  inb_S2x1024_S2x1024_0_0 : ∀ a, (![0, 0] : Fin 2 → Nat) a + S2x1024.size a ≤ S2x1024.size a
  h_S2x1024 : 0 < S2x1024.numel
  bcast_S2x1024_S2x1024x64_0_1 : S2x1024.BroadcastsInDim S2x1024x64 (![0, 1] : Fin 2 → Fin S2x1024x64.rank)
  shapeCasts_S2x1024x64_S2x65536 : S2x1024x64.ShapeCasts S2x65536
  slices_S2x65536_S2x65535_0_0 : S2x65536.Slices ![0, 0] S2x65535
  bcast_S2x65535_S2x1x65535_0_2 : S2x65535.BroadcastsInDim S2x1x65535 (![0, 2] : Fin 2 → Fin S2x1x65535.rank)
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S1x256x8192_S1x256x8192_0_0_0 : ∀ a, (![0, 0, 0] : Fin 3 → Nat) a + S1x256x8192.size a ≤ S1x256x8192.size a
  h_S1x256x8192 : 0 < S1x256x8192.numel
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x1x8192 : S1x1x8192.ShapeCasts S1x1x8192
  reduces_S1x256x8192_S1x8192 : S1x256x8192.Reduces [1] S1x8192
  shapeCasts_S1x8192_S1x1x8192 : S1x8192.ShapeCasts S1x1x8192
  broadcasts_S1x1x8192_S1x256x8192 : S1x1x8192.Broadcasts S1x256x8192
  iota_S1x256x1_d1_w32 : S1x256x1.Iotas .tc 32 [1]
  broadcasts_S1x256x1_S1x256x8192 : S1x256x1.Broadcasts S1x256x8192
  iota_S1x1x8192_d2_w32 : S1x1x8192.Iotas .tc 32 [2]
  reduces_S1x1x8192_S1x1 : S1x1x8192.Reduces [2] S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x64x1024.size a ≤ S2x64x1024.size a
  hwx0_0 : ∀ i : grid0.Coords, EltTy.bits .f32 = 32 ∨ (Rect.block (s := S2x64x1024) S2x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x256x8192.size a < S2x256x65535.size a
  hwx1_0 : ∀ i : grid1.Coords, EltTy.bits .f32 = 32 ∨ (Rect.unit (s := S2x256x65535) (fun a => cc1_transform_0 i a * S1x256x8192.size a) (fun a => (Pipeline.Clip.of (cc1_transform_0 i a) (S1x256x8192.size a) (S2x256x65535.size a)).extent (S1x256x8192.size a)) fun a => Pipeline.Clip.inb (Pipeline.Clip.ok_of (hstart1_0 i a))).WholeWords (EltTy.packing .f32)
  hwxs1_0 : ∀ i : grid1.Coords, EltTy.bits .f32 = 32 ∨ (Rect.unit (s := S1x256x8192) (fun _ => 0) (fun a => (Pipeline.Clip.of (cc1_transform_0 i a) (S1x256x8192.size a) (S2x256x65535.size a)).extent (S1x256x8192.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1x1x8192.size a < S2x1x65535.size a
  hwx1_1 : ∀ i : grid1.Coords, EltTy.bits .i32 = 32 ∨ (Rect.unit (s := S2x1x65535) (fun a => cc1_transform_1 i a * S1x1x8192.size a) (fun a => (Pipeline.Clip.of (cc1_transform_1 i a) (S1x1x8192.size a) (S2x1x65535.size a)).extent (S1x1x8192.size a)) fun a => Pipeline.Clip.inb (Pipeline.Clip.ok_of (hstart1_1 i a))).WholeWords (EltTy.packing .i32)
  hwxs1_1 : ∀ i : grid1.Coords, EltTy.bits .i32 = 32 ∨ (Rect.unit (s := S1x1x8192) (fun _ => 0) (fun a => (Pipeline.Clip.of (cc1_transform_1 i a) (S1x1x8192.size a) (S2x1x65535.size a)).extent (S1x1x8192.size a)) fun a => (Nat.zero_add _).trans_le (Pipeline.Clip.extent_le (Pipeline.Clip.ok_of (hstart1_1 i a)))).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x1x8192.size a < S2x1x65535.size a
  hwx1_2 : ∀ i : grid1.Coords, EltTy.bits .f32 = 32 ∨ (Rect.unit (s := S2x1x65535) (fun a => cc1_transform_2 i a * S1x1x8192.size a) (fun a => (Pipeline.Clip.of (cc1_transform_2 i a) (S1x1x8192.size a) (S2x1x65535.size a)).extent (S1x1x8192.size a)) fun a => Pipeline.Clip.inb (Pipeline.Clip.ok_of (hstart1_2 i a))).WholeWords (EltTy.packing .f32)
  hwxs1_2 : ∀ i : grid1.Coords, EltTy.bits .f32 = 32 ∨ (Rect.unit (s := S1x1x8192) (fun _ => 0) (fun a => (Pipeline.Clip.of (cc1_transform_2 i a) (S1x1x8192.size a) (S2x1x65535.size a)).extent (S1x1x8192.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)

variable [Facts₀]

abbrev win0_0 : Pipeline.Window sig grid0 :=
  Pipeline.Window.ofSpec (Memref.whole main_arg1) S2x64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg0) S1x256x8192.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_arg3) S1x1x8192.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v4) S1x1x8192.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v5) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x256x65535 : Shape := ⟨3, ![2, 256, 65535]⟩
abbrev S2x64x1024 : Shape := ⟨3, ![2, 64, 1024]⟩
abbrev S512x1024 : Shape := ⟨2, ![512, 1024]⟩
abbrev S2x1x65535 : Shape := ⟨3, ![2, 1, 65535]⟩
abbrev S2x64x1x1024 : Shape := ⟨4, ![2, 64, 1, 1024]⟩
abbrev S1x1x512x1024 : Shape := ⟨4, ![1, 1, 512, 1024]⟩
abbrev S2x64x512x1024 : Shape := ⟨4, ![2, 64, 512, 1024]⟩
abbrev S_ : Shape := ⟨0, ![]⟩
abbrev S2x512x1024 : Shape := ⟨3, ![2, 512, 1024]⟩
abbrev S2x1024 : Shape := ⟨2, ![2, 1024]⟩
abbrev S2x1024x64 : Shape := ⟨3, ![2, 1024, 64]⟩
abbrev S2x65536 : Shape := ⟨2, ![2, 65536]⟩
abbrev S2x65535 : Shape := ⟨2, ![2, 65535]⟩
abbrev S2x1x65535x1 : Shape := ⟨4, ![2, 1, 65535, 1]⟩
abbrev S1 : Shape := ⟨1, ![1]⟩
abbrev S1x1x1x1 : Shape := ⟨4, ![1, 1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S2x256x65535, .f32⟩
  | .hbm, ⟨1, _⟩ => ⟨S2x64x1024, .f32⟩
  | .hbm, ⟨2, _⟩ => ⟨S512x1024, .f32⟩
  | .hbm, ⟨3, _⟩ => ⟨S2x1x65535, .i32⟩
  | .hbm, ⟨4, _⟩ => ⟨S2x64x1x1024, .f32⟩
  | .hbm, ⟨5, _⟩ => ⟨S1x1x512x1024, .f32⟩
  | .hbm, ⟨6, _⟩ => ⟨S2x64x512x1024, .f32⟩
  | .hbm, ⟨7, _⟩ => ⟨S2x64x512x1024, .f32⟩
  | .hbm, ⟨8, _⟩ => ⟨S2x64x512x1024, .f32⟩
  | .hbm, ⟨9, _⟩ => ⟨S2x64x512x1024, .f32⟩
  | .hbm, ⟨10, _⟩ => ⟨S_, .f32⟩
  | .hbm, ⟨11, _⟩ => ⟨S2x512x1024, .f32⟩
  | .hbm, ⟨12, _⟩ => ⟨S_, .f32⟩
  | .hbm, ⟨13, _⟩ => ⟨S2x1024, .f32⟩
  | .hbm, ⟨14, _⟩ => ⟨S2x64x1x1024, .f32⟩
  | .hbm, ⟨15, _⟩ => ⟨S1x1x512x1024, .f32⟩
  | .hbm, ⟨16, _⟩ => ⟨S2x64x512x1024, .f32⟩
  | .hbm, ⟨17, _⟩ => ⟨S2x64x512x1024, .f32⟩
  | .hbm, ⟨18, _⟩ => ⟨S2x64x512x1024, .f32⟩
  | .hbm, ⟨19, _⟩ => ⟨S2x64x512x1024, .f32⟩
  | .hbm, ⟨20, _⟩ => ⟨S_, .f32⟩
  | .hbm, ⟨21, _⟩ => ⟨S2x512x1024, .f32⟩
  | .hbm, ⟨22, _⟩ => ⟨S_, .f32⟩
  | .hbm, ⟨23, _⟩ => ⟨S2x1024, .f32⟩
  | .hbm, ⟨24, _⟩ => ⟨S_, .f32⟩
  | .hbm, ⟨25, _⟩ => ⟨S2x1024, .f32⟩
  | .hbm, ⟨26, _⟩ => ⟨S2x1024, .f32⟩
  | .hbm, ⟨27, _⟩ => ⟨S2x1024x64, .f32⟩
  | .hbm, ⟨28, _⟩ => ⟨S2x65536, .f32⟩
  | .hbm, ⟨29, _⟩ => ⟨S2x65535, .f32⟩
  | .hbm, ⟨30, _⟩ => ⟨S2x1x65535, .f32⟩
  | .hbm, ⟨31, _⟩ => ⟨S2x1024x64, .f32⟩
  | .hbm, ⟨32, _⟩ => ⟨S2x65536, .f32⟩
  | .hbm, ⟨33, _⟩ => ⟨S2x65535, .f32⟩
  | .hbm, ⟨34, _⟩ => ⟨S2x1x65535, .f32⟩
  | .hbm, ⟨35, _⟩ => ⟨S_, .f32⟩
  | .hbm, ⟨36, _⟩ => ⟨S2x65535, .f32⟩
  | .hbm, ⟨37, _⟩ => ⟨S_, .f32⟩
  | .hbm, ⟨38, _⟩ => ⟨S2x65535, .f32⟩
  | .hbm, ⟨39, _⟩ => ⟨S2x65535, .f32⟩
  | .hbm, ⟨40, _⟩ => ⟨S2x1x65535, .f32⟩
  | .hbm, ⟨41, _⟩ => ⟨S2x256x65535, .f32⟩
  | .hbm, ⟨42, _⟩ => ⟨S2x256x65535, .f32⟩
  | .hbm, ⟨43, _⟩ => ⟨S2x256x65535, .f32⟩
  | .hbm, ⟨44, _⟩ => ⟨S_, .f32⟩
  | .hbm, ⟨45, _⟩ => ⟨S2x65535, .f32⟩
  | .hbm, ⟨46, _⟩ => ⟨S2x1x65535, .f32⟩
  | .hbm, ⟨47, _⟩ => ⟨S2x1x65535, .f32⟩
  | .hbm, ⟨48, _⟩ => ⟨S2x256x65535, .f32⟩
  | .hbm, ⟨49, _⟩ => ⟨S2x256x65535, .f32⟩
  | .hbm, ⟨50, _⟩ => ⟨S_, .i32⟩
  | .hbm, ⟨51, _⟩ => ⟨S2x1x65535, .i32⟩
  | .hbm, ⟨52, _⟩ => ⟨S2x1x65535, .i1⟩
  | .hbm, ⟨53, _⟩ => ⟨S_, .i32⟩
  | .hbm, ⟨54, _⟩ => ⟨S2x1x65535, .i32⟩
  | .hbm, ⟨55, _⟩ => ⟨S2x1x65535, .i32⟩
  | .hbm, ⟨56, _⟩ => ⟨S2x1x65535, .i32⟩
  | .hbm, ⟨57, _⟩ => ⟨S2x1x65535x1, .i32⟩
  | .hbm, ⟨58, _⟩ => ⟨S1, .i32⟩
  | .hbm, ⟨59, _⟩ => ⟨S_, .i32⟩
  | .hbm, ⟨60, _⟩ => ⟨S2x1x65535x1, .i32⟩
  | .hbm, ⟨61, _⟩ => ⟨S2x1x65535x1, .i1⟩
  | .hbm, ⟨62, _⟩ => ⟨S1x1x1x1, .i32⟩
  | .hbm, ⟨63, _⟩ => ⟨S2x1x65535x1, .i32⟩
  | .hbm, ⟨64, _⟩ => ⟨S2x1x65535x1, .i1⟩
  | .hbm, ⟨65, _⟩ => ⟨S2x1x65535x1, .i1⟩
  | .hbm, ⟨66, _⟩ => ⟨S_, .i1⟩
  | .hbm, ⟨67, _⟩ => ⟨S2x1x65535, .i1⟩
  | .hbm, ⟨68, _⟩ => ⟨S2x1x65535, .f32⟩
  | .hbm, ⟨69, _⟩ => ⟨S_, .f32⟩
  | .hbm, ⟨70, _⟩ => ⟨S2x1x65535, .f32⟩
  | .hbm, ⟨71, _⟩ => ⟨S2x1x65535, .f32⟩
  | .hbm, ⟨72, _⟩ => ⟨S2x1x65535, .f32⟩
  | .hbm, ⟨73, _⟩ => ⟨S2x1x65535, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S2x256x65535, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_call0_cst_0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_cst_1 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_v26 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_cst : Ref sig .tc := ⟨.hbm, 69, rfl⟩
abbrev main_call1_v14 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_4 : Ref sig .tc := ⟨.hbm, 74, rfl⟩
abbrev main_v30 : Ref sig .tc := ⟨.hbm, 75, rfl⟩
abbrev main_cst_5 : Ref sig .tc := ⟨.hbm, 76, rfl⟩
abbrev main_v31 : Ref sig .tc := ⟨.hbm, 77, rfl⟩

abbrev nD : Nat := 1
abbrev τ : Topo := Topo.v7x

variable {F : FTy → Type} [FloatOps F]

class Facts₀ : Prop where
  bcast_S2x64x1024_S2x64x1x1024_0_1_3 : S2x64x1024.BroadcastsInDim S2x64x1x1024 (![0, 1, 3] : Fin 3 → Fin S2x64x1x1024.rank)
  bcast_S512x1024_S1x1x512x1024_2_3 : S512x1024.BroadcastsInDim S1x1x512x1024 (![2, 3] : Fin 2 → Fin S1x1x512x1024.rank)
  bcast_S2x64x1x1024_S2x64x512x1024_0_1_2_3 : S2x64x1x1024.BroadcastsInDim S2x64x512x1024 (![0, 1, 2, 3] : Fin 4 → Fin S2x64x512x1024.rank)
  bcast_S1x1x512x1024_S2x64x512x1024_0_1_2_3 : S1x1x512x1024.BroadcastsInDim S2x64x512x1024 (![0, 1, 2, 3] : Fin 4 → Fin S2x64x512x1024.rank)
  reducesTo_S2x64x512x1024_S2x512x1024_d1 : S2x64x512x1024.ReducesTo [1] S2x512x1024
  h_S_ : 0 < S_.numel
  reducesTo_S2x512x1024_S2x1024_d1 : S2x512x1024.ReducesTo [1] S2x1024
  bcast_S_S2x1024 : S_.BroadcastsInDim S2x1024 (![] : Fin 0 → Fin S2x1024.rank)
  bcast_S2x1024_S2x1024x64_0_1 : S2x1024.BroadcastsInDim S2x1024x64 (![0, 1] : Fin 2 → Fin S2x1024x64.rank)
  shapeCasts_S2x1024x64_S2x65536 : S2x1024x64.ShapeCasts S2x65536
  slices_S2x65536_S2x65535_0_0 : S2x65536.Slices ![0, 0] S2x65535
  bcast_S2x65535_S2x1x65535_0_2 : S2x65535.BroadcastsInDim S2x1x65535 (![0, 2] : Fin 2 → Fin S2x1x65535.rank)
  reducesTo_S2x256x65535_S2x65535_d1 : S2x256x65535.ReducesTo [1] S2x65535
  bcast_S_S2x65535 : S_.BroadcastsInDim S2x65535 (![] : Fin 0 → Fin S2x65535.rank)
  bcast_S2x1x65535_S2x256x65535_0_1_2 : S2x1x65535.BroadcastsInDim S2x256x65535 (![0, 1, 2] : Fin 3 → Fin S2x256x65535.rank)
  bcast_S_S2x1x65535 : S_.BroadcastsInDim S2x1x65535 (![] : Fin 0 → Fin S2x1x65535.rank)
  shapeCasts_S2x1x65535_S2x1x65535x1 : S2x1x65535.ShapeCasts S2x1x65535x1
  bcast_S_S2x1x65535x1 : S_.BroadcastsInDim S2x1x65535x1 (![] : Fin 0 → Fin S2x1x65535x1.rank)
  bcast_S1_S1x1x1x1_3 : S1.BroadcastsInDim S1x1x1x1 (![3] : Fin 1 → Fin S1x1x1x1.rank)
  bcast_S1x1x1x1_S2x1x65535x1_0_1_2_3 : S1x1x1x1.BroadcastsInDim S2x1x65535x1 (![0, 1, 2, 3] : Fin 4 → Fin S2x1x65535x1.rank)
  reducesTo_S2x1x65535x1_S2x1x65535_d3 : S2x1x65535x1.ReducesTo [3] S2x1x65535
  reducesTo_S2x1x65535_S_d0_1_2 : S2x1x65535.ReducesTo [0, 1, 2] S_
  gather_S2x256x65535_S2x1x65535x1_S2x1x65535_n_1_02_02_1_3_111_wf : GatherDims.WF S2x256x65535 S2x1x65535x1 S2x1x65535 [] [1] [0, 2] [1] [0, 2] 3 ![1, 1, 1]

variable [Facts₀]

def gather_S2x256x65535_S2x1x65535x1_S2x1x65535_n_1_02_02_1_3_111 : GatherDims S2x256x65535 S2x1x65535x1 S2x1x65535 where
  offsetDims := []
  collapsedSliceDims := [1]
  operandBatchingDims := [0, 2]
  startIndicesBatchingDims := [0, 2]
  startIndexMap := [1]
  indexVectorDim := 3
  sliceSizes := ![1, 1, 1]
  wf := gather_S2x256x65535_S2x1x65535x1_S2x1x65535_n_1_02_02_1_3_111_wf

class Facts : Prop extends Facts₀ where

variable [Facts]
-- ==== Proof.KI.Body0.lean ====
/-
  The first kernel's body (the codebook distance by its expansion: the sum of squares, the sum, and the minimum over
  the codebook rows of the quadratic in each row) as a triple over whole staging buffers.
-/
import proofs.«409296_j25357486916145_3_alg».proof.Proof.Gen.KernelIdeal.Launch
import proofs.«409296_j25357486916145_3_alg».proof.Proof.Gen.KernelIdeal.Skeleton
import proofs.«409296_j25357486916145_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on whole staging buffers: the two inputs are left as found, and the output buffer ends at the body's one
    stored value, the payload of the two loaded blocks. -/
theorem sound_kernel0 (c : Dev nD) (E : Set ℕ) (i : grid0.Coords)
    (a1 : Memref sig .tc .vmem S2x64x1024 .f32) (h1 : a1.IsWhole) (a2 : Memref sig .tc .vmem S512x1024 .f32) (h2 : a2.IsWhole)
    (a3 : Memref sig .tc .vmem S2x1024 .f32) (h3 : a3.IsWhole)
    (Y0 : Vec F S2x64x1024 .f32) (Y1 : Vec F S512x1024 .f32) (Y2 : Vec F S2x1024 .f32)
    (K : PUnit → sProp 𝕄) :
    iprop(owns (c : Thread nD τ) a1 fullShare Y0 ∗ owns (c : Thread nD τ) a2 fullShare Y1 ∗ owns (c : Thread nD τ) a3 fullShare Y2
        ∗ (iprop(owns (c : Thread nD τ) a1 fullShare Y0 ∗ owns (c : Thread nD τ) a2 fullShare Y1
            ∗ owns (c : Thread nD τ) a3 fullShare (k0_pay1 Y0 Y1)) -∗ K ⟨⟩))
      ⊢ wp frame (wpE (defs₀ (F := F)) Variants.none c none) E (cc0_kernel i a1 h1 a2 h2 a3 h3) K := by
  -- the zero offsets, however spelt, are the constant zero
  have hz3 : (![0, 0, 0] : Fin 3 → Nat) = fun _ => 0 := funext fun a => by fin_cases a <;> rfl
  have hz2 : (![0, 0] : Fin 2 → Nat) = fun _ => 0 := funext fun a => by fin_cases a <;> rfl
  simp only [cc0_kernel_eq_skeleton]; unfold cc0_kernel_skel
  unfold owns
  iintro ⟨⟨%f0, %hf0, H0⟩, ⟨%f1, %hf1, H1⟩, ⟨%f2, %hf2, H2⟩, Hk⟩
  subst hf0; subst hf1
  sl_exec
  sl_step
  iapply Hk
  -- the two inputs are held at the contents they were found at
  isplitl [H0]
  · iexists f0; isplitr; · ipureintro; rfl
    iexact H0
  isplitl [H1]
  · iexists f1; isplitr; · ipureintro; rfl
    iexact H1
  -- the output holds its earlier contents overwritten by the one store
  iexists _; isplitr
  swap; · iexact H2
  ipureintro
  -- the store's rectangle is the whole shape, so it covers every index and what is read back is its payload; each
  -- load's rectangle is the whole shape too, so each load reads the contents
  rw [View.read_writes_eq_canon _ _ _ (fun y => ⟨_, List.mem_singleton_self _,
      View.mem_set_unit_zero hz2 Facts₀.inb_S2x1024_S2x1024_0_0 y⟩),
    View.canon_unit_zero hz2, View.readAt_eq_ld, View.readAt_eq_ld, View.ld_unit_zero hz3, View.ld_unit_zero hz2]

end Cert.KernelIdeal.Hand

end
-- ==== Proof.KI.Body1.lean ====
/-
  The second kernel's body (the log-softmax and target gather over one tile of the wave axis, accumulated in a
  scratch row) as a triple over whole staging buffers.
-/
import proofs.«409296_j25357486916145_3_alg».proof.Proof.Gen.KernelIdeal.Launch
import proofs.«409296_j25357486916145_3_alg».proof.Proof.Gen.KernelIdeal.Skeleton
import proofs.«409296_j25357486916145_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first tile of a batch row: the scratch row is reset there. -/
def isFirst (i : grid1.Coords) : Prop :=
  Scalar.cmpi .ne (Scalar.extui (Scalar.cmpi .eq (BitVec.ofNat 32 (i 1).val) 0#32)) 0#32 = 1#1

instance (i : grid1.Coords) : Decidable (isFirst i) := by unfold isFirst; infer_instance

/-- What the scratch row holds after the body at a tile: the tile's sum added to what the row held, which at a
    batch row's first tile is the zero row. -/
def accNext (i : grid1.Coords) (Y0 : Vec F S1x256x8192 .f32) (Y1 : Vec F S1x1x8192 .i32) (Y2 : Vec F S1x1x8192 .f32)
    (S0 : Vec F S1x1x128 .f32) : Vec F S1x1x128 .f32 :=
  k1_pay1 (k1_pay3 i Y0 Y1 Y2) (if isFirst i then k1_pay2 (F := F) else S0)

/-! ## Whole-shape accesses

Every access of the body is the rectangle of the buffer's own extents at offset zero. Through it a load reads what
the view reads, and a store leaves its value whatever was stored before it. -/

section Whole

variable {Val : EltTy → Type} [∀ e, Nonempty (Val e)] {sg : RefSig} {κ : Kind} {sp : Space} {S : Shape} {e : EltTy}

/-- A load of the whole shape reads the contents as the view reads them. -/
theorem readAt_whole (v : View sg κ sp S e) (f : v.ty.Contents Val) {off : Fin S.rank → Nat} (h : off = fun _ => 0)
    (inb : ∀ a, off a + S.size a ≤ S.size a) {X : S.Idx → Val e} (hf : v.read Val f = X) :
    v.readAt Val (Rect.unit off S.size inb).toLoadRect f = X := by
  rw [View.readAt_eq_ld, hf, View.ld_unit_zero h]

/-- After a store of the whole shape the view reads the stored value, whatever the earlier stores and contents. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load of the whole shape after a store of the whole shape reads the stored value. -/
theorem readCov_whole (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-- The zero offset of a rank-three access, as the program spells it. -/
theorem zeros3 : (![0, 0, 0] : Fin 3 → Nat) = fun _ => 0 := funext fun a => by fin_cases a <;> rfl

/-! ## The body, case by case

The body branches twice on the tile's position in its batch row: at the first tile it resets the scratch row before
anything else, and at the last tile it copies the scratch row out after adding the tile's sum. In every case the three
inputs are read whole and left as found, and the scratch row ends at the tile's sum added to the row it started from
(the zero row after a reset). -/

set_option maxHeartbeats 1000000 in
/-- A batch row's first tile that is also its last: the scratch row is reset, takes the tile's sum, and is copied out. -/
theorem body1_first_last (c : Dev nD) (E : Set ℕ) (i : grid1.Coords) (hF : isFirst i) (hL : k1_cond2 i = 1#1)
    (a2 : Memref sig .tc .vmem S1x256x8192 .f32) (h2 : a2.IsWhole) (a3 : Memref sig .tc .vmem S1x1x8192 .i32) (h3 : a3.IsWhole)
    (a4 : Memref sig .tc .vmem S1x1x8192 .f32) (h4 : a4.IsWhole) (a5 : Memref sig .tc .vmem S1x1x128 .f32) (h5 : a5.IsWhole)
    (a6 : Memref sig .tc .vmem S1x1x128 .f32) (h6 : a6.IsWhole)
    (Y0 : Vec F S1x256x8192 .f32) (Y1 : Vec F S1x1x8192 .i32) (Y2 : Vec F S1x1x8192 .f32) (Y3 S0 : Vec F S1x1x128 .f32)
    (K : PUnit → sProp 𝕄) :
    iprop(owns (c : Thread nD τ) a2 fullShare Y0 ∗ owns (c : Thread nD τ) a3 fullShare Y1 ∗ owns (c : Thread nD τ) a4 fullShare Y2
        ∗ owns (c : Thread nD τ) a5 fullShare Y3 ∗ owns (c : Thread nD τ) a6 fullShare S0
        ∗ (iprop(owns (c : Thread nD τ) a2 fullShare Y0 ∗ owns (c : Thread nD τ) a3 fullShare Y1 ∗ owns (c : Thread nD τ) a4 fullShare Y2
            ∗ owns (c : Thread nD τ) a5 fullShare (accNext i Y0 Y1 Y2 S0)
            ∗ owns (c : Thread nD τ) a6 fullShare (accNext i Y0 Y1 Y2 S0)) -∗ K ⟨⟩))
      ⊢ wp frame (wpE (defs₀ (F := F)) Variants.none c none) E (cc1_kernel i a2 h2 a3 h3 a4 h4 a5 h5 a6 h6) K := by
  have hF' : Scalar.cmpi .ne (Scalar.extui (Scalar.cmpi .eq (BitVec.ofNat 32 (i 1).val) 0#32)) 0#32 = 1#1 := hF
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  sl_exec (disch := first | exact hF' | exact hL)
  sl_step
  have key : k1_pay1 (body1_first_last.sl.r c i a2 a3 a4 f2 f3 f4) (body1_first_last.sl.v36 (F := F) c a6)
      = accNext i Y0 Y1 Y2 S0 := by
    unfold accNext body1_first_last.sl.r body1_first_last.sl.v36 body1_first_last.sl.H6_1
    rw [if_pos hF, readCov_whole _ zeros3, readAt_whole _ _ zeros3 _ hf2, readAt_whole _ _ zeros3 _ hf3,
      readAt_whole _ _ zeros3 _ hf4]
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr
    swap; · iexact H5
    ipureintro
    rw [read_writes_whole _ _ zeros3]
    unfold body1_first_last.sl.v46 body1_first_last.sl.H6_2
    rw [readCov_whole _ zeros3]
    exact key
  · iexists _; isplitr
    swap; · iexact H6
    ipureintro
    unfold body1_first_last.sl.H6_2
    rw [read_writes_whole _ _ zeros3]
    exact key

set_option maxHeartbeats 1000000 in
/-- A batch row's first tile that is not its last: the scratch row is reset and takes the tile's sum; the output
    buffer is not touched. -/
theorem body1_first_inner (c : Dev nD) (E : Set ℕ) (i : grid1.Coords) (hF : isFirst i) (hL : ¬ k1_cond2 i = 1#1)
    (a2 : Memref sig .tc .vmem S1x256x8192 .f32) (h2 : a2.IsWhole) (a3 : Memref sig .tc .vmem S1x1x8192 .i32) (h3 : a3.IsWhole)
    (a4 : Memref sig .tc .vmem S1x1x8192 .f32) (h4 : a4.IsWhole) (a5 : Memref sig .tc .vmem S1x1x128 .f32) (h5 : a5.IsWhole)
    (a6 : Memref sig .tc .vmem S1x1x128 .f32) (h6 : a6.IsWhole)
    (Y0 : Vec F S1x256x8192 .f32) (Y1 : Vec F S1x1x8192 .i32) (Y2 : Vec F S1x1x8192 .f32) (Y3 S0 : Vec F S1x1x128 .f32)
    (K : PUnit → sProp 𝕄) :
    iprop(owns (c : Thread nD τ) a2 fullShare Y0 ∗ owns (c : Thread nD τ) a3 fullShare Y1 ∗ owns (c : Thread nD τ) a4 fullShare Y2
        ∗ owns (c : Thread nD τ) a5 fullShare Y3 ∗ owns (c : Thread nD τ) a6 fullShare S0
        ∗ (iprop(owns (c : Thread nD τ) a2 fullShare Y0 ∗ owns (c : Thread nD τ) a3 fullShare Y1 ∗ owns (c : Thread nD τ) a4 fullShare Y2
            ∗ owns (c : Thread nD τ) a5 fullShare (Y3)
            ∗ owns (c : Thread nD τ) a6 fullShare (accNext i Y0 Y1 Y2 S0)) -∗ K ⟨⟩))
      ⊢ wp frame (wpE (defs₀ (F := F)) Variants.none c none) E (cc1_kernel i a2 h2 a3 h3 a4 h4 a5 h5 a6 h6) K := by
  have hF' : Scalar.cmpi .ne (Scalar.extui (Scalar.cmpi .eq (BitVec.ofNat 32 (i 1).val) 0#32)) 0#32 = 1#1 := hF
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  sl_exec (disch := first | exact hF' | exact hL)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  · iexists _; isplitr
    swap; · iexact H6
    ipureintro
    rw [read_writes_whole _ _ zeros3]
    unfold accNext body1_first_inner.sl.r body1_first_inner.sl.v36 body1_first_inner.sl.H6_1
    rw [if_pos hF, readCov_whole _ zeros3, readAt_whole _ _ zeros3 _ hf2, readAt_whole _ _ zeros3 _ hf3,
      readAt_whole _ _ zeros3 _ hf4]

set_option maxHeartbeats 1000000 in
/-- A later tile that is its batch row's last: the scratch row takes the tile's sum over what it held, and is copied out. -/
theorem body1_later_last (c : Dev nD) (E : Set ℕ) (i : grid1.Coords) (hF : ¬ isFirst i) (hL : k1_cond2 i = 1#1)
    (a2 : Memref sig .tc .vmem S1x256x8192 .f32) (h2 : a2.IsWhole) (a3 : Memref sig .tc .vmem S1x1x8192 .i32) (h3 : a3.IsWhole)
    (a4 : Memref sig .tc .vmem S1x1x8192 .f32) (h4 : a4.IsWhole) (a5 : Memref sig .tc .vmem S1x1x128 .f32) (h5 : a5.IsWhole)
    (a6 : Memref sig .tc .vmem S1x1x128 .f32) (h6 : a6.IsWhole)
    (Y0 : Vec F S1x256x8192 .f32) (Y1 : Vec F S1x1x8192 .i32) (Y2 : Vec F S1x1x8192 .f32) (Y3 S0 : Vec F S1x1x128 .f32)
    (K : PUnit → sProp 𝕄) :
    iprop(owns (c : Thread nD τ) a2 fullShare Y0 ∗ owns (c : Thread nD τ) a3 fullShare Y1 ∗ owns (c : Thread nD τ) a4 fullShare Y2
        ∗ owns (c : Thread nD τ) a5 fullShare Y3 ∗ owns (c : Thread nD τ) a6 fullShare S0
        ∗ (iprop(owns (c : Thread nD τ) a2 fullShare Y0 ∗ owns (c : Thread nD τ) a3 fullShare Y1 ∗ owns (c : Thread nD τ) a4 fullShare Y2
            ∗ owns (c : Thread nD τ) a5 fullShare (accNext i Y0 Y1 Y2 S0)
            ∗ owns (c : Thread nD τ) a6 fullShare (accNext i Y0 Y1 Y2 S0)) -∗ K ⟨⟩))
      ⊢ wp frame (wpE (defs₀ (F := F)) Variants.none c none) E (cc1_kernel i a2 h2 a3 h3 a4 h4 a5 h5 a6 h6) K := by
  have hF' : ¬ (Scalar.cmpi .ne (Scalar.extui (Scalar.cmpi .eq (BitVec.ofNat 32 (i 1).val) 0#32)) 0#32 = 1#1) := hF
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  sl_exec (disch := first | exact hF' | exact hL)
  sl_step
  have key : k1_pay1 (body1_later_last.sl.r c i a2 a3 a4 f2 f3 f4)
      (View.readAt (Elt F) a6.view (Rect.unit ![0, 0, 0] S1x1x128.size inb_S1x1x128_S1x1x128_0_0_0).toLoadRect f6)
      = accNext i Y0 Y1 Y2 S0 := by
    unfold accNext body1_later_last.sl.r
    rw [if_neg hF, readAt_whole _ _ zeros3 _ hf2, readAt_whole _ _ zeros3 _ hf3, readAt_whole _ _ zeros3 _ hf4,
      readAt_whole _ _ zeros3 _ hf6]
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr
    swap; · iexact H5
    ipureintro
    rw [read_writes_whole _ _ zeros3]
    unfold body1_later_last.sl.v46 body1_later_last.sl.H6_1
    rw [readCov_whole _ zeros3]
    exact key
  · iexists _; isplitr
    swap; · iexact H6
    ipureintro
    unfold body1_later_last.sl.H6_1
    rw [read_writes_whole _ _ zeros3]
    exact key

set_option maxHeartbeats 1000000 in
/-- A later tile that is not its batch row's last: the scratch row takes the tile's sum over what it held; the output
    buffer is not touched. -/
theorem body1_later_inner (c : Dev nD) (E : Set ℕ) (i : grid1.Coords) (hF : ¬ isFirst i) (hL : ¬ k1_cond2 i = 1#1)
    (a2 : Memref sig .tc .vmem S1x256x8192 .f32) (h2 : a2.IsWhole) (a3 : Memref sig .tc .vmem S1x1x8192 .i32) (h3 : a3.IsWhole)
    (a4 : Memref sig .tc .vmem S1x1x8192 .f32) (h4 : a4.IsWhole) (a5 : Memref sig .tc .vmem S1x1x128 .f32) (h5 : a5.IsWhole)
    (a6 : Memref sig .tc .vmem S1x1x128 .f32) (h6 : a6.IsWhole)
    (Y0 : Vec F S1x256x8192 .f32) (Y1 : Vec F S1x1x8192 .i32) (Y2 : Vec F S1x1x8192 .f32) (Y3 S0 : Vec F S1x1x128 .f32)
    (K : PUnit → sProp 𝕄) :
    iprop(owns (c : Thread nD τ) a2 fullShare Y0 ∗ owns (c : Thread nD τ) a3 fullShare Y1 ∗ owns (c : Thread nD τ) a4 fullShare Y2
        ∗ owns (c : Thread nD τ) a5 fullShare Y3 ∗ owns (c : Thread nD τ) a6 fullShare S0
        ∗ (iprop(owns (c : Thread nD τ) a2 fullShare Y0 ∗ owns (c : Thread nD τ) a3 fullShare Y1 ∗ owns (c : Thread nD τ) a4 fullShare Y2
            ∗ owns (c : Thread nD τ) a5 fullShare (Y3)
            ∗ owns (c : Thread nD τ) a6 fullShare (accNext i Y0 Y1 Y2 S0)) -∗ K ⟨⟩))
      ⊢ wp frame (wpE (defs₀ (F := F)) Variants.none c none) E (cc1_kernel i a2 h2 a3 h3 a4 h4 a5 h5 a6 h6) K := by
  have hF' : ¬ (Scalar.cmpi .ne (Scalar.extui (Scalar.cmpi .eq (BitVec.ofNat 32 (i 1).val) 0#32)) 0#32 = 1#1) := hF
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  sl_exec (disch := first | exact hF' | exact hL)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  · iexists _; isplitr
    swap; · iexact H6
    ipureintro
    rw [read_writes_whole _ _ zeros3]
    unfold accNext body1_later_inner.sl.r
    rw [if_neg hF, readAt_whole _ _ zeros3 _ hf2, readAt_whole _ _ zeros3 _ hf3, readAt_whole _ _ zeros3 _ hf4,
      readAt_whole _ _ zeros3 _ hf6]

/-- The body on whole staging buffers: the three inputs are left as found, the scratch row ends at `accNext`, and
    the output buffer takes the scratch row at a batch row's last tile and is left as found elsewhere. -/
theorem sound_kernel1 (c : Dev nD) (E : Set ℕ) (i : grid1.Coords)
    (a2 : Memref sig .tc .vmem S1x256x8192 .f32) (h2 : a2.IsWhole) (a3 : Memref sig .tc .vmem S1x1x8192 .i32) (h3 : a3.IsWhole)
    (a4 : Memref sig .tc .vmem S1x1x8192 .f32) (h4 : a4.IsWhole) (a5 : Memref sig .tc .vmem S1x1x128 .f32) (h5 : a5.IsWhole)
    (a6 : Memref sig .tc .vmem S1x1x128 .f32) (h6 : a6.IsWhole)
    (Y0 : Vec F S1x256x8192 .f32) (Y1 : Vec F S1x1x8192 .i32) (Y2 : Vec F S1x1x8192 .f32) (Y3 S0 : Vec F S1x1x128 .f32)
    (K : PUnit → sProp 𝕄) :
    iprop(owns (c : Thread nD τ) a2 fullShare Y0 ∗ owns (c : Thread nD τ) a3 fullShare Y1 ∗ owns (c : Thread nD τ) a4 fullShare Y2
        ∗ owns (c : Thread nD τ) a5 fullShare Y3 ∗ owns (c : Thread nD τ) a6 fullShare S0
        ∗ (iprop(owns (c : Thread nD τ) a2 fullShare Y0 ∗ owns (c : Thread nD τ) a3 fullShare Y1 ∗ owns (c : Thread nD τ) a4 fullShare Y2
            ∗ owns (c : Thread nD τ) a5 fullShare (if k1_cond2 i = 1#1 then accNext i Y0 Y1 Y2 S0 else Y3)
            ∗ owns (c : Thread nD τ) a6 fullShare (accNext i Y0 Y1 Y2 S0)) -∗ K ⟨⟩))
      ⊢ wp frame (wpE (defs₀ (F := F)) Variants.none c none) E (cc1_kernel i a2 h2 a3 h3 a4 h4 a5 h5 a6 h6) K := by
  by_cases hF : isFirst i
  · by_cases hL : k1_cond2 i = 1#1
    · rw [if_pos hL]; exact body1_first_last c E i hF hL a2 h2 a3 h3 a4 h4 a5 h5 a6 h6 Y0 Y1 Y2 Y3 S0 K
    · rw [if_neg hL]; exact body1_first_inner c E i hF hL a2 h2 a3 h3 a4 h4 a5 h5 a6 h6 Y0 Y1 Y2 Y3 S0 K
  · by_cases hL : k1_cond2 i = 1#1
    · rw [if_pos hL]; exact body1_later_last c E i hF hL a2 h2 a3 h3 a4 h4 a5 h5 a6 h6 Y0 Y1 Y2 Y3 S0 K
    · rw [if_neg hL]; exact body1_later_inner c E i hF hL a2 h2 a3 h3 a4 h4 a5 h5 a6 h6 Y0 Y1 Y2 Y3 S0 K

end Cert.KernelIdeal.Hand

end
-- ==== Proof.KI.Data.lean ====
/-
  The proof data of the program's two pipelines, relational: what a staging buffer may hold after the body is stated as
  a relation to what the body found there, never as a closed form.

  Region 0 (one grid point, blocks that are the whole arrays): the two input buffers are left as found, and the output
  buffer takes the body's one stored value, the payload of what the two fetches staged.

  Region 1 (a 2 × 8 grid over batch row and tile of the wave axis; the last tile of a row overhangs the arrays by one
  column, so a fetch there stages the array's columns on the buffer's leading part and contents nobody names on the last
  lane): the three input buffers are left as found; a scratch row carried between points holds, after the body at a tile,
  the tile's masked sum added to what the row held, which is the zero row at a batch row's first tile (`Acc`: the
  contents reachable so, the fetches' unnamed lanes quantified away); the output buffer takes the scratch row at a batch
  row's last tile and is left as found at every other.
-/
import proofs.«409296_j25357486916145_3_alg».proof.Proof.KI.Body0
import proofs.«409296_j25357486916145_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

-- the TensorCore's buffer contents when a region is entered: the parameter both regions' data are stated at
variable (V : (c : Dev nD) → (b : Ref sig .tc) → Buf (Elt F) ((c : Thread nD τ).loc b))

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What window `w`'s staging buffer holds once the fetch at point `t` has landed in it, if it held `d`. -/
def stg0 (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk0 V c w t)

/-- The proof data of pipeline 0 on core `c`. -/
def rdat0 (c : Dev nD) : RDat τ (Elt F) Unit ℕ (UR sig nD τ) ℕ cfg0 c where
  A w := V c (Pipeline.arrRef spec0 w)
  after w t Y X := match w with
    | ⟨0, _⟩ => X = Y
    | ⟨1, _⟩ => X = Y
    | ⟨2, _⟩ => ∃ d0 d1, X = k0_pay1 (stg0 V c 0 t d0) (stg0 V c 1 t d1)
  Φ _ := Pipeline.ΦA spec0 c
  q _ := fullShare
  owed _ := 0

theorem fetched0 (c : Dev nD) (w : Fin cfg0.W) (t : Fin cfg0.N) (d) : (rdat0 V c).fetched w t d = stg0 V c w t d := rfl

/-- The body obligation of pipeline 0. -/
theorem body_obligation0 (c : Dev nD) : (rdat0 (F := F) V c).BodyObligation (defs₀ (F := F)) Variants.none () Set.univ := by
  intro t Y hY
  have h0 := ((rdat0 V c).finds_of_fetch (w := 0) (fetch0_0 t) (Y 0)).mp (hY 0)
  have h1 := ((rdat0 V c).finds_of_fetch (w := 1) (fetch0_1 t) (Y 1)).mp (hY 1)
  obtain ⟨d0, e0⟩ := h0
  obtain ⟨d1, e1⟩ := h1
  rw [bigSep_W0, bigSep_W0]
  show iprop((rdat0 V c).Φ t.castSucc ∗ (rdat0 V c).owesAt () t.castSucc
      ∗ owns (c : Thread nD τ) (st0_0 t) fullShare (Y 0) ∗ owns (c : Thread nD τ) (st0_1 t) fullShare (Y 1)
      ∗ owns (c : Thread nD τ) (st0_2 t) fullShare (Y 2))
    ⊢ wp frame (wpE (defs₀ (F := F)) Variants.none c none) Set.univ (bodyAt0 t) (fun _ =>
      iprop((rdat0 V c).Φ t.succ ∗ (rdat0 V c).owesAt () t.succ
        ∗ (∃ X, ⌜(rdat0 V c).after 0 t (Y 0) X⌝ ∗ owns (c : Thread nD τ) (st0_0 t) fullShare X)
        ∗ (∃ X, ⌜(rdat0 V c).after 1 t (Y 1) X⌝ ∗ owns (c : Thread nD τ) (st0_1 t) fullShare X)
        ∗ (∃ X, ⌜(rdat0 V c).after 2 t (Y 2) X⌝ ∗ owns (c : Thread nD τ) (st0_2 t) fullShare X)))
  rw [show (rdat0 V c).Φ t.succ = (rdat0 V c).Φ t.castSucc from rfl,
    show (rdat0 V c).owesAt () t.succ = (rdat0 V c).owesAt () t.castSucc from rfl]
  iintro ⟨HΦ, Ho, H0, H1, H2⟩
  iapply (sound_kernel0 c Set.univ (grid0.coords t) _ _ _ _ _ _ (Y 0) (Y 1) (Y 2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  swap; · iexact H2
  ipureintro
  exact ⟨d0, d1, by rw [e0, e1, fetched0, fetched0]⟩

/-! # Region 1 -/

/-- Window `w`'s block at point `t` (its part inside the array), read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What window `w`'s staging buffer holds once the fetch at point `t` has landed in it, if the overwrite before it
    left `d`: the block on the part inside the array, `d` past the array's end. -/
def stg1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

/-- What the scratch row may hold after the body at point `t`: at a batch row's first tile the tile's sum over the
    zero row, at a later tile the tile's sum over what the row may have held after the tile before; the three inputs as
    some fetch staged them. -/
inductive Acc (c : Dev nD) : Fin cfg1.N → Vec F S1x1x128 .f32 → Prop
  | first (t : Fin cfg1.N) (h : isFirst (grid1.coords t)) (d0 d1 d2) (S0 : Vec F S1x1x128 .f32) :
      Acc c t (accNext (grid1.coords t) (stg1 V c 0 t d0) (stg1 V c 1 t d1) (stg1 V c 2 t d2) S0)
  | next (t t' : Fin cfg1.N) (ht : t'.val = t.val + 1) (h : ¬ isFirst (grid1.coords t')) (d0 d1 d2) (S0 : Vec F S1x1x128 .f32)
      (h0 : Acc c t S0) :
      Acc c t' (accNext (grid1.coords t') (stg1 V c 0 t' d0) (stg1 V c 1 t' d1) (stg1 V c 2 t' d2) S0)

/-- The first point of the grid is a batch row's first tile. -/
theorem isFirst_of_zero : ∀ t : Fin cfg1.N, t.val = 0 → isFirst (grid1.coords t) :=
  (by decide +kernel : ∀ t : Fin grid1.N, t.val = 0 → isFirst (grid1.coords t))

/-- One more tile: from what the scratch row held (anything at a first tile, else something reachable at the tile
    before) to what it holds after this tile's body. -/
theorem Acc.step (c : Dev nD) (t : Fin cfg1.N) (S0 : Vec F S1x1x128 .f32)
    (h : isFirst (grid1.coords t) ∨ ∃ t0 : Fin cfg1.N, t.val = t0.val + 1 ∧ Acc V c t0 S0) (d0 d1 d2) :
    Acc V c t (accNext (grid1.coords t) (stg1 V c 0 t d0) (stg1 V c 1 t d1) (stg1 V c 2 t d2) S0) := by
  by_cases hf : isFirst (grid1.coords t)
  · exact Acc.first t hf d0 d1 d2 S0
  · obtain ⟨t0, ht, h0⟩ := h.resolve_left hf
    exact Acc.next t0 t ht hf d0 d1 d2 S0 h0

/-- The scoped buffers region 1 does not stage, but for its scratch row, and the generator register. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ ∃ r, prngReg c r)

theorem PhiA1_open (c : Dev nD) :
    (Pipeline.ΦA spec1 c : sProp 𝕄) ⊢ iprop((∃ d, owns (c : Thread nD τ) (Memref.whole cc1_scratch0) fullShare d) ∗ Rest1 (F := F) c) := by
  unfold Pipeline.ΦA Rest1; rw [scopedRest1_eq]; simp only [owns_whole]
  iintro ⟨⟨H0, H1, H2, ⟨%f, H3⟩⟩, Hg⟩
  isplitl [H3]
  · iexists f; iexact H3
  isplitl [H0]; · iexact H0
  isplitl [H1]; · iexact H1
  isplitl [H2]; · iexact H2
  iexact Hg

theorem PhiA1_close (c : Dev nD) :
    iprop((∃ d, owns (c : Thread nD τ) (Memref.whole cc1_scratch0) fullShare d) ∗ Rest1 (F := F) c) ⊢ (Pipeline.ΦA spec1 c : sProp 𝕄) := by
  unfold Pipeline.ΦA Rest1; rw [scopedRest1_eq]; simp only [owns_whole]
  iintro ⟨⟨%d, H3⟩, H0, H1, H2, Hg⟩
  isplitr [Hg]
  · isplitl [H0]; · iexact H0
    isplitl [H1]; · iexact H1
    isplitl [H2]; · iexact H2
    iexists d; iexact H3
  iexact Hg

/-- The region's invariant before position `n`: before the first point the scoped rest at anything; afterwards the
    scratch row at something reachable after the point before. -/
def Phi1 (c : Dev nD) : (n : ℕ) → n ≤ cfg1.N → sProp 𝕄
  | 0, _ => Pipeline.ΦA spec1 c
  | n + 1, hn => iprop((∃ S, ⌜Acc V c ⟨n, hn⟩ S⌝ ∗ owns (c : Thread nD τ) (Memref.whole cc1_scratch0) fullShare S) ∗ Rest1 c)

/-- Before any point the invariant hands the body the scratch row at contents that are anything at a first tile and
    reachable after the point before otherwise. -/
theorem Phi1_open (c : Dev nD) (t : Fin cfg1.N) :
    Phi1 V c t.val (Nat.le_of_lt t.isLt)
      ⊢ iprop(∃ S0, ⌜isFirst (grid1.coords t) ∨ ∃ t0 : Fin cfg1.N, t.val = t0.val + 1 ∧ Acc V c t0 S0⌝
          ∗ owns (c : Thread nD τ) (Memref.whole cc1_scratch0) fullShare S0 ∗ Rest1 (F := F) c) := by
  obtain ⟨n, hn⟩ := t
  cases n with
  | zero =>
    show Pipeline.ΦA spec1 c ⊢ _
    refine (PhiA1_open c).trans ?_
    iintro ⟨⟨%d, H⟩, Hr⟩
    iexists d; isplitr; · ipureintro; exact Or.inl (isFirst_of_zero _ rfl)
    isplitl [H]; · iexact H
    iexact Hr
  | succ n =>
    show iprop((∃ S, ⌜Acc V c ⟨n, _⟩ S⌝ ∗ owns (c : Thread nD τ) (Memref.whole cc1_scratch0) fullShare S) ∗ Rest1 c) ⊢ _
    iintro ⟨⟨%S, %hS, H⟩, Hr⟩
    iexists S; isplitr; · ipureintro; exact Or.inr ⟨⟨n, Nat.lt_of_succ_lt hn⟩, rfl, hS⟩
    isplitl [H]; · iexact H
    iexact Hr

/-- The proof data of pipeline 1 on core `c`. -/
def rdat1 (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => (k1_cond2 (grid1.coords t) = 1#1 → Acc V c t X) ∧ (¬ k1_cond2 (grid1.coords t) = 1#1 → X = Y)
  Φ t := Phi1 V c t.val (Nat.le_of_lt_succ t.isLt)
  q _ := fullShare
  owed _ := 0

theorem fetched1 (c : Dev nD) (w : Fin cfg1.W) (t : Fin cfg1.N) (d) : (rdat1 V c).fetched w t d = stg1 V c w t d := rfl

/-- The body obligation of pipeline 1. -/
theorem body_obligation1 (c : Dev nD) : (rdat1 (F := F) V c).BodyObligation (defs₀ (F := F)) Variants.none () Set.univ := by
  intro t Y hY
  obtain ⟨d0, e0⟩ := ((rdat1 V c).finds_of_fetch (w := 0) (fetch1_0 t) (Y 0)).mp (hY 0)
  obtain ⟨d1, e1⟩ := ((rdat1 V c).finds_of_fetch (w := 1) (fetch1_1 t) (Y 1)).mp (hY 1)
  obtain ⟨d2, e2⟩ := ((rdat1 V c).finds_of_fetch (w := 2) (fetch1_2 t) (Y 2)).mp (hY 2)
  rw [bigSep_W1, bigSep_W1]
  show iprop(Phi1 V c t.val (Nat.le_of_lt t.isLt) ∗ (rdat1 V c).owesAt () t.castSucc
      ∗ owns (c : Thread nD τ) (st1_0 t) fullShare (Y 0) ∗ owns (c : Thread nD τ) (st1_1 t) fullShare (Y 1)
      ∗ owns (c : Thread nD τ) (st1_2 t) fullShare (Y 2) ∗ owns (c : Thread nD τ) (st1_3 t) fullShare (Y 3))
    ⊢ wp frame (wpE (defs₀ (F := F)) Variants.none c none) Set.univ (bodyAt1 t) (fun _ =>
      iprop(Phi1 V c (t.val + 1) t.isLt ∗ (rdat1 V c).owesAt () t.succ
        ∗ (∃ X, ⌜(rdat1 V c).after 0 t (Y 0) X⌝ ∗ owns (c : Thread nD τ) (st1_0 t) fullShare X)
        ∗ (∃ X, ⌜(rdat1 V c).after 1 t (Y 1) X⌝ ∗ owns (c : Thread nD τ) (st1_1 t) fullShare X)
        ∗ (∃ X, ⌜(rdat1 V c).after 2 t (Y 2) X⌝ ∗ owns (c : Thread nD τ) (st1_2 t) fullShare X)
        ∗ (∃ X, ⌜(rdat1 V c).after 3 t (Y 3) X⌝ ∗ owns (c : Thread nD τ) (st1_3 t) fullShare X)))
  rw [show (rdat1 V c).owesAt () t.succ = (rdat1 V c).owesAt () t.castSucc from rfl,
    show Phi1 V c (t.val + 1) t.isLt = iprop((∃ S, ⌜Acc V c ⟨t.val, t.isLt⟩ S⌝ ∗ owns (c : Thread nD τ) (Memref.whole cc1_scratch0) fullShare S) ∗ Rest1 c) from rfl]
  have hopen := Phi1_open V c t
  have hacc : ∀ S0 : Vec F S1x1x128 .f32, (isFirst (grid1.coords t) ∨ ∃ t0 : Fin cfg1.N, t.val = t0.val + 1 ∧ Acc V c t0 S0) →
      Acc V c t (accNext (grid1.coords t) (Y 0) (Y 1) (Y 2) S0) := by
    intro S0 hS0
    rw [e0, e1, e2, fetched1, fetched1, fetched1]
    exact Acc.step V c t S0 hS0 d0 d1 d2
  iintro ⟨HΦ, Ho, H0, H1, H2, H3⟩
  ihave HP := hopen $$ HΦ
  icases HP with ⟨%S0, %hS0, HS, Hr⟩
  iapply (sound_kernel1 c Set.univ (grid1.coords t) _ _ _ _ _ _ _ _ _ _ (Y 0) (Y 1) (Y 2) (Y 3) S0 _)
  isplitl [H0]; · iexact H0
  isplitl [H1]; · iexact H1
  isplitl [H2]; · iexact H2
  isplitl [H3]; · iexact H3
  isplitl [HS]; · iexact HS
  iintro ⟨H0, H1, H2, H3, HS⟩
  isplitl [HS Hr]
  · isplitl [HS]
    · iexists _; isplitr; · ipureintro; exact hacc S0 hS0
      iexact HS
    iexact Hr
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists _; isplitr
  swap; · iexact H3
  ipureintro
  exact ⟨fun h => by rw [if_pos h]; exact hacc S0 hS0, fun h => by rw [if_neg h]⟩

end Cert.KernelIdeal.Hand

end
-- ==== Proof.KI.Run.lean ====
/-
  The program's run. @main is the first pipeline, four host operations that repeat its result along the wave axis and
  drop the last column, the second pipeline, and six host operations that read one lane of its two result rows, add
  them and divide by the number of terms. Core `c`'s unscoped buffers are followed as a valuation from segment to
  segment: the launch contents; after the first pipeline its result array at the one contents its write-back can leave
  (its blocks are whole arrays, so the fetches leave nothing unnamed); after the second pipeline its result array at SOME
  contents its two write-backs may leave (`P5`: each written row is a scratch row reachable through the eight tiles of
  its batch row, whatever the fetches left on the overhanging lane); the host operations applied on top. Every weakly fair
  execution terminates, and the final memory holds that last valuation at every unscoped buffer.
-/
import proofs.«409296_j25357486916145_3_alg».proof.Proof.KI.Data
import proofs.«409296_j25357486916145_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 (c : Dev nD) : Valuation τ sig (Elt F) := fun b => m (c, b)
/-- The same read at the TensorCore's references: what the first pipeline's proof data take. -/
abbrev E0 : (c : Dev nD) → (b : Ref sig .tc) → Buf (Elt F) ((c : Thread nD τ).loc b) := fun c b => W0 m c b

/-- What the first pipeline's result array may hold at its exit. -/
def P0 (c : Dev nD) (O : Buf (Elt F) ((c : Thread nD τ).loc main_v0)) : Prop := (rdat0 (E0 m) c).ArrAt 2 cfg0.N O

/-- A fetch of an uncut block fills the whole buffer: nothing of what the buffer held is left. -/
theorem stg0_indep (V : (c : Dev nD) → (b : Ref sig .tc) → Buf (Elt F) ((c : Thread nD τ).loc b)) (c : Dev nD) (w : Fin cfg0.W) (t : Fin cfg0.N)
    (hclip : ∀ a, (cfg0.win w).clip (cfg0.grid.coords t) a = none) (d d') : stg0 V c w t d = stg0 V c w t d' := by
  funext j
  have hm : (cfg0.win w).moved (cfg0.grid.coords t) j = true :=
    ((cfg0.win w).moved_iff _ j).mpr fun a => by have := (j a).isLt; unfold Window.xsize; rw [hclip a]; exact this
  unfold stg0 Window.fill; rw [dif_pos hm, dif_pos hm]

/-- The first pipeline's one write-back: its result array is the launch contents overwritten through the one block by
    the body's stored value of what the two fetches staged. -/
theorem P0_eq (c : Dev nD) (O : Buf (Elt F) ((c : Thread nD τ).loc main_v0)) (h : P0 m c O) :
    ∃ d0 d1, O = ((cfg0.win 2).blk t0_0).view.write (Elt F) (E0 m c main_v0)
      ((cfg0.win 2).cut (cfg0.grid.coords t0_0) (k0_pay1 (stg0 (E0 m) c 0 t0_0 d0) (stg0 (E0 m) c 1 t0_0 d1))) Finset.univ := by
  unfold P0 at h
  rw [show cfg0.N = t0_0.val + 1 from rfl, RDat.ArrAt_succ, if_pos (flush0_2 t0_0)] at h
  obtain ⟨G₀, X, hG, ⟨Y, hY, hX⟩, rfl⟩ := h
  obtain ⟨d0, d1, rfl⟩ := hX
  exact ⟨d0, d1, by rw [show G₀ = E0 m c main_v0 from hG]⟩

/-- So it can hold one thing only. -/
theorem P0_unique (c : Dev nD) (O O' : Buf (Elt F) ((c : Thread nD τ).loc main_v0)) (h : P0 m c O) (h' : P0 m c O') : O = O' := by
  obtain ⟨d0, d1, rfl⟩ := P0_eq m c O h
  obtain ⟨d0', d1', rfl⟩ := P0_eq m c O' h'
  rw [stg0_indep (E0 m) c 0 t0_0 (fun _ => rfl) d0 d0', stg0_indep (E0 m) c 1 t0_0 (fun _ => rfl) d1 d1']

/-- The first pipeline's result array at its exit. -/
def O0 (c : Dev nD) : Buf (Elt F) ((c : Thread nD τ).loc main_v0) := Classical.epsilon (P0 m c)

theorem O0_eq (c : Dev nD) (O : Buf (Elt F) ((c : Thread nD τ).loc main_v0)) (h : P0 m c O) : O = O0 m c :=
  P0_unique m c O (O0 m c) h (Classical.epsilon_spec ⟨O, h⟩)

/-- After the first pipeline. -/
abbrev W1 (c : Dev nD) : Valuation τ sig (Elt F) := Function.update (W0 m c) main_v0 (O0 m c)
/-- After the four host operations between the pipelines (the second pipeline's entry). -/
abbrev W2 (c : Dev nD) : Valuation τ sig (Elt F) := StableHlo.after hostOps1 (W1 m c)
/-- The same read at the TensorCore's references: what the second pipeline's proof data take. -/
abbrev E2 : (c : Dev nD) → (b : Ref sig .tc) → Buf (Elt F) ((c : Thread nD τ).loc b) := fun c b => W2 m c b

/-- What the second pipeline's result array may hold at its exit. -/
def P5 (c : Dev nD) (O : Buf (Elt F) ((c : Thread nD τ).loc main_v5)) : Prop := (rdat1 (E2 m) c).ArrAt 3 cfg1.N O

/-- After the second pipeline, its result array at `O`. -/
abbrev W3 (c : Dev nD) (O : Buf (Elt F) ((c : Thread nD τ).loc main_v5)) : Valuation τ sig (Elt F) := Function.update (W2 m c) main_v5 O
/-- After the six host operations that follow it. -/
abbrev W4 (c : Dev nD) (O : Buf (Elt F) ((c : Thread nD τ).loc main_v5)) : Valuation τ sig (Elt F) := StableHlo.after hostOps2 (W3 m c O)

/-! ## The proof data family and the thread state -/

/-- Every pipeline's proof data, each at its region's entry contents. -/
def rdats : (p : Fin 2) → (c : Dev nD) → RDat τ (Elt F) Unit ℕ (UR sig nD τ) ℕ (Pipeline.pin (pcfgs (F := F)) adm p) c
  | ⟨0, _⟩ => fun c => rdat0 (E0 m) c
  | ⟨1, _⟩ => fun c => rdat1 (E2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last stretch, entered from a result array of the second pipeline that is known only to be one its write-backs
    may leave: it runs from whichever it is. -/
def hsegLast : Pipeline.HostSeg (Name := ℕ) (U := UR sig nD τ) (pcfgs (F := F)) defs₀ 𝒱₀ L lv where
  prog := StableHlo.seq hostOps2
  pre c := iprop(∃ O, ⌜P5 m c O⌝ ∗ StableHlo.held (c : Thread nD τ) (Pipeline.ucRefs τ sig) (W3 m c O) ∗ R c)
  post c := iprop(∃ O, ⌜P5 m c O⌝ ∗ StableHlo.held (c : Thread nD τ) (Pipeline.ucRefs τ sig) (W4 m c O) ∗ R c)
  run c {β} k K := by
    iintro ⟨Hk, Hbd, ⟨%O, %hO, Hh, HR⟩, Hl⟩
    have hrun := (hseg hostOps2 hostOps2_sub hostOps2_fresh (fun c' => W3 m c' O)).run c k K
    dsimp only [hseg, Pipeline.HostSeg.ofOps] at hrun
    iapply hrun
    isplitl [Hk]
    · iintro ⟨Hbd, Hh, HR⟩
      iapply Hk
      isplitl [Hbd]; · iexact Hbd
      iexists O; isplitr; · ipureintro; exact hO
      isplitl [Hh]; · iexact Hh
      iexact HR
    isplitl [Hbd]; · iexact Hbd
    isplitl [Hh HR]
    · isplitl [Hh]; · iexact Hh
      iexact HR
    iexact Hl

theorem share0 (c : Dev nD) (w : Fin cfg0.W) : (rdat0 (F := F) (E0 m) c).share w = fullShare := by
  unfold RDat.share; split <;> rfl
theorem share1 (c : Dev nD) (w : Fin cfg1.W) : (rdat1 (F := F) (E2 m) c).share w = fullShare := by
  unfold RDat.share; split <;> rfl

/-! ## The regions as segments -/

/-- The windows' arrays at contents `Fn` beside the unscoped rest are all the unscoped buffers at a valuation that is
    `Fn` at the arrays and the rest's elsewhere. -/
theorem unscopedBufs_of_arraysR {p : Fin 2} (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c : Thread nD τ).loc b))
    (Fn : (w : Fin (Pipeline.pin (pcfgs (F := F)) adm p).W) → Buf (Elt F) (((Pipeline.pin (pcfgs (F := F)) adm p).spec w).arr.view.loc (c : Thread nD τ)))
    (hF : ∀ w, Fn w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays Fn ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-- The first pipeline's arrays at its exit: the two inputs as entered, the result at its one possible contents. -/
def F0 (c : Dev nD) : (w : Fin cfg0.W) → Buf (Elt F) ((cfg0.win w).arr.view.loc (c : Thread nD τ))
  | ⟨0, _⟩ => E0 m c main_arg1
  | ⟨1, _⟩ => E0 m c main_arg2
  | ⟨2, _⟩ => O0 m c

theorem arraysAt0 (c : Dev nD) : ((rdat0 (E0 m) c).arraysAt cfg0.N : sProp 𝕄) ⊢ (rdat0 (E0 m) c).arrays (F0 m c) := by
  unfold RDat.arraysAt RDat.arrays
  rw [bigSep_W0, bigSep_W0]
  iintro ⟨⟨%G0, %h0, H0⟩, ⟨%G1, %h1, H1⟩, ⟨%G2, %h2, H2⟩⟩
  have e0 : G0 = F0 m c 0 := by rw [(rdat0 (E0 m) c).ArrAt_in 0 rfl] at h0; exact h0
  have e1 : G1 = F0 m c 1 := by rw [(rdat0 (E0 m) c).ArrAt_in 1 rfl] at h1; exact h1
  have e2 : G2 = F0 m c 2 := O0_eq m c G2 h2
  subst e0 e1 e2
  isplitl [H0]; · iexact H0
  isplitl [H1]; · iexact H1
  iexact H2

-- a library lemma stated over `pin pcs a p` unifies with the pinned configuration only when unification may unfold plain
-- definitions in a metavariable's type
set_option backward.isDefEq.respectTransparency.types false in
/-- REGION 0 over the thread state: entered from every unscoped buffer at `W0`, left at `W1`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (E0 m) c
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.RDat.arrays_of_unscopedBufs (p := 0) (pcfgs (F := F)) adm (rdats m) launch0.win launch0.arr_whole c
      (share0 m c) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arraysR m (p := 0) launch0.win launch0.arr_whole c (share0 m c)
      (E0 m c) (fun b => W1 m c b) (F0 m c)
      (fun w => match w with
        | ⟨0, _⟩ => show W0 m c main_arg1 = Function.update (W0 m c) main_v0 (O0 m c) main_arg1 from
            (Function.update_of_ne (β := fun b : DevRef τ sig => b.ty.Contents (Elt F)) (StableHlo.devRef_ne_of_ne (by decide) : (Proc.devRef .tc main_arg1 : DevRef τ sig) ≠ Proc.devRef .tc main_v0) (O0 m c) (W0 m c)).symm
        | ⟨1, _⟩ => show W0 m c main_arg2 = Function.update (W0 m c) main_v0 (O0 m c) main_arg2 from
            (Function.update_of_ne (β := fun b : DevRef τ sig => b.ty.Contents (Elt F)) (StableHlo.devRef_ne_of_ne (by decide) : (Proc.devRef .tc main_arg2 : DevRef τ sig) ≠ Proc.devRef .tc main_v0) (O0 m c) (W0 m c)).symm
        | ⟨2, _⟩ => show O0 m c = Function.update (W0 m c) main_v0 (O0 m c) main_v0 from (Function.update_self (β := fun b : DevRef τ sig => b.ty.Contents (Elt F)) (Proc.devRef .tc main_v0 : DevRef τ sig) (O0 m c) (W0 m c)).symm)
      (fun b hb => Function.update_of_ne (StableHlo.devRef_ne_of_ne (fun e => hb (Finset.mem_image.mpr ⟨2, Finset.mem_univ _, e.symm⟩))) _ _)
    rw [Pipeline.unscopedBufs_held] at hjoin
    have hat : ((rdats m 0 c).arraysAt (Pipeline.pin (pcfgs (F := F)) adm 0).N : sProp 𝕄) ⊢ (rdats m 0 c).arrays (F0 m c) := arraysAt0 m c
    iintro ⟨Ha, HO, HY, Hrest⟩
    ihave Ha' := hat $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-- The second pipeline's arrays at its exit, its result at `O`: the three inputs as entered. -/
def F1 (c : Dev nD) (O : Buf (Elt F) ((c : Thread nD τ).loc main_v5)) : (w : Fin cfg1.W) → Buf (Elt F) ((cfg1.win w).arr.view.loc (c : Thread nD τ))
  | ⟨0, _⟩ => E2 m c main_arg0
  | ⟨1, _⟩ => E2 m c main_arg3
  | ⟨2, _⟩ => E2 m c main_v4
  | ⟨3, _⟩ => O

theorem arraysAt1 (c : Dev nD) :
    ((rdat1 (E2 m) c).arraysAt cfg1.N : sProp 𝕄) ⊢ iprop(∃ O, ⌜P5 m c O⌝ ∗ (rdat1 (E2 m) c).arrays (F1 m c O)) := by
  unfold RDat.arraysAt RDat.arrays
  simp only [bigSep_W1]
  iintro ⟨⟨%G0, %h0, H0⟩, ⟨%G1, %h1, H1⟩, ⟨%G2, %h2, H2⟩, ⟨%G3, %h3, H3⟩⟩
  have e0 : G0 = F1 m c G3 0 := by rw [(rdat1 (E2 m) c).ArrAt_in 0 rfl] at h0; exact h0
  have e1 : G1 = F1 m c G3 1 := by rw [(rdat1 (E2 m) c).ArrAt_in 1 rfl] at h1; exact h1
  have e2 : G2 = F1 m c G3 2 := by rw [(rdat1 (E2 m) c).ArrAt_in 2 rfl] at h2; exact h2
  subst e0 e1 e2
  iexists G3
  isplitr; · ipureintro; exact h3
  isplitl [H0]; · iexact H0
  isplitl [H1]; · iexact H1
  isplitl [H2]; · iexact H2
  iexact H3

-- as for region 0
set_option backward.isDefEq.respectTransparency.types false in
/-- REGION 1 over the thread state: entered from every unscoped buffer at `W2`, left at `W3` of some result array its
    write-backs may leave. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (E2 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(∃ O, ⌜P5 m c O⌝ ∗ StableHlo.held (c : Thread nD τ) (Pipeline.ucRefs τ sig) (W3 m c O) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.RDat.arrays_of_unscopedBufs (p := 1) (pcfgs (F := F)) adm (rdats m) launch1.win launch1.arr_whole c
      (share1 m c) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none,
      show (rdats m 1 c).Φ (Fin.last _) = iprop((∃ S, ⌜Acc (E2 m) c ⟨15, by decide⟩ S⌝ ∗ owns (c : Thread nD τ) (Memref.whole cc1_scratch0) fullShare S) ∗ Rest1 c) from rfl]
    have hc := PhiA1_close (F := F) c
    unfold Pipeline.ΦA at hc
    iintro ⟨⟨%S, -, HS⟩, Hr⟩
    ihave H := hc $$ [HS Hr]
    · isplitl [HS]
      · iexists S; iexact HS
      iexact Hr
    icases H with ⟨Hs, Hp⟩
    isplitl [Hp]; · iexact Hp
    isplitr; · iempintro
    iexact Hs
  hexit c := by
    have hat : ((rdats m 1 c).arraysAt (Pipeline.pin (pcfgs (F := F)) adm 1).N : sProp 𝕄)
        ⊢ iprop(∃ O, ⌜P5 m c O⌝ ∗ (rdats m 1 c).arrays (F1 m c O)) := arraysAt1 m c
    have hjoin : ∀ O, iprop((rdats m 1 c).arrays (F1 m c O) ∗ Pipeline.unscopedRest (Ix := Unit) (Name := ℕ) (U := UR sig nD τ) (Lvl := ℕ) spec1 c (E2 m c))
        ⊢ (StableHlo.held (c : Thread nD τ) (Pipeline.ucRefs τ sig) (W3 m c O) : sProp 𝕄) := fun O => by
      have h := unscopedBufs_of_arraysR m (p := 1) launch1.win launch1.arr_whole c (share1 m c)
        (E2 m c) (fun b => W3 m c O b) (F1 m c O)
        (fun w => match w with
          | ⟨0, _⟩ => show W2 m c main_arg0 = Function.update (W2 m c) main_v5 O main_arg0 from
              (Function.update_of_ne (β := fun b : DevRef τ sig => b.ty.Contents (Elt F)) (StableHlo.devRef_ne_of_ne (by decide) : (Proc.devRef .tc main_arg0 : DevRef τ sig) ≠ Proc.devRef .tc main_v5) O (W2 m c)).symm
          | ⟨1, _⟩ => show W2 m c main_arg3 = Function.update (W2 m c) main_v5 O main_arg3 from
              (Function.update_of_ne (β := fun b : DevRef τ sig => b.ty.Contents (Elt F)) (StableHlo.devRef_ne_of_ne (by decide) : (Proc.devRef .tc main_arg3 : DevRef τ sig) ≠ Proc.devRef .tc main_v5) O (W2 m c)).symm
          | ⟨2, _⟩ => show W2 m c main_v4 = Function.update (W2 m c) main_v5 O main_v4 from
              (Function.update_of_ne (β := fun b : DevRef τ sig => b.ty.Contents (Elt F)) (StableHlo.devRef_ne_of_ne (by decide) : (Proc.devRef .tc main_v4 : DevRef τ sig) ≠ Proc.devRef .tc main_v5) O (W2 m c)).symm
          | ⟨3, _⟩ => show O = Function.update (W2 m c) main_v5 O main_v5 from (Function.update_self (β := fun b : DevRef τ sig => b.ty.Contents (Elt F)) (Proc.devRef .tc main_v5 : DevRef τ sig) O (W2 m c)).symm)
        (fun b hb => Function.update_of_ne (StableHlo.devRef_ne_of_ne (fun e => hb (Finset.mem_image.mpr ⟨3, Finset.mem_univ _, e.symm⟩))) _ _)
      rw [Pipeline.unscopedBufs_held] at h
      exact h
    iintro ⟨Ha, HO, HY, Hrest⟩
    ihave Ha' := hat $$ Ha
    icases Ha' with ⟨%O, %hO, Ha'⟩
    imodintro
    iexists O
    isplitr; · ipureintro; exact hO
    isplitl [Ha' Hrest]
    · iapply (hjoin O); isplitl [Ha'] <;> iassumption
    isplitl [HY]; · iexact HY
    unfold Pipeline.RDat.owesAt Pipeline.owesWithin
    icases HO with ⟨%W, -, HO⟩; iexists W; iexact HO

/-! ## @main as segments, and the launch -/

variable (ρ : Dev nD → PrngReg)

/-- @main's four segments in order. -/
abbrev segs : List (Pipeline.RDat.Seg (pcfgs (F := F)) adm (rdats m) () defs₀ 𝒱₀ L lv) :=
  [ .region (reg0 m),
    .host (hseg hostOps1 hostOps1_sub hostOps1_fresh (W1 m)),
    .region (reg1 m),
    .host (hsegLast m) ]

/-- @main is the run of the segments. -/
theorem main_run (c : Dev nD) : main (F := F) c = Pipeline.RDat.Seg.run (segs m) := (main_chain c).trans (by chain_rfl)

/-- The last thread state without the `owes`. -/
abbrev Tₙ (c : Dev nD) : sProp 𝕄 :=
  iprop(∃ O, ⌜P5 m c O⌝ ∗ StableHlo.held (c : Thread nD τ) (Pipeline.ucRefs τ sig) (W4 m c O) ∗ ∃ r, prngReg c r)

-- the launch theorem's implicit arguments are found by unifying its conclusion with this one, which takes unfolding plain
-- definitions in a metavariable's type
set_option backward.isDefEq.respectTransparency.types false in
/-- THE RUN, at any float instance: from any memory with zero counters every weakly fair execution of @main on the
    TensorCores terminates, nothing faulting, and the final memory holds, at every unscoped buffer of every core, the
    last valuation for some result array of the second pipeline that its write-backs may leave. -/
theorem run_main : θ_run defs (onTc (τ := τ) (main (F := F))) ⟨m, fun _ => 0, ρ⟩ (fun r => ∀ c : Dev nD,
      ∃ O, P5 m c O ∧ ∀ b ∈ Pipeline.ucRefs τ sig, r.2.mem (((c : Thread nD τ)).1, b) = W4 m c O b) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(∃ O, ⌜P5 m c O⌝ ∗ StableHlo.held (c : Thread nD τ) (Pipeline.ucRefs τ sig) (W4 m c O) ∗ R c)
        ⊢ iprop(Tₙ m c ∗ ∃ W, owes (c : Thread nD τ) (0 : CellTallies nD τ sig Unit) W)
      iintro ⟨%O, %hO, Hh, Hp, HO⟩
      isplitl [Hh Hp]
      · iexists O; isplitr; · ipureintro; exact hO
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ O, P5 m c O ∧ ∀ b ∈ Pipeline.ucRefs τ sig, s.mem (((c : Thread nD τ)).1, b) = W4 m c O b)
    (hfin := fun c s' => by
      iintro ⟨⟨%O, %hO, Hh, -⟩, HSI⟩
      unfold StableHlo.held
      ihave Hr := (pointsTo_read_all (Pipeline.ucRefs τ sig) (fun b => (((c : Thread nD τ)).1, b)) (W4 m c O) s') $$ [Hh HSI]
      · isplitl [Hh] <;> iassumption
      icases Hr with ⟨%h, HSI⟩
      imodintro
      isplitr
      · ipureintro; exact ⟨O, hO, h⟩
      · iexact HSI)
    (hQ := fun s h c => h c)

/-- info: 'Cert.KernelIdeal.Hand.run_main' depends on axioms: [propext, Classical.choice, Quot.sound] -/
#guard_msgs in #print axioms run_main

/-! ## The arguments end as launched -/

theorem W4_of (c : Dev nD) (O : Buf (Elt F) ((c : Thread nD τ).loc main_v5)) (r : Ref sig .tc)
    (h2 : r ∉ hostOps2_W) (h5 : r ≠ main_v5) (h1 : r ∉ hostOps1_W) (h0 : r ≠ main_v0) : W4 m c O r = m ((c : Thread nD τ).loc r) :=
  (StableHlo.after_of_writes_sub hostOps2 _ hostOps2_writes h2).trans <|
    (Function.update_of_ne (StableHlo.devRef_ne_of_ne h5 : (Proc.devRef .tc r : DevRef τ sig) ≠ Proc.devRef .tc main_v5) _ _).trans <|
    (StableHlo.after_of_writes_sub hostOps1 _ hostOps1_writes h1).trans <|
    (Function.update_of_ne (StableHlo.devRef_ne_of_ne h0 : (Proc.devRef .tc r : DevRef τ sig) ≠ Proc.devRef .tc main_v0) _ _)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the run, read at the four argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨O, -, hO⟩ := h c
    exact ⟨(hO _ (mem_uc main_arg0 (by decide))).trans (W4_of m c O main_arg0 (by decide) (by decide) (by decide) (by decide)),
      (hO _ (mem_uc main_arg1 (by decide))).trans (W4_of m c O main_arg1 (by decide) (by decide) (by decide) (by decide)),
      (hO _ (mem_uc main_arg2 (by decide))).trans (W4_of m c O main_arg2 (by decide) (by decide) (by decide) (by decide)),
      (hO _ (mem_uc main_arg3 (by decide))).trans (W4_of m c O main_arg3 (by decide) (by decide) (by decide) (by decide))⟩)
    (run_main m ρ)

end Cert.KernelIdeal.Hand

end
-- ==== Proof.Sums.lean ====
/-
  Sums rearranged. A row of 65535 terms summed tile by tile — eight tiles of 8192 lanes, the last tile's last lane
  past the row's end and selected away, each tile's sum added to a running row sum that starts from zero — is the
  row's sum; and a sum over a three-axis index of extents 2, 1, 65535 is the double sum over its first and last
  coordinates. Addition of extended reals is commutative and associative, so nothing here needs the terms finite.
-/
import Idealize.ShloMosaic.PureOps.Ideal
import Idealize.ShloMosaic.Lib.ValueIdx
import Mathlib.Algebra.BigOperators.Group.Finset.Basic
import Mathlib.Data.Fintype.BigOperators

noncomputable section

namespace Cert.Bridge

open Idealize.ShloMosaic

/-- Tile `i` of row `b`: from zero, the lanes' terms, a lane past the row's end counting zero. -/
def tileSum (f : Fin 2 → Fin 65535 → EReal) (b : Fin 2) (i : ℕ) : EReal :=
  (0 : EReal) + ∑ l : Fin 8192, if h : i * 8192 + l.val < 65535 then f b ⟨i * 8192 + l.val, h⟩ else 0

/-- The running sum after tile `i`: tile 0 over zero, each later tile over what the tile before left. -/
def accUpTo (g : ℕ → EReal) : ℕ → EReal
  | 0 => 0 + g 0
  | i + 1 => accUpTo g i + g (i + 1)

/-- Row `b`'s terms along the naturals, zero from the row's end on. -/
def rowFn (f : Fin 2 → Fin 65535 → EReal) (b : Fin 2) (m : ℕ) : EReal :=
  if h : m < 65535 then f b ⟨m, h⟩ else 0

/-- A tile's sum is the sum of the row's terms over the tile's 8192 consecutive positions. -/
theorem tileSum_eq_range (f : Fin 2 → Fin 65535 → EReal) (b : Fin 2) (i : ℕ) :
    tileSum f b i = ∑ m ∈ Finset.range 8192, rowFn f b (i * 8192 + m) := by
  unfold tileSum
  rw [zero_add]
  exact Fin.sum_univ_eq_sum_range (fun m => rowFn f b (i * 8192 + m)) 8192

/-- The running sum after tile `i` is the sum of tiles `0` to `i`. -/
theorem accUpTo_eq_sum_range (g : ℕ → EReal) (i : ℕ) :
    accUpTo g i = ∑ k ∈ Finset.range (i + 1), g k := by
  induction i with
  | zero => rw [accUpTo, zero_add, Finset.sum_range_one]
  | succ i ih => rw [accUpTo, ih, Finset.sum_range_succ g (i + 1)]

/-- The first `i` blocks of `w` consecutive terms, summed block by block, are the first `i * w` terms. -/
theorem sum_blocks_range (F : ℕ → EReal) (w i : ℕ) :
    ∑ k ∈ Finset.range i, ∑ m ∈ Finset.range w, F (k * w + m) = ∑ m ∈ Finset.range (i * w), F m := by
  induction i with
  | zero => rw [Nat.zero_mul, Finset.range_zero, Finset.sum_empty, Finset.sum_empty]
  | succ i ih => rw [Finset.sum_range_succ, ih, Nat.succ_mul, Finset.sum_range_add]

/-- One row: the running sum after the eighth tile is the row's sum. The eight tiles hold positions `0` to `65535`;
    position `65535` is past the row's end and counts zero. -/
theorem accUpTo_tileSum (f : Fin 2 → Fin 65535 → EReal) (b : Fin 2) :
    accUpTo (tileSum f b) 7 = ∑ n : Fin 65535, f b n := by
  rw [accUpTo_eq_sum_range]
  have h1 : ∑ k ∈ Finset.range (7 + 1), tileSum f b k
      = ∑ k ∈ Finset.range 8, ∑ m ∈ Finset.range 8192, rowFn f b (k * 8192 + m) :=
    Finset.sum_congr rfl (fun k _ => tileSum_eq_range f b k)
  rw [h1, sum_blocks_range (rowFn f b) 8192 8]
  have h2 : (8 * 8192 : ℕ) = 65535 + 1 := by norm_num
  rw [h2, Finset.sum_range_succ]
  have h3 : rowFn f b 65535 = 0 := dif_neg (Nat.lt_irrefl _)
  rw [h3, add_zero, ← Fin.sum_univ_eq_sum_range (rowFn f b) 65535]
  exact Finset.sum_congr rfl (fun n _ => dif_pos n.isLt)

/-- Eight tiles cover a row. -/
theorem sum_tiles (f : Fin 2 → Fin 65535 → EReal) :
    ∑ b : Fin 2, accUpTo (tileSum f b) 7 = ∑ b : Fin 2, ∑ n : Fin 65535, f b n :=
  Finset.sum_congr rfl (fun b _ => accUpTo_tileSum f b)

/-- A three-axis index whose middle axis has extent 1 is the pair of its first and last coordinates. -/
def idxEquiv3mid1 {n0 n2 : Nat} : (⟨3, ![n0, 1, n2]⟩ : Shape).Idx ≃ Fin n0 × Fin n2 where
  toFun j := (j 0, j 2)
  invFun p := ValueIdx.ix3 p.1 (0 : Fin 1) p.2
  left_inv j := by
    funext a
    match a with
    | ⟨0, _⟩ => rfl
    | ⟨1, _⟩ => exact Subsingleton.elim (α := Fin 1) _ _
    | ⟨2, _⟩ => rfl
  right_inv _ := rfl

/-- A sum over the index of a 2 × 1 × 65535 array, by coordinates. -/
theorem sum_idx_2x1x65535 (g : (⟨3, ![2, 1, 65535]⟩ : Shape).Idx → EReal) :
    ∑ j : (⟨3, ![2, 1, 65535]⟩ : Shape).Idx, g j = ∑ b : Fin 2, ∑ n : Fin 65535, g (ValueIdx.ix3 b (0 : Fin 1) n) := by
  rw [← Equiv.sum_comp (idxEquiv3mid1 (n0 := 2) (n2 := 65535)).symm g, Fintype.sum_prod_type]
  rfl

/-- A one-axis index is its coordinate. -/
def idxEquiv1 {n : Nat} : (⟨1, ![n]⟩ : Shape).Idx ≃ Fin n where
  toFun j := j 0
  invFun a := ValueIdx.ix1 a
  left_inv j := (ValueIdx.eq_ix1 j).symm
  right_inv _ := rfl

/-- A sum over the index of a length-2 array, by its coordinate. -/
theorem sum_idx_2 (g : (⟨1, ![2]⟩ : Shape).Idx → EReal) :
    ∑ j : (⟨1, ![2]⟩ : Shape).Idx, g j = ∑ b : Fin 2, g (ValueIdx.ix1 b) := by
  rw [← Equiv.sum_comp (idxEquiv1 (n := 2)).symm g]
  rfl

end Cert.Bridge

end
-- ==== Proof.Host.lean ====
/-
  The host operations between and after the two pipelines, read at an index at the ideal instance, and the first
  pipeline's result array read at an index. Between the pipelines the result (2 × 1024) is repeated 64 times along a new
  last axis, flattened to 2 × 65536, cut to its first 65535 columns and given a middle axis of extent one: entry
  (b, 0, n) is entry (b, n / 64) of the result. After the second pipeline lane 0 of its two result rows is sliced out,
  the two are added from zero and the sum is divided by the number of terms.
-/
import proofs.«409296_j25357486916145_3_alg».proof.Proof.KI.Run
import proofs.«409296_j25357486916145_3_alg».proof.Proof.Sums
import proofs.«409296_j25357486916145_3_alg».proof.Proof.RefRead
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.Bridge

open Idealize.ShloMosaic Idealize.ShloMosaic.TcCoe Idealize.SL.Sem
open Cert.KernelIdeal Cert.KernelIdeal.Gen Cert.KernelIdeal.Hand

/-- The four operations between the pipelines, composed: what they leave at the second pipeline's third operand. -/
theorem hostOps1_v4 (W : Valuation τ sig (Elt Ideal)) :
    (StableHlo.after (hostOps1 (F := Ideal)) W (Proc.devRef .tc main_v4) : Vec Ideal S2x1x65535 .f32)
      = broadcastInDim S2x1x65535 ![0, 2] bcast_S2x65535_S2x1x65535_0_2
          (extractStridedSlice S2x65535 ![0, 0]
            (shapeCast S2x65536
              (broadcastInDim S2x1024x64 ![0, 1] bcast_S2x1024_S2x1024x64_0_1 (W (Proc.devRef .tc main_v0) : Vec Ideal S2x1024 .f32))
              shapeCasts_S2x1024x64_S2x65536)
            slices_S2x65536_S2x65535_0_0) := by
  show StableHlo.after hostOps1 W (Proc.devRef .tc main_v4) = _
  after_results
  rfl

/-- The repeated codebook term at batch row `b`, wave position `n`: the first pipeline's result at (b, n / 64). -/
theorem host1_value (W : Valuation τ sig (Elt Ideal)) (b : Fin 2) (n : Fin 65535) :
    (StableHlo.after (hostOps1 (F := Ideal)) W main_v4 : Vec Ideal S2x1x65535 .f32) (ValueIdx.ix3 b (0 : Fin 1) n)
      = (W main_v0 : Vec Ideal S2x1024 .f32) (ValueIdx.ix2 b (⟨n.val / 64, by have := n.isLt; omega⟩ : Fin 1024)) := by
  have hn : n.val < 65535 := n.isLt
  have hb : b.val < 2 := b.isLt
  -- the index read at each stage, outermost first: (b, n) of the cut array, (b, n) of the flattened one,
  -- (b, n / 64, n % 64) of the repeated one, (b, n / 64) of the result
  let k3 : S2x65535.Idx := ValueIdx.ix2 b n
  let k2 : S2x65536.Idx := ValueIdx.ix2 b (⟨n.val, by omega⟩ : Fin 65536)
  let k1 : S2x1024x64.Idx := ValueIdx.ix3 b (⟨n.val / 64, by omega⟩ : Fin 1024) (⟨n.val % 64, by omega⟩ : Fin 64)
  show (StableHlo.after (hostOps1 (F := Ideal)) W (Proc.devRef .tc main_v4) : Vec Ideal S2x1x65535 .f32) _ = _
  rw [hostOps1_v4]
  refine (broadcastInDim_apply _ bcast_S2x65535_S2x1x65535_0_2 _ _ k3 (fun a => match a with
    | ⟨0, _⟩ => by show b.val = if (2 : Nat) = 1 then 0 else b.val; rw [if_neg (by decide)]
    | ⟨1, _⟩ => by show n.val = if (65535 : Nat) = 1 then 0 else n.val; rw [if_neg (by decide)])).trans ?_
  refine (extractStridedSlice_apply ![0, 0] _ slices_S2x65536_S2x65535_0_0 k3 k2 (fun a => match a with
    | ⟨0, _⟩ => by show b.val = 0 + b.val; omega
    | ⟨1, _⟩ => by show n.val = 0 + n.val; omega)).trans ?_
  refine (shapeCast_apply _ shapeCasts_S2x1024x64_S2x65536 k2 k1
    (by rewrite [Shape.rowMajor_val_three, Shape.rowMajor_val_two]
        show (b.val * 1024 + n.val / 64) * 64 + n.val % 64 = b.val * 65536 + n.val; omega)).trans ?_
  exact broadcastInDim_apply _ bcast_S2x1024_S2x1024x64_0_1 _ k1 _ (fun a => match a with
    | ⟨0, _⟩ => by show b.val = if (2 : Nat) = 1 then 0 else b.val; rw [if_neg (by decide)]
    | ⟨1, _⟩ => by show n.val / 64 = if (1024 : Nat) = 1 then 0 else n.val / 64; rw [if_neg (by decide)])

section Reference

variable [Cert.ReferenceIdeal.Facts]

/-- The reference's repeated codebook term at batch row `b`, wave position `n`: its minimum array at (b, n / 64). -/
theorem ref_codebook_at (x1 : Vec Ideal Cert.KernelIdeal.S2x64x1024 .f32) (x2 : Vec Ideal Cert.KernelIdeal.S512x1024 .f32) (b : Fin 2) (n : Fin 65535) :
    Cert.ReferenceIdeal.ReadP.val_main_v21 (F := Ideal) x1 x2 (ValueIdx.ix3 b (0 : Fin 1) n)
      = Cert.ReferenceIdeal.ReadP.val_main_v7 (F := Ideal) x1 x2 (ValueIdx.ix2 b (⟨n.val / 64, by have := n.isLt; omega⟩ : Fin 1024)) := by
  have hn : n.val < 65535 := n.isLt
  have hb : b.val < 2 := b.isLt
  rw [Cert.ReferenceIdeal.ReadP.val_main_v21_apply, Cert.ReferenceIdeal.ReadP.val_main_v20_apply,
    Cert.ReferenceIdeal.ReadP.val_main_v19_apply, Cert.ReferenceIdeal.ReadP.val_main_v18_apply]
  refine congrArg _ (funext fun a => Fin.ext ?_)
  match a with
  | ⟨0, _⟩ => show (b.val * 65536 + n.val) / 65536 = b.val; omega
  | ⟨1, _⟩ => show (b.val * 65536 + n.val) / 64 % 1024 = n.val / 64; omega

/-- The reference's repeated commitment term at batch row `b`, wave position `n`: its scaled minimum array at (b, n / 64). -/
theorem ref_commit_at (x1 : Vec Ideal Cert.KernelIdeal.S2x64x1024 .f32) (x2 : Vec Ideal Cert.KernelIdeal.S512x1024 .f32) (b : Fin 2) (n : Fin 65535) :
    Cert.ReferenceIdeal.ReadP.val_main_v25 (F := Ideal) x1 x2 (ValueIdx.ix3 b (0 : Fin 1) n)
      = Cert.ReferenceIdeal.ReadP.val_main_v17 (F := Ideal) x1 x2 (ValueIdx.ix2 b (⟨n.val / 64, by have := n.isLt; omega⟩ : Fin 1024)) := by
  have hn : n.val < 65535 := n.isLt
  have hb : b.val < 2 := b.isLt
  rw [Cert.ReferenceIdeal.ReadP.val_main_v25_apply, Cert.ReferenceIdeal.ReadP.val_main_v24_apply,
    Cert.ReferenceIdeal.ReadP.val_main_v23_apply, Cert.ReferenceIdeal.ReadP.val_main_v22_apply]
  refine congrArg _ (funext fun a => Fin.ext ?_)
  match a with
  | ⟨0, _⟩ => show (b.val * 65536 + n.val) / 65536 = b.val; omega
  | ⟨1, _⟩ => show (b.val * 65536 + n.val) / 64 % 1024 = n.val / 64; omega

end Reference

/-- Lane 0 of the second pipeline's result row `b`, as an extended real. -/
abbrev lane0 (W : Valuation τ sig (Elt Ideal)) (b : Fin 2) : EReal :=
  (W main_v5 : Vec Ideal S2x1x128 .f32) (ValueIdx.ix3 b (0 : Fin 1) (0 : Fin 128))

/-- The six operations after the second pipeline, composed: what they leave at the program's result. -/
theorem hostOps2_v9 (W : Valuation τ sig (Elt Ideal)) :
    (StableHlo.after (hostOps2 (F := Ideal)) W (Proc.devRef .tc main_v9) : Vec Ideal S_ .f32)
      = (Host.divf (F := Ideal)
          (Host.reduceAdd
            (shapeCast S2
              (extractStridedSlice S2x1x1 ![0, 0, 0] (W (Proc.devRef .tc main_v5) : Vec Ideal S2x1x128 .f32) slices_S2x1x128_S2x1x1_0_0_0)
              shapeCasts_S2x1x1_S2)
            (constant S_ .f32 0x00000000#32) reducesTo_S2_S_d0 h_S_)
          (constant S_ .f32 0x47FFFF00#32) : FVec Ideal S_ .f32) := by
  show StableHlo.after hostOps2 W (Proc.devRef .tc main_v9) = _
  after_results
  rfl

/-- The program's result: lane 0 of the second pipeline's two result rows added from zero, divided by the count. -/
theorem host2_value (W : Valuation τ sig (Elt Ideal)) (i : S_.Idx) :
    (StableHlo.after (hostOps2 (F := Ideal)) W main_v9 : Vec Ideal S_ .f32) i
      = FloatOps.hostDivf (F := Ideal)
          ((FloatOps.ofBits (F := Ideal) .f32 0x00000000#32 : EReal)
            + ∑ b : Fin 2, lane0 W b)
          (FloatOps.ofBits (F := Ideal) .f32 0x47FFFF00#32) := by
  show (StableHlo.after (hostOps2 (F := Ideal)) W (Proc.devRef .tc main_v9) : Vec Ideal S_ .f32) i = _
  rw [hostOps2_v9]
  show FloatOps.hostDivf (F := Ideal) (Host.reduceAdd _ _ reducesTo_S2_S_d0 h_S_ i) (FloatOps.ofBits (F := Ideal) .f32 0x47FFFF00#32) = _
  refine congrArg (fun x => FloatOps.hostDivf (F := Ideal) x _) ?_
  generalize hy : (shapeCast S2
      (extractStridedSlice S2x1x1 ![0, 0, 0] (W (Proc.devRef .tc main_v5) : Vec Ideal S2x1x128 .f32) slices_S2x1x128_S2x1x1_0_0_0)
      shapeCasts_S2x1x1_S2 : Vec Ideal S2 .f32) = y
  simp only [Host.reduceAdd, Ideal.hostReduceAdd_def]
  rw [Ideal.hostReduceAdd_total reducesTo_S2_S_d0 (fun b => b.elim0) y _ i, sum_idx_2]
  refine congrArg₂ (· + ·) rfl (Finset.sum_congr rfl fun b _ => ?_)
  subst hy
  -- entry b of the flattened slice is entry (b, 0, 0) of the slice, which is entry (b, 0, 0) of the result array
  refine (shapeCast_apply _ shapeCasts_S2x1x1_S2 (ValueIdx.ix1 b) (ValueIdx.ix3 b (0 : Fin 1) (0 : Fin 1))
    (by rewrite [Shape.rowMajor_val_three, Shape.rowMajor_val_one]
        show (b.val * 1 + 0) * 1 + 0 = b.val; omega)).trans ?_
  exact extractStridedSlice_apply ![0, 0, 0] _ slices_S2x1x128_S2x1x1_0_0_0 (ValueIdx.ix3 b (0 : Fin 1) (0 : Fin 1))
    (ValueIdx.ix3 b (0 : Fin 1) (0 : Fin 128)) (fun a => match a with
    | ⟨0, _⟩ => by show b.val = 0 + b.val; omega
    | ⟨1, _⟩ => by show 0 = 0 + 0; rfl
    | ⟨2, _⟩ => by show 0 = 0 + 0; rfl)

section FirstPipeline

variable {F : FTy → Type} [FloatOps F]

/-- The first pipeline's result window is written back only: it is never fetched. -/
theorem fetch0_2_false : (cfg0.win 2).fetch t0_0 = false := by decide +kernel

/-- One contents the first pipeline's result array may hold at its exit: the launch contents overwritten through the
    one block by the body's stored value of what the two fetches staged. -/
theorem P0_intro (m : (ℓ : Loc nD τ sig) → Buf (Elt F) ℓ) (c : Dev nD) (d0 d1) :
    P0 m c (((cfg0.win 2).blk t0_0).view.write (Elt F) (E0 m c main_v0)
      ((cfg0.win 2).cut (cfg0.grid.coords t0_0) (k0_pay1 (stg0 (E0 m) c 0 t0_0 d0) (stg0 (E0 m) c 1 t0_0 d1))) Finset.univ) := by
  unfold P0
  rw [show cfg0.N = t0_0.val + 1 from rfl, Pipeline.RDat.ArrAt_succ, if_pos (flush0_2 t0_0)]
  exact ⟨E0 m c main_v0, _, rfl, ⟨k0_pay1 (stg0 (E0 m) c 0 t0_0 d0) (stg0 (E0 m) c 1 t0_0 d1),
    (rdat0 (E0 m) c).finds_zero fetch0_2_false rfl _, ⟨d0, d1, rfl⟩⟩, rfl⟩

/-- Each window's one block is its whole array: the block index is zero on every axis, so an entry of the block sits
    in the array at its own coordinates (0 · extent + 1 · coordinate). The result's block, -/
theorem emb_v0 (y : S2x1024.Idx) : (win0_2.blk t0_0).view.emb y = y := by
  funext a
  refine Fin.ext ?_
  show ((win0_2.rect t0_0).emb y a : Nat) = _
  exact win0_2.rect_emb_val_of_index_zero t0_0 a (by match a with | ⟨0, _⟩ => rfl | ⟨1, _⟩ => rfl) y

/-- the first operand's, -/
theorem emb_a1 (y : S2x64x1024.Idx) : (win0_0.blk t0_0).view.emb y = y := by
  funext a
  refine Fin.ext ?_
  show ((win0_0.rect t0_0).emb y a : Nat) = _
  exact win0_0.rect_emb_val_of_index_zero t0_0 a (by match a with | ⟨0, _⟩ => rfl | ⟨1, _⟩ => rfl | ⟨2, _⟩ => rfl) y

/-- and the second operand's. -/
theorem emb_a2 (y : S512x1024.Idx) : (win0_1.blk t0_0).view.emb y = y := by
  funext a
  refine Fin.ext ?_
  show ((win0_1.rect t0_0).emb y a : Nat) = _
  exact win0_1.rect_emb_val_of_index_zero t0_0 a (by match a with | ⟨0, _⟩ => rfl | ⟨1, _⟩ => rfl) y

/-- The first operand's block is its whole array and is moved whole: once fetched, the staging buffer holds the array. -/
theorem stg0_arg1 (m : (ℓ : Loc nD τ sig) → Buf (Elt F) ℓ) (c : Dev nD) (d) :
    stg0 (E0 m) c 0 t0_0 d = m ((c : Thread nD τ).loc main_arg1) := by
  funext j
  have hm : (cfg0.win 0).moved (cfg0.grid.coords t0_0) j = true :=
    ((cfg0.win 0).moved_iff _ j).mpr fun a => (j a).isLt
  unfold stg0 Pipeline.Window.fill; rw [dif_pos hm]
  unfold iblk0
  rw [View.read_apply]
  exact congrArg (m ((c : Thread nD τ).loc main_arg1)) (emb_a1 j)

/-- The second operand's likewise. -/
theorem stg0_arg2 (m : (ℓ : Loc nD τ sig) → Buf (Elt F) ℓ) (c : Dev nD) (d) :
    stg0 (E0 m) c 1 t0_0 d = m ((c : Thread nD τ).loc main_arg2) := by
  funext j
  have hm : (cfg0.win 1).moved (cfg0.grid.coords t0_0) j = true :=
    ((cfg0.win 1).moved_iff _ j).mpr fun a => (j a).isLt
  unfold stg0 Pipeline.Window.fill; rw [dif_pos hm]
  unfold iblk0
  rw [View.read_apply]
  exact congrArg (m ((c : Thread nD τ).loc main_arg2)) (emb_a2 j)

/-- The result's block is its whole array: the write-back over the whole mask leaves the payload at every entry,
    whatever the array held. -/
theorem write_blk_v0 (G₀ K : FVec F S2x1024 .f32) (i : S2x1024.Idx) :
    (win0_2.blk t0_0).view.write (Elt F) G₀ (win0_2.cut (grid0.coords t0_0) K) Finset.univ i = K i := by
  have h := View.write_emb_of_mem (Val := Elt F) (v := (win0_2.blk t0_0).view) G₀ (win0_2.cut (grid0.coords t0_0) K) (Finset.mem_univ i)
  rw [emb_v0 i] at h
  exact h

end FirstPipeline

/-- The first pipeline's result array at its exit, entry by entry: the body's stored value of the two argument arrays
    (its blocks are the whole arrays, its one write-back overwrites the whole result). -/
theorem O0_value (m : (ℓ : Loc nD τ sig) → Buf (Elt Ideal) ℓ) (c : Dev nD) (i : S2x1024.Idx) :
    (O0 m c : Vec Ideal S2x1024 .f32) i
      = k0_pay1 (F := Ideal) (m ((c : Thread nD τ).loc main_arg1)) (m ((c : Thread nD τ).loc main_arg2)) i := by
  -- any contents of the two staging buffers will do for what the fetches overwrite
  have d0 : (cfg0.win 0).block.Idx → Elt Ideal (cfg0.win 0).elt := m ((c : Thread nD τ).loc main_arg1)
  have d1 : (cfg0.win 1).block.Idx → Elt Ideal (cfg0.win 1).elt := m ((c : Thread nD τ).loc main_arg2)
  rw [← O0_eq m c _ (P0_intro m c d0 d1), stg0_arg1, stg0_arg2]
  exact write_blk_v0 (E0 m c main_v0) (k0_pay1 (F := Ideal) (m ((c : Thread nD τ).loc main_arg1)) (m ((c : Thread nD τ).loc main_arg2))) i

end Cert.Bridge

end
-- ==== Proof.Codebook.lean ====
/-
  The codebook distance, both ways. For finite rows z and codebook rows e the kernel's expansion
  (min over k of 64·e_k² − (2·Σ_q z_q)·e_k, plus Σ_q z_q², times 1.25) is the reference's two terms
  (min over k of Σ_q (z_q − e_k)², plus that minimum times 0.25), entry by entry.
-/
import proofs.«409296_j25357486916145_3_alg».proof.Proof.Gen.KernelIdeal.Skeleton
import proofs.«409296_j25357486916145_3_alg».proof.Proof.RefRead
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Bridge

open Idealize.ShloMosaic

open Idealize.ShloMosaic.ValueIdx

/-! ## The float literals the two programs spell, as extended reals -/

theorem ofBits_64 : Ideal.ofBits .f32 0x42800000#32 = ((64 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_five_quarters : Ideal.ofBits .f32 0x3FA00000#32 = ((5 / 4 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

/-! ## Sums and minima of reals inside the extended reals -/

theorem coe_sum {ι : Type*} (s : Finset ι) (f : ι → ℝ) : ((∑ q ∈ s, f q : ℝ) : EReal) = ∑ q ∈ s, (f q : EReal) := by
  classical
  induction s using Finset.induction_on with
  | empty => simp
  | insert a s ha ih => rw [Finset.sum_insert ha, Finset.sum_insert ha, EReal.coe_add, ih]

/-- Adding a real to every term adds it to the minimum from +∞. -/
theorem fold_min_add {ι : Type*} (s : Finset ι) (g : ι → EReal) (c : ℝ) :
    s.fold min (⊤ : EReal) (fun k => g k + (c : EReal)) = s.fold min (⊤ : EReal) g + (c : EReal) := by
  classical
  induction s using Finset.induction_on with
  | empty => simp
  | insert a s ha ih => rw [Finset.fold_insert ha, Finset.fold_insert ha, ih, min_add_add_right]

/-- A value times 5/4 is the value plus a quarter of it, at the two infinities too. -/
theorem mul_five_quarters (X : EReal) : X * ((5 / 4 : ℝ) : EReal) = X + X * ((1 / 4 : ℝ) : EReal) := by
  induction X using EReal.rec with
  | bot => rw [EReal.bot_mul_coe_of_pos (by norm_num), EReal.bot_mul_coe_of_pos (by norm_num)]; rfl
  | top => rw [EReal.top_mul_coe_of_pos (by norm_num), EReal.top_mul_coe_of_pos (by norm_num)]; rfl
  | coe x => rw [← EReal.coe_mul, ← EReal.coe_mul, ← EReal.coe_add]; congr 1; ring

/-- The squared distance of a row to a codebook row, expanded. -/
theorem sq_dist_expand (z : Fin 64 → ℝ) (e : ℝ) :
    ∑ q, (z q - e) * (z q - e) = (64 * (e * e) - (2 * ∑ q, z q) * e) + ∑ q, z q * z q := by
  have h : ∀ q, (z q - e) * (z q - e) = z q * z q - 2 * e * z q + e * e := fun q => by ring
  simp only [h, Finset.sum_add_distrib, Finset.sum_sub_distrib, ← Finset.mul_sum, Finset.sum_const, Finset.card_univ,
    Fintype.card_fin, nsmul_eq_mul]
  push_cast; ring

/-! ## Layout operations read at an index given by coordinates -/

section Layout

variable {α : Type}

/-- A `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array cast to `[a, c]` reads, at `(i, j)`, the operand at `(i, 0, j)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- An `[a, 1, c]` array broadcast to `[a, m, c]` reads, at `(i, k, j)`, the operand at `(i, 0, j)`. -/
theorem broadcastTo_a1c_amc_apply {a m c : ℕ} (ha : a ≠ 1) (hc : c ≠ 1) (x : (⟨3, ![a, 1, c]⟩ : Shape).Idx → α)
    (h : (⟨3, ![a, 1, c]⟩ : Shape).Broadcasts ⟨3, ![a, m, c]⟩) (i : Fin a) (k : Fin m) (j : Fin c) :
    broadcastTo ⟨3, ![a, m, c]⟩ x h (ix3 i k j) = x (ix3 i (0 : Fin 1) j) := by
  refine broadcastTo_apply x h (ix3 i k j) (ix3 i (0 : Fin 1) j) fun ax => ?_
  match ax with
  | ⟨0, _⟩ => show i.val = if a = 1 then 0 else i.val; rw [if_neg ha]
  | ⟨1, _⟩ => rfl
  | ⟨2, _⟩ => show j.val = if c = 1 then 0 else j.val; rw [if_neg hc]

/-- A `[1, m, c]` array broadcast to `[a, m, c]` reads, at `(i, k, j)`, the operand at `(0, k, j)`. -/
theorem broadcastTo_1mc_amc_apply {a m c : ℕ} (hm : m ≠ 1) (hc : c ≠ 1) (x : (⟨3, ![1, m, c]⟩ : Shape).Idx → α)
    (h : (⟨3, ![1, m, c]⟩ : Shape).Broadcasts ⟨3, ![a, m, c]⟩) (i : Fin a) (k : Fin m) (j : Fin c) :
    broadcastTo ⟨3, ![a, m, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ => show k.val = if m = 1 then 0 else k.val; rw [if_neg hm]
  | ⟨2, _⟩ => show j.val = if c = 1 then 0 else j.val; rw [if_neg hc]

end Layout

/-! ## The kernel's stored value at an index -/

section Kernel

open Cert.KernelIdeal Cert.KernelIdeal.Gen

/-- A sum over axis 1 of a [2, 64, 1024] array, at (b, n): the sum over q of the array at (b, q, n). -/
theorem sum_axis1_apply (src : FVec Ideal S2x64x1024 .f32) (h : S2x64x1024.Reduces [1] S2x1024) (hφ : FKind.Formats .f32)
    (hacc : (0x00000000#32 : BitVec 32) = 0x00000000#32) (b : Fin 2) (n : Fin 1024) :
    multiReduction .add [1] S2x1024 src 0x00000000#32 h hφ hacc (ix2 b n) = ∑ q : Fin 64, src (ix3 b q n) := by
  refine (Ideal.multiReduction_add_single src 0x00000000#32 h hφ hacc (ix2 b n)).trans ?_
  refine Finset.sum_congr rfl fun q _ => ?_
  exact congrArg src (funext fun a => Fin.ext (by match a with | ⟨0, _⟩ => rfl | ⟨1, _⟩ => rfl | ⟨2, _⟩ => rfl))

/-- A minimum over axis 1 of a [2, 512, 1024] array from +∞, at (b, n): the minimum over k of the array at (b, k, n). -/
theorem min_axis1_apply (src : FVec Ideal S2x512x1024 .f32) (h : S2x512x1024.Reduces [1] S2x1024) (hφ : FKind.Formats .f32)
    (hacc : (0x7F800000#32 : BitVec 32) = 0x7F800000#32) (b : Fin 2) (n : Fin 1024) :
    multiReduction .minimumf [1] S2x1024 src 0x7F800000#32 h hφ hacc (ix2 b n)
      = (Finset.univ : Finset (Fin 512)).fold min (Ideal.ofBits .f32 0x7F800000#32) (fun k => src (ix3 b k n)) := by
  refine (multiReduction_minimumf_eq_fold src 0x7F800000#32 h hφ hacc (ix2 b n)).trans ?_
  refine (h.fold_filter_drop_single _ _ src (ix2 b n)).trans ?_
  show (Finset.univ : Finset (Fin 512)).fold min (Ideal.ofBits .f32 0x7F800000#32) (src ∘ h.lift (ix2 b n)) = _
  congr 1
  funext k
  exact congrArg src (funext fun a => Fin.ext (by match a with | ⟨0, _⟩ => rfl | ⟨1, _⟩ => rfl | ⟨2, _⟩ => rfl))

/-- The first kernel's stored value at (b, n), in closed form. -/
theorem k0_pay1_apply (x1 : Vec Ideal S2x64x1024 .f32) (x2 : Vec Ideal S512x1024 .f32) (b : Fin 2) (n : Fin 1024) :
    k0_pay1 (F := Ideal) x1 x2 (ix2 b n)
      = ((Finset.univ : Finset (Fin 512)).fold min (Ideal.ofBits .f32 0x7F800000#32) (fun k =>
            Ideal.ofBits .f32 0x42800000#32 * (x2 (ix2 k n) * x2 (ix2 k n))
              - (Ideal.ofBits .f32 0x40000000#32 * ∑ q : Fin 64, x1 (ix3 b q n)) * x2 (ix2 k n))
          + ∑ q : Fin 64, x1 (ix3 b q n) * x1 (ix3 b q n)) * Ideal.ofBits .f32 0x3FA00000#32 := by
  unfold k0_pay1
  dsimp only
  rw [mulf_apply, broadcast_apply, shapeCast_a1c_ac_apply, addf_apply, shapeCast_ac_a1c_apply, shapeCast_ac_a1c_apply]
  rw [sum_axis1_apply, min_axis1_apply]
  refine congrArg (· * _) (congrArg₂ (· + ·) (congrArg (fun f => Finset.fold min _ f Finset.univ) (funext fun k => ?_)) rfl)
  rw [subf_apply, broadcastTo_1mc_amc_apply (by decide) (by decide)]
  repeat rw [mulf_apply]
  rw [broadcast_apply, shapeCast_ab_1ab_apply, broadcastTo_a1c_amc_apply (by decide) (by decide),
    broadcastTo_1mc_amc_apply (by decide) (by decide), mulf_apply, broadcast_apply, shapeCast_ac_a1c_apply,
    sum_axis1_apply, shapeCast_ab_1ab_apply]
  rfl

end Kernel

/-! ## The reference's two terms at an index -/

section Reference

open Cert.ReferenceIdeal Cert.ReferenceIdeal.Gen Cert.ReferenceIdeal.ReadP

/-- The reference's squared distance of row (b, ·, n) to codebook row (k, n), as the sum it is. -/
theorem ref_dist_apply (x1 : (⟨S2x64x1024, .f32⟩ : BufTy).Contents (Elt Ideal)) (x2 : (⟨S512x1024, .f32⟩ : BufTy).Contents (Elt Ideal))
    (b : Fin 2) (k : Fin 512) (n : Fin 1024) :
    val_main_v6 (F := Ideal) x1 x2 (ix3 b k n)
      = Ideal.ofBits .f32 0x00000000#32 + ∑ q : Fin 64, (x1 (ix3 b q n) - x2 (ix2 k n)) * (x1 (ix3 b q n) - x2 (ix2 k n)) := by
  rw [val_main_v6_apply]
  refine congrArg₂ (· + ·) rfl (Finset.sum_congr rfl fun q _ => ?_)
  rw [val_main_v5_apply, val_main_v4_apply, val_main_v2_apply, val_main_v0_apply, val_main_v3_apply, val_main_v1_apply]
  have e1 : idx_main_v0 (idx_main_v2 (idx_main_v6 (ix3 b k n) q)) = ix3 b q n :=
    funext fun a => Fin.ext (by match a with | ⟨0, _⟩ => rfl | ⟨1, _⟩ => rfl | ⟨2, _⟩ => rfl)
  have e2 : idx_main_v1 (idx_main_v3 (idx_main_v6 (ix3 b k n) q)) = ix2 k n :=
    funext fun a => Fin.ext (by match a with | ⟨0, _⟩ => rfl | ⟨1, _⟩ => rfl)
  rw [e1, e2]
  rfl

/-- The same squared distance, as the reference computes it a second time. -/
theorem ref_dist'_apply (x1 : (⟨S2x64x1024, .f32⟩ : BufTy).Contents (Elt Ideal)) (x2 : (⟨S512x1024, .f32⟩ : BufTy).Contents (Elt Ideal))
    (b : Fin 2) (k : Fin 512) (n : Fin 1024) :
    val_main_v14 (F := Ideal) x1 x2 (ix3 b k n)
      = Ideal.ofBits .f32 0x00000000#32 + ∑ q : Fin 64, (x1 (ix3 b q n) - x2 (ix2 k n)) * (x1 (ix3 b q n) - x2 (ix2 k n)) := by
  rw [val_main_v14_apply]
  refine congrArg₂ (· + ·) rfl (Finset.sum_congr rfl fun q _ => ?_)
  rw [val_main_v13_apply, val_main_v12_apply, val_main_v10_apply, val_main_v8_apply, val_main_v11_apply, val_main_v9_apply]
  have e1 : idx_main_v8 (idx_main_v10 (idx_main_v14 (ix3 b k n) q)) = ix3 b q n :=
    funext fun a => Fin.ext (by match a with | ⟨0, _⟩ => rfl | ⟨1, _⟩ => rfl | ⟨2, _⟩ => rfl)
  have e2 : idx_main_v9 (idx_main_v11 (idx_main_v14 (ix3 b k n) q)) = ix2 k n :=
    funext fun a => Fin.ext (by match a with | ⟨0, _⟩ => rfl | ⟨1, _⟩ => rfl)
  rw [e1, e2]
  rfl

/-- A minimum over axis 1 of a [2, 512, 1024] array from +∞ on the host, at (b, n): the minimum over k of the array at (b, k, n). -/
theorem host_min_axis1_apply (y : S2x512x1024.Idx → Ideal .f32) (init : S_.Idx → Ideal .f32)
    (hinit : init (Shape.Idx.first h_S_) = Ideal.ofBits .f32 0x7F800000#32) (b : Fin 2) (n : Fin 1024) :
    Host.reduce FloatOps.minimumf y init reducesTo_S2x512x1024_S2x1024_d1 h_S_ (ix2 b n)
      = (Finset.univ : Finset (Fin 512)).fold min (Ideal.ofBits .f32 0x7F800000#32) (fun k => y (ix3 b k n)) := by
  refine (Host.reduce_eq_fold_single FloatOps.minimumf y init reducesTo_S2x512x1024_S2x1024_d1 (by decide) h_S_ (ix2 b n)).trans ?_
  rw [hinit]
  refine congrArg (fun f => Finset.fold min (Ideal.ofBits .f32 0x7F800000#32) f Finset.univ) (funext fun k => ?_)
  exact congrArg y (funext fun a => Fin.ext (by match a with | ⟨0, _⟩ => rfl | ⟨1, _⟩ => rfl | ⟨2, _⟩ => rfl))

/-- The reference's codebook term at (b, n): the minimum over the codebook rows of the squared distance. -/
theorem ref_min_apply (x1 : (⟨S2x64x1024, .f32⟩ : BufTy).Contents (Elt Ideal)) (x2 : (⟨S512x1024, .f32⟩ : BufTy).Contents (Elt Ideal))
    (b : Fin 2) (n : Fin 1024) :
    val_main_v7 (F := Ideal) x1 x2 (ix2 b n)
      = (Finset.univ : Finset (Fin 512)).fold min (Ideal.ofBits .f32 0x7F800000#32) (fun k =>
          Ideal.ofBits .f32 0x00000000#32 + ∑ q : Fin 64, (x1 (ix3 b q n) - x2 (ix2 k n)) * (x1 (ix3 b q n) - x2 (ix2 k n))) := by
  unfold val_main_v7
  refine (host_min_axis1_apply _ _ rfl b n).trans ?_
  exact congrArg (fun f => Finset.fold min (Ideal.ofBits .f32 0x7F800000#32) f Finset.univ) (funext fun k => ref_dist_apply x1 x2 b k n)

/-- The reference's commitment term at (b, n): a quarter of the same minimum. -/
theorem ref_commit_apply (x1 : (⟨S2x64x1024, .f32⟩ : BufTy).Contents (Elt Ideal)) (x2 : (⟨S512x1024, .f32⟩ : BufTy).Contents (Elt Ideal))
    (b : Fin 2) (n : Fin 1024) :
    val_main_v17 (F := Ideal) x1 x2 (ix2 b n)
      = (Finset.univ : Finset (Fin 512)).fold min (Ideal.ofBits .f32 0x7F800000#32) (fun k =>
          Ideal.ofBits .f32 0x00000000#32 + ∑ q : Fin 64, (x1 (ix3 b q n) - x2 (ix2 k n)) * (x1 (ix3 b q n) - x2 (ix2 k n)))
        * Ideal.ofBits .f32 0x3E800000#32 := by
  refine (val_main_v17_apply (F := Ideal) x1 x2 (ix2 b n)).trans ?_
  refine congrArg₂ (· * ·) ?_ ((val_main_v16_apply (F := Ideal) (ix2 b n)).trans (val_main_cst_3_apply (F := Ideal) _))
  unfold val_main_v15
  refine (host_min_axis1_apply _ _ rfl b n).trans ?_
  exact congrArg (fun f => Finset.fold min (Ideal.ofBits .f32 0x7F800000#32) f Finset.univ) (funext fun k => ref_dist'_apply x1 x2 b k n)

end Reference

/-! ## The two spellings agree -/

/-- Over real rows z and real codebook entries e: the minimum over k of 64·e_k² − (2·Σ z)·e_k, plus Σ z², times 5/4,
    is the minimum over k of Σ (z − e_k)² plus a quarter of that minimum. -/
theorem codebook_math (X : Fin 64 → EReal) (Y : Fin 512 → EReal) (hX : ∀ q, ∃ r : ℝ, X q = (r : EReal))
    (hY : ∀ k, ∃ r : ℝ, Y k = (r : EReal)) :
    ((Finset.univ : Finset (Fin 512)).fold min (Ideal.ofBits .f32 0x7F800000#32) (fun k =>
          Ideal.ofBits .f32 0x42800000#32 * (Y k * Y k) - (Ideal.ofBits .f32 0x40000000#32 * ∑ q : Fin 64, X q) * Y k)
        + ∑ q : Fin 64, X q * X q) * Ideal.ofBits .f32 0x3FA00000#32
      = (Finset.univ : Finset (Fin 512)).fold min (Ideal.ofBits .f32 0x7F800000#32) (fun k =>
            Ideal.ofBits .f32 0x00000000#32 + ∑ q : Fin 64, (X q - Y k) * (X q - Y k))
          + (Finset.univ : Finset (Fin 512)).fold min (Ideal.ofBits .f32 0x7F800000#32) (fun k =>
              Ideal.ofBits .f32 0x00000000#32 + ∑ q : Fin 64, (X q - Y k) * (X q - Y k))
            * Ideal.ofBits .f32 0x3E800000#32 := by
  choose z hz using hX
  choose e he using hY
  simp only [hz, he]
  rw [ofBits_64, ofBits_2, ofBits_five_quarters, ofBits_quarter, ofBits_inf, Ideal.ofBits_zero_f32]
  have hA : (fun k : Fin 512 => ((64 : ℝ) : EReal) * ((e k : EReal) * (e k : EReal))
        - (((2 : ℝ) : EReal) * ∑ q : Fin 64, (z q : EReal)) * (e k : EReal))
      = fun k => ((64 * (e k * e k) - (2 * ∑ q : Fin 64, z q) * e k : ℝ) : EReal) := by
    funext k
    rw [← coe_sum, ← EReal.coe_mul, ← EReal.coe_mul, ← EReal.coe_mul, ← EReal.coe_mul, ← EReal.coe_sub]
  have hS : (∑ q : Fin 64, (z q : EReal) * (z q : EReal)) = ((∑ q : Fin 64, z q * z q : ℝ) : EReal) := by
    rw [coe_sum]; simp only [EReal.coe_mul]
  have hD : (fun k : Fin 512 => (0 : EReal) + ∑ q : Fin 64, ((z q : EReal) - (e k : EReal)) * ((z q : EReal) - (e k : EReal)))
      = fun k => ((64 * (e k * e k) - (2 * ∑ q : Fin 64, z q) * e k : ℝ) : EReal) + ((∑ q : Fin 64, z q * z q : ℝ) : EReal) := by
    funext k
    rw [zero_add, ← EReal.coe_add, ← sq_dist_expand, coe_sum]
    simp only [EReal.coe_mul, EReal.coe_sub]
  rw [hA, hS, hD, fold_min_add]
  exact mul_five_quarters _

variable [Cert.KernelIdeal.Facts] [Cert.ReferenceIdeal.Facts]

/-- Entry by entry, the first kernel's stored value is the sum of the reference's codebook term and its commitment
    term, when every entry of the two arrays is a real number. -/
theorem codebook_eq (x1 : Vec Ideal Cert.KernelIdeal.S2x64x1024 .f32) (x2 : Vec Ideal Cert.KernelIdeal.S512x1024 .f32)
    (h1 : ∀ i, ∃ r : ℝ, x1 i = (r : EReal)) (h2 : ∀ i, ∃ r : ℝ, x2 i = (r : EReal)) (i : Cert.KernelIdeal.S2x1024.Idx) :
    Cert.KernelIdeal.Gen.k0_pay1 (F := Ideal) x1 x2 i
      = Cert.ReferenceIdeal.ReadP.val_main_v7 (F := Ideal) x1 x2 i + Cert.ReferenceIdeal.ReadP.val_main_v17 (F := Ideal) x1 x2 i := by
  obtain ⟨b, n, rfl⟩ : ∃ (b : Fin 2) (n : Fin 1024), i = ix2 b n := ⟨i 0, i 1, eq_ix2 i⟩
  refine (k0_pay1_apply x1 x2 b n).trans ?_
  refine Eq.trans ?_ (congrArg₂ (· + ·) (ref_min_apply x1 x2 b n) (ref_commit_apply x1 x2 b n)).symm
  exact codebook_math (fun q => x1 (ix3 b q n)) (fun k => x2 (ix2 k n)) (fun q => h1 _) (fun k => h2 _)

end Cert.Bridge

end
-- ==== Proof.TileCol.lean ====
/-
  One wave position's class column: the body's lane value and the reference's log-softmax entry at a target class are
  the same extended real when the column's scores are real numbers and the target is one of the classes.
-/
import Idealize.ShloMosaic.PureOps.Ideal.Laws

noncomputable section

namespace Cert.Bridge

open Idealize.ShloMosaic

/-- A column's maximum, from −∞. -/
def colMax (x : Fin 256 → EReal) : EReal := (Finset.univ : Finset (Fin 256)).fold max ⊥ x

/-- A lane's value from its class column `x`, its target word `t` and its codebook term `cb`: the column's entry at the
    target's class (the column summed where the class's word is the target), less the column's maximum plus the logarithm
    of the sum of the exponentials of the column's differences from its maximum, plus the codebook term. -/
def laneVal (x : Fin 256 → EReal) (t : BitVec 32) (cb : EReal) : EReal :=
  ((∑ c : Fin 256, if BitVec.ofNat 32 c.val = t then x c else 0)
      - (colMax x + Ideal.log (∑ c : Fin 256, Ideal.exp (x c - colMax x)))) + cb

/-- The log-softmax of the column `x` at class `t` as the reference takes it: the entry less the maximum (taken once
    more against −∞), less the logarithm of the sum from zero of the exponentials of the differences. -/
def refVal (x : Fin 256 → EReal) (t : Fin 256) : EReal :=
  (x t - max ⊥ (colMax x)) - Ideal.log (0 + ∑ c : Fin 256, Ideal.exp (x c - max ⊥ (colMax x)))

/-- For real `a` and `m` and any extended real `L`: `a − (m + L) = (a − m) − L`. -/
theorem sub_add_real (a m : ℝ) (L : EReal) : (a : EReal) - ((m : EReal) + L) = ((a : EReal) - (m : EReal)) - L := by
  induction L using EReal.rec with
  | bot => rw [EReal.add_bot, ← EReal.coe_sub, EReal.coe_sub_bot, EReal.coe_sub_bot]
  | coe r => rw [← EReal.coe_add, ← EReal.coe_sub, ← EReal.coe_sub, ← EReal.coe_sub]; exact congrArg _ (by ring)
  | top => rw [EReal.coe_add_top, EReal.sub_top, EReal.sub_top]

/-- The maximum of a column of real numbers is a real number. -/
theorem colMax_real (x : Fin 256 → EReal) (hx : ∀ c, ∃ r : ℝ, x c = (r : EReal)) : ∃ m : ℝ, colMax x = (m : EReal) := by
  choose rx hrx using hx
  have hle : colMax x ≤ ((Finset.univ.sup' ⟨(0 : Fin 256), Finset.mem_univ _⟩ rx : ℝ) : EReal) := by
    unfold colMax
    refine (Finset.fold_max_le _).mpr ⟨bot_le, fun c _ => ?_⟩
    rw [hrx c]
    exact EReal.coe_le_coe_iff.mpr (Finset.le_sup' rx (Finset.mem_univ c))
  have hge : ((rx 0 : ℝ) : EReal) ≤ colMax x := by
    unfold colMax
    rw [← hrx 0]
    exact (Finset.le_fold_max _).mpr (Or.inr ⟨0, Finset.mem_univ _, le_rfl⟩)
  have hbot : colMax x ≠ ⊥ := fun h => by rw [h] at hge; exact absurd (le_bot_iff.mp hge) (EReal.coe_ne_bot _)
  have htop : colMax x ≠ ⊤ := fun h => by rw [h] at hle; exact absurd (top_le_iff.mp hle) (EReal.coe_ne_top _)
  exact ⟨(colMax x).toReal, (EReal.coe_toReal htop hbot).symm⟩

/-- The column summed where the class's word is the word of class `t` is the entry at `t`. -/
theorem pick_eq (x : Fin 256 → EReal) (t : Fin 256) :
    (∑ c : Fin 256, if BitVec.ofNat 32 c.val = BitVec.ofNat 32 t.val then x c else 0) = x t := by
  have hinj : ∀ c : Fin 256, BitVec.ofNat 32 c.val = BitVec.ofNat 32 t.val ↔ c = t := fun c => by
    constructor
    · intro h
      have := congrArg BitVec.toNat h
      rw [BitVec.toNat_ofNat, BitVec.toNat_ofNat] at this
      have hc := c.isLt; have ht := t.isLt
      exact Fin.ext (by omega)
    · rintro rfl; rfl
  rw [Finset.sum_congr rfl (fun c _ => if_congr (hinj c) rfl rfl)]
  exact Finset.sum_ite_eq' Finset.univ t x |>.trans (if_pos (Finset.mem_univ t))

/-- THE LANE AGAINST THE REFERENCE: on a column of real numbers, at the word of a class, the lane's value is the
    reference's log-softmax entry at that class plus the codebook term. -/
theorem laneVal_eq (x : Fin 256 → EReal) (hx : ∀ c, ∃ r : ℝ, x c = (r : EReal)) (t : Fin 256) (cb : EReal) :
    laneVal x (BitVec.ofNat 32 t.val) cb = refVal x t + cb := by
  obtain ⟨m, hm⟩ := colMax_real x hx
  obtain ⟨a, ha⟩ := hx t
  unfold laneVal refVal
  rw [pick_eq, max_eq_right bot_le, zero_add, hm, ha, sub_add_real]

end Cert.Bridge
end
-- ==== Proof.TileKernel.lean ====
/-
  The second kernel's tile payload at the ideal instance, lane by lane: the masked sum over the tile's 8192 lanes of,
  per lane, the class column's entry at the target's class, minus the column's maximum plus the logarithm of the sum of
  the exponentials of the column's differences from its maximum, plus the codebook term.
-/
import proofs.«409296_j25357486916145_3_alg».proof.Proof.Gen.KernelIdeal.Skeleton
import proofs.«409296_j25357486916145_3_alg».proof.Proof.TileCol
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.Bridge

open Idealize.ShloMosaic Idealize.ShloMosaic.TcCoe Idealize.SL.Sem
open Idealize.ShloMosaic.ValueIdx
open Cert.KernelIdeal Cert.KernelIdeal.Gen

/-! ## The payload's stages

The payload named stage by stage, over the three loaded blocks: the class maximum of each lane's column, the
logarithm of the column's sum of exponentials above it, the column's entry at the target's class, the lane's value, and
the mask of the lanes inside the array. -/

/-- Each lane's class maximum, from −∞. -/
def kMax (Y0 : Vec Ideal S1x256x8192 .f32) : FVec Ideal S1x1x8192 .f32 :=
  shapeCast S1x1x8192 (multiReduction (F := Ideal) .maximumf [1] S1x8192 Y0 0xFF800000#32 reduces_S1x256x8192_S1x8192 (.inl rfl) rfl)
    shapeCasts_S1x8192_S1x1x8192

/-- The class scores less their lane's maximum. -/
def kDiff (Y0 : Vec Ideal S1x256x8192 .f32) : FVec Ideal S1x256x8192 .f32 :=
  subf Y0 (broadcastTo S1x256x8192 (kMax Y0) broadcasts_S1x1x8192_S1x256x8192)

/-- Each lane's maximum plus the logarithm of its sum of exponentials of the differences. -/
def kLse (Y0 : Vec Ideal S1x256x8192 .f32) : FVec Ideal S1x1x8192 .f32 :=
  addf (kMax Y0) (Idealize.ShloMosaic.log (shapeCast S1x1x8192
    (multiReduction (F := Ideal) .add [1] S1x8192 (Idealize.ShloMosaic.exp (kDiff Y0)) 0x00000000#32 reduces_S1x256x8192_S1x8192 (.inl rfl) rfl)
    shapeCasts_S1x8192_S1x1x8192))

/-- Each lane's class score at its target's class: the column summed under the mask "the class is the target". -/
def kPick (Y0 : Vec Ideal S1x256x8192 .f32) (Y1 : Vec Ideal S1x1x8192 .i32) : FVec Ideal S1x1x8192 .f32 :=
  shapeCast S1x1x8192 (multiReduction (F := Ideal) .add [1] S1x8192
    (select (cmpi .eq (broadcastTo S1x256x8192 (iota .tc S1x256x1 32 [1] iota_S1x256x1_d1_w32) broadcasts_S1x256x1_S1x256x8192)
        (broadcastTo S1x256x8192 Y1 broadcasts_S1x1x8192_S1x256x8192)) Y0
      (broadcast S1x256x8192 (Scalar.ofBits (F := Ideal) .f32 0x00000000#32)))
    0x00000000#32 reduces_S1x256x8192_S1x8192 (.inl rfl) rfl) shapeCasts_S1x8192_S1x1x8192

/-- Each lane's value: the picked score less the maximum and the logarithm, plus the codebook term. -/
def kLane (Y0 : Vec Ideal S1x256x8192 .f32) (Y1 : Vec Ideal S1x1x8192 .i32) (Y2 : Vec Ideal S1x1x8192 .f32) : FVec Ideal S1x1x8192 .f32 :=
  addf (subf (kPick Y0 Y1) (kLse Y0)) (shapeCast S1x1x8192 Y2 shapeCasts_S1x1x8192_S1x1x8192)

/-- The lanes of tile `i 1` that lie inside the array's 65535 wave positions. -/
def kMask (i : grid1.Coords) : IVec S1x1x8192 1 :=
  cmpi .slt (addi (broadcast S1x1x8192 (Scalar.muli (BitVec.ofNat 32 (i 1).val) 8192#32)) (iota .tc S1x1x8192 32 [2] iota_S1x1x8192_d2_w32))
    (broadcast S1x1x8192 65535#32)

/-- The payload is the sum over the lanes of the masked lane values. -/
theorem k1_pay3_eq (i : grid1.Coords) (Y0 : Vec Ideal S1x256x8192 .f32) (Y1 : Vec Ideal S1x1x8192 .i32) (Y2 : Vec Ideal S1x1x8192 .f32) :
    k1_pay3 (F := Ideal) i Y0 Y1 Y2
      = shapeCast S1x1x1 (multiReduction (F := Ideal) .add [2] S1x1
          (select (kMask i) (kLane Y0 Y1 Y2) (broadcast S1x1x8192 (Scalar.ofBits (F := Ideal) .f32 0x00000000#32)))
          0x00000000#32 reduces_S1x1x8192_S1x1 (.inl rfl) rfl) shapeCasts_S1x1_S1x1x1 := rfl

/-! ## Reductions read at an index -/

/-- The sum over the lanes of a one-row block, read at the result's one entry. -/
theorem laneSum_apply (v : FVec Ideal S1x1x8192 .f32) (hacc : (0x00000000#32 : BitVec 32) = 0x00000000#32) (k : S1x1x1.Idx) :
    shapeCast S1x1x1 (multiReduction (F := Ideal) .add [2] S1x1 v 0x00000000#32 reduces_S1x1x8192_S1x1 (.inl rfl) hacc) shapeCasts_S1x1_S1x1x1 k
      = ∑ l : Fin 8192, v (ix3 (0 : Fin 1) (0 : Fin 1) l) := by
  refine (shapeCast_addUnit_apply ![1, 1] _ shapeCasts_S1x1_S1x1x1 k).trans ?_
  refine (Ideal.multiReduction_add_single v 0x00000000#32 reduces_S1x1x8192_S1x1 (.inl rfl) hacc _).trans ?_
  refine Finset.sum_congr rfl fun l _ => congrArg v (funext fun a => Fin.ext ?_)
  match a with
  | ⟨0, _⟩ => exact (Nat.lt_one_iff.mp (Fin.isLt _)).trans (Nat.lt_one_iff.mp (Fin.isLt _)).symm
  | ⟨1, _⟩ => exact (Nat.lt_one_iff.mp (Fin.isLt _)).trans (Nat.lt_one_iff.mp (Fin.isLt _)).symm
  | ⟨2, _⟩ => rfl

/-- The sum over the classes of a block, read at lane `l`. -/
theorem classSum_apply (v : FVec Ideal S1x256x8192 .f32) (hacc : (0x00000000#32 : BitVec 32) = 0x00000000#32) (l : Fin 8192) :
    shapeCast S1x1x8192 (multiReduction (F := Ideal) .add [1] S1x8192 v 0x00000000#32 reduces_S1x256x8192_S1x8192 (.inl rfl) hacc)
        shapeCasts_S1x8192_S1x1x8192 (ix3 (0 : Fin 1) (0 : Fin 1) l)
      = ∑ c : Fin 256, v (ix3 (0 : Fin 1) c l) := by
  refine (shapeCast_addUnit_apply ![1, 8192] _ shapeCasts_S1x8192_S1x1x8192 _).trans ?_
  refine (Ideal.multiReduction_add_single v 0x00000000#32 reduces_S1x256x8192_S1x8192 (.inl rfl) hacc _).trans ?_
  refine Finset.sum_congr rfl fun c _ => congrArg v (funext fun a => Fin.ext ?_)
  match a with
  | ⟨0, _⟩ => rfl
  | ⟨1, _⟩ => rfl
  | ⟨2, _⟩ => rfl

/-- The maximum over the classes of a block, from the accumulator's value, read at lane `l`. -/
theorem classMax_apply (v : FVec Ideal S1x256x8192 .f32) (hacc : (0xFF800000#32 : BitVec 32) = 0xFF800000#32) (l : Fin 8192) :
    shapeCast S1x1x8192 (multiReduction (F := Ideal) .maximumf [1] S1x8192 v 0xFF800000#32 reduces_S1x256x8192_S1x8192 (.inl rfl) hacc)
        shapeCasts_S1x8192_S1x1x8192 (ix3 (0 : Fin 1) (0 : Fin 1) l)
      = (Finset.univ : Finset (Fin 256)).fold max (Ideal.ofBits .f32 0xFF800000#32) (fun c => v (ix3 (0 : Fin 1) c l)) := by
  refine (shapeCast_addUnit_apply ![1, 8192] _ shapeCasts_S1x8192_S1x1x8192 _).trans ?_
  refine (Ideal.multiReduction_maximumf_single v 0xFF800000#32 reduces_S1x256x8192_S1x8192 (.inl rfl) hacc _).trans ?_
  refine congrArg (fun f => (Finset.univ : Finset (Fin 256)).fold max (Ideal.ofBits .f32 0xFF800000#32) f) (funext fun c => ?_)
  refine congrArg v (funext fun a => Fin.ext ?_)
  match a with
  | ⟨0, _⟩ => rfl
  | ⟨1, _⟩ => rfl
  | ⟨2, _⟩ => rfl

/-! ## Layout operations read at an index -/

section Layout
variable {α : Type}

/-- A row broadcast over the classes reads the row. -/
theorem bcastRow_apply (v : S1x1x8192.Idx → α) (c : Fin 256) (l : Fin 8192) :
    broadcastTo S1x256x8192 v broadcasts_S1x1x8192_S1x256x8192 (ix3 (0 : Fin 1) c l) = v (ix3 (0 : Fin 1) (0 : Fin 1) l) :=
  broadcastTo_apply v broadcasts_S1x1x8192_S1x256x8192 _ (ix3 (0 : Fin 1) (0 : Fin 1) l) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show l.val = if (8192 : Nat) = 1 then 0 else l.val; rw [if_neg (by decide)])

/-- A column broadcast over the lanes reads the column. -/
theorem bcastCol_apply (v : S1x256x1.Idx → α) (c : Fin 256) (l : Fin 8192) :
    broadcastTo S1x256x8192 v broadcasts_S1x256x1_S1x256x8192 (ix3 (0 : Fin 1) c l) = v (ix3 (0 : Fin 1) c (0 : Fin 1)) :=
  broadcastTo_apply v broadcasts_S1x256x1_S1x256x8192 _ (ix3 (0 : Fin 1) c (0 : Fin 1)) (fun a => match a with
    | ⟨0, _⟩ => by show 0 = if (1 : Nat) = 1 then 0 else _; rw [if_pos rfl]
    | ⟨1, _⟩ => by show c.val = if (256 : Nat) = 1 then 0 else c.val; rw [if_neg (by decide)]
    | ⟨2, _⟩ => by show 0 = if (1 : Nat) = 1 then 0 else _; rw [if_pos rfl])

end Layout

/-- The two literals of the payload: the zero pattern is `0` and the negative-infinity pattern is `⊥`. -/
theorem ofBits_ninf_f32 : Ideal.ofBits .f32 0xFF800000#32 = ⊥ := by simp [Ideal.ofBits, Ideal.ieee]

/-- A select on a word equality is the conditional on the equality. -/
theorem select_cmpi_eq {w : Nat} (a b : BitVec w) (x y : EReal) :
    Scalar.select (IntOp.cmpi .eq a b) x y = if a = b then x else y :=
  if_congr StableHlo.Predicate.cmpi_eq_iff rfl rfl

/-! ## The stages read at a lane -/

theorem kMax_apply (Y0 : Vec Ideal S1x256x8192 .f32) (l : Fin 8192) :
    kMax Y0 (ix3 (0 : Fin 1) (0 : Fin 1) l) = colMax (fun c => Y0 (ix3 (0 : Fin 1) c l)) := by
  unfold kMax colMax
  rw [← ofBits_ninf_f32]
  exact classMax_apply Y0 rfl l

theorem kDiff_apply (Y0 : Vec Ideal S1x256x8192 .f32) (c : Fin 256) (l : Fin 8192) :
    kDiff Y0 (ix3 (0 : Fin 1) c l) = Y0 (ix3 (0 : Fin 1) c l) - colMax (fun c => Y0 (ix3 (0 : Fin 1) c l)) := by
  unfold kDiff
  rw [subf_apply, bcastRow_apply, kMax_apply]

theorem kLse_apply (Y0 : Vec Ideal S1x256x8192 .f32) (l : Fin 8192) :
    kLse Y0 (ix3 (0 : Fin 1) (0 : Fin 1) l)
      = colMax (fun c => Y0 (ix3 (0 : Fin 1) c l))
        + Ideal.log (∑ c : Fin 256, Ideal.exp (Y0 (ix3 (0 : Fin 1) c l) - colMax (fun c => Y0 (ix3 (0 : Fin 1) c l)))) := by
  unfold kLse
  rw [addf_apply, kMax_apply]
  show _ + Ideal.log (shapeCast S1x1x8192 _ shapeCasts_S1x8192_S1x1x8192 (ix3 (0 : Fin 1) (0 : Fin 1) l)) = _
  rw [classSum_apply _ rfl l]
  refine congrArg (fun s => _ + Ideal.log s) (Finset.sum_congr rfl fun c _ => ?_)
  show Ideal.exp (kDiff Y0 (ix3 (0 : Fin 1) c l)) = _
  rw [kDiff_apply]

theorem kPick_apply (Y0 : Vec Ideal S1x256x8192 .f32) (Y1 : Vec Ideal S1x1x8192 .i32) (l : Fin 8192) :
    kPick Y0 Y1 (ix3 (0 : Fin 1) (0 : Fin 1) l)
      = ∑ c : Fin 256, if BitVec.ofNat 32 c.val = Y1 (ix3 (0 : Fin 1) (0 : Fin 1) l) then Y0 (ix3 (0 : Fin 1) c l) else 0 := by
  unfold kPick
  rw [classSum_apply _ rfl l]
  refine Finset.sum_congr rfl fun c _ => ?_
  rw [select_apply]
  show Scalar.select (IntOp.cmpi .eq (broadcastTo S1x256x8192 _ broadcasts_S1x256x1_S1x256x8192 (ix3 (0 : Fin 1) c l))
      (broadcastTo S1x256x8192 Y1 broadcasts_S1x1x8192_S1x256x8192 (ix3 (0 : Fin 1) c l))) (Y0 (ix3 (0 : Fin 1) c l)) (Ideal.ofBits .f32 0x00000000#32) = _
  rw [bcastCol_apply, bcastRow_apply, iota_single_apply, Ideal.ofBits_zero_f32, select_cmpi_eq]

theorem kLane_apply (Y0 : Vec Ideal S1x256x8192 .f32) (Y1 : Vec Ideal S1x1x8192 .i32) (Y2 : Vec Ideal S1x1x8192 .f32) (l : Fin 8192) :
    kLane Y0 Y1 Y2 (ix3 (0 : Fin 1) (0 : Fin 1) l)
      = laneVal (fun c => Y0 (ix3 (0 : Fin 1) c l)) (Y1 (ix3 (0 : Fin 1) (0 : Fin 1) l)) (Y2 (ix3 (0 : Fin 1) (0 : Fin 1) l)) := by
  unfold kLane laneVal
  rw [addf_apply, subf_apply, kPick_apply, kLse_apply, shapeCast_self]

/-- The mask holds at lane `l` of tile `i 1` exactly when the lane's wave position is inside the array. -/
theorem kMask_apply (i : grid1.Coords) (l : Fin 8192) :
    kMask i (ix3 (0 : Fin 1) (0 : Fin 1) l) = 1#1 ↔ (i 1).val * 8192 + l.val < 65535 := by
  have hi : (i 1).val < 8 := (i 1).isLt
  have hl : l.val < 8192 := l.isLt
  unfold kMask
  show IntOp.cmpi .slt (IntOp.addi (IntOp.muli (BitVec.ofNat 32 (i 1).val) 8192#32)
      (iota .tc S1x1x8192 32 [2] iota_S1x1x8192_d2_w32 (ix3 (0 : Fin 1) (0 : Fin 1) l))) 65535#32 = 1#1 ↔ _
  rw [iota_single_apply]
  have hv : (IntOp.addi (IntOp.muli (BitVec.ofNat 32 (i 1).val) 8192#32) (BitVec.ofNat 32 l.val)).toNat = (i 1).val * 8192 + l.val := by
    show (BitVec.ofNat 32 (i 1).val * 8192#32 + BitVec.ofNat 32 l.val).toNat = _
    rw [BitVec.toNat_add, BitVec.toNat_mul, BitVec.toNat_ofNat, BitVec.toNat_ofNat, BitVec.toNat_ofNat]
    omega
  rw [StableHlo.Predicate.slt_iff_toNat (by rw [hv]; omega) (by decide), hv]
  rfl

/-! ## The payload -/

/-- THE TILE'S PAYLOAD: the sum over the tile's lanes inside the array of the lanes' values. -/
theorem k1_pay3_apply (i : grid1.Coords) (Y0 : Vec Ideal S1x256x8192 .f32) (Y1 : Vec Ideal S1x1x8192 .i32) (Y2 : Vec Ideal S1x1x8192 .f32)
    (k : S1x1x1.Idx) :
    k1_pay3 (F := Ideal) i Y0 Y1 Y2 k
      = ∑ l : Fin 8192, if (i 1).val * 8192 + l.val < 65535 then
          laneVal (fun c => Y0 (ix3 (0 : Fin 1) c l)) (Y1 (ix3 (0 : Fin 1) (0 : Fin 1) l)) (Y2 (ix3 (0 : Fin 1) (0 : Fin 1) l)) else 0 := by
  rw [k1_pay3_eq, laneSum_apply _ rfl k]
  refine Finset.sum_congr rfl fun l _ => ?_
  rw [select_apply]
  show Scalar.select (kMask i (ix3 (0 : Fin 1) (0 : Fin 1) l)) (kLane Y0 Y1 Y2 (ix3 (0 : Fin 1) (0 : Fin 1) l)) (Ideal.ofBits .f32 0x00000000#32) = _
  rw [kLane_apply, Ideal.ofBits_zero_f32]
  exact if_congr (kMask_apply i l) rfl rfl

end Cert.Bridge
end
-- ==== Proof.TileStage.lean ====
/-
  The second pipeline's staged inputs at a lane inside the array: what a fetch leaves in a staging buffer is, on the
  part of the block inside the array, the array's entry at the block's offset plus the lane's coordinate, whatever
  the buffer held before on the overhanging lane.
-/
import proofs.«409296_j25357486916145_3_alg».proof.Proof.KI.Data
import Idealize.ShloMosaic.Lib.ValueIdx
import Idealize.ShloMosaic.Lib.Pipeline.Value

noncomputable section

namespace Cert.Bridge

open Idealize.ShloMosaic Idealize.ShloMosaic.TcCoe Idealize.SL.Sem
open Idealize.ShloMosaic.ValueIdx
open Cert.KernelIdeal Cert.KernelIdeal.Gen Cert.KernelIdeal.Hand

variable {F : FTy → Type} [FloatOps F]

/-- The second pipeline's points, decided over the grid: point `t` is batch row `t / 8`, tile `t % 8`; each input
    window's block index is (row, 0, tile). -/
theorem idx_facts1 : ∀ t : Fin cfg1.N,
    ((grid1.coords t) 1).val = t.val % 8
    ∧ win1_0.index t (0 : Fin 3) = t.val / 8 ∧ win1_0.index t (1 : Fin 3) = 0 ∧ win1_0.index t (2 : Fin 3) = t.val % 8
    ∧ win1_1.index t (0 : Fin 3) = t.val / 8 ∧ win1_1.index t (1 : Fin 3) = 0 ∧ win1_1.index t (2 : Fin 3) = t.val % 8
    ∧ win1_2.index t (0 : Fin 3) = t.val / 8 ∧ win1_2.index t (1 : Fin 3) = 0 ∧ win1_2.index t (2 : Fin 3) = t.val % 8 :=
  (by decide +kernel : ∀ t : Fin grid1.N, _)

/-- The parts of the blocks inside the arrays, decided over the grid: whole but for a batch row's last tile, which
    the wave axis cuts after 8191 lanes. -/
theorem cut_facts1 : ∀ t : Fin cfg1.N,
    win1_0.xsize (grid1.coords t) (0 : Fin 3) = 1 ∧ win1_0.xsize (grid1.coords t) (1 : Fin 3) = 256
    ∧ win1_0.xsize (grid1.coords t) (2 : Fin 3) = (if t.val % 8 = 7 then 8191 else 8192)
    ∧ win1_1.xsize (grid1.coords t) (0 : Fin 3) = 1 ∧ win1_1.xsize (grid1.coords t) (1 : Fin 3) = 1
    ∧ win1_1.xsize (grid1.coords t) (2 : Fin 3) = (if t.val % 8 = 7 then 8191 else 8192)
    ∧ win1_2.xsize (grid1.coords t) (0 : Fin 3) = 1 ∧ win1_2.xsize (grid1.coords t) (1 : Fin 3) = 1
    ∧ win1_2.xsize (grid1.coords t) (2 : Fin 3) = (if t.val % 8 = 7 then 8191 else 8192) :=
  (by decide +kernel : ∀ t : Fin grid1.N, _)

-- the TensorCore's buffer contents when the region is entered
variable (V : (c : Dev nD) → (b : Ref sig .tc) → Buf (Elt F) ((c : Thread nD τ).loc b))

/-- The staged class scores at class `cl` and lane `l` of a tile, the lane inside the array. -/
theorem stg1_0_apply (c : Dev nD) (t : Fin cfg1.N) (d0 : (cfg1.win 0).block.Idx → Elt F (cfg1.win 0).elt)
    (cl : Fin 256) (l : Fin 8192) (hb : t.val / 8 < 2) (h : (t.val % 8) * 8192 + l.val < 65535) :
    (stg1 V c 0 t d0 : Vec F S1x256x8192 .f32) (ix3 (0 : Fin 1) cl l)
      = (V c main_arg0 : Vec F S2x256x65535 .f32) (ix3 (⟨t.val / 8, hb⟩ : Fin 2) cl (⟨(t.val % 8) * 8192 + l.val, h⟩ : Fin 65535)) := by
  obtain ⟨-, i0, i1, i2, -⟩ := idx_facts1 t
  obtain ⟨x0, x1, x2, -⟩ := cut_facts1 t
  have hl : l.val < 8192 := l.isLt
  have hm : (cfg1.win 0).moved (cfg1.grid.coords t) (ix3 (0 : Fin 1) cl l) = true :=
    ((cfg1.win 0).moved_iff _ _).mpr fun a => match a with
      | ⟨0, _⟩ => by show 0 < win1_0.xsize (grid1.coords t) (0 : Fin 3); omega
      | ⟨1, _⟩ => by show cl.val < win1_0.xsize (grid1.coords t) (1 : Fin 3); have := cl.isLt; omega
      | ⟨2, _⟩ => by show l.val < win1_0.xsize (grid1.coords t) (2 : Fin 3); rw [x2]; split <;> omega
  unfold stg1
  rw [Pipeline.Window.fill, dif_pos hm]
  show V c main_arg0 (((cfg1.win 0).blk t).view.emb _) = _
  refine congrArg (V c main_arg0) (funext fun a => Fin.ext ?_)
  match a with
  | ⟨0, _⟩ => show win1_0.index t (0 : Fin 3) * 1 + 1 * 0 = t.val / 8; omega
  | ⟨1, _⟩ => show win1_0.index t (1 : Fin 3) * 256 + 1 * cl.val = cl.val; omega
  | ⟨2, _⟩ => show win1_0.index t (2 : Fin 3) * 8192 + 1 * l.val = (t.val % 8) * 8192 + l.val; omega

/-- The staged targets at lane `l` of a tile, the lane inside the array. -/
theorem stg1_1_apply (c : Dev nD) (t : Fin cfg1.N) (d1 : (cfg1.win 1).block.Idx → Elt F (cfg1.win 1).elt)
    (l : Fin 8192) (hb : t.val / 8 < 2) (h : (t.val % 8) * 8192 + l.val < 65535) :
    (stg1 V c 1 t d1 : Vec F S1x1x8192 .i32) (ix3 (0 : Fin 1) (0 : Fin 1) l)
      = (V c main_arg3 : Vec F S2x1x65535 .i32) (ix3 (⟨t.val / 8, hb⟩ : Fin 2) (0 : Fin 1) (⟨(t.val % 8) * 8192 + l.val, h⟩ : Fin 65535)) := by
  have hi := idx_facts1 t
  have hx := cut_facts1 t
  have hl : l.val < 8192 := l.isLt
  have hm : (cfg1.win 1).moved (cfg1.grid.coords t) (ix3 (0 : Fin 1) (0 : Fin 1) l) = true :=
    ((cfg1.win 1).moved_iff _ _).mpr fun a => match a with
      | ⟨0, _⟩ => by show 0 < win1_1.xsize (grid1.coords t) (0 : Fin 3); omega
      | ⟨1, _⟩ => by show 0 < win1_1.xsize (grid1.coords t) (1 : Fin 3); omega
      | ⟨2, _⟩ => by show l.val < win1_1.xsize (grid1.coords t) (2 : Fin 3); split_ifs at hx <;> omega
  unfold stg1
  rw [Pipeline.Window.fill, dif_pos hm]
  show V c main_arg3 (((cfg1.win 1).blk t).view.emb _) = _
  refine congrArg (V c main_arg3) (funext fun a => Fin.ext ?_)
  match a with
  | ⟨0, _⟩ => show win1_1.index t (0 : Fin 3) * 1 + 1 * 0 = t.val / 8; omega
  | ⟨1, _⟩ => show win1_1.index t (1 : Fin 3) * 1 + 1 * 0 = 0; omega
  | ⟨2, _⟩ => show win1_1.index t (2 : Fin 3) * 8192 + 1 * l.val = (t.val % 8) * 8192 + l.val; omega

/-- The staged codebook terms at lane `l` of a tile, the lane inside the array. -/
theorem stg1_2_apply (c : Dev nD) (t : Fin cfg1.N) (d2 : (cfg1.win 2).block.Idx → Elt F (cfg1.win 2).elt)
    (l : Fin 8192) (hb : t.val / 8 < 2) (h : (t.val % 8) * 8192 + l.val < 65535) :
    (stg1 V c 2 t d2 : Vec F S1x1x8192 .f32) (ix3 (0 : Fin 1) (0 : Fin 1) l)
      = (V c main_v4 : Vec F S2x1x65535 .f32) (ix3 (⟨t.val / 8, hb⟩ : Fin 2) (0 : Fin 1) (⟨(t.val % 8) * 8192 + l.val, h⟩ : Fin 65535)) := by
  have hi := idx_facts1 t
  have hx := cut_facts1 t
  have hl : l.val < 8192 := l.isLt
  have hm : (cfg1.win 2).moved (cfg1.grid.coords t) (ix3 (0 : Fin 1) (0 : Fin 1) l) = true :=
    ((cfg1.win 2).moved_iff _ _).mpr fun a => match a with
      | ⟨0, _⟩ => by show 0 < win1_2.xsize (grid1.coords t) (0 : Fin 3); omega
      | ⟨1, _⟩ => by show 0 < win1_2.xsize (grid1.coords t) (1 : Fin 3); omega
      | ⟨2, _⟩ => by show l.val < win1_2.xsize (grid1.coords t) (2 : Fin 3); split_ifs at hx <;> omega
  unfold stg1
  rw [Pipeline.Window.fill, dif_pos hm]
  show V c main_v4 (((cfg1.win 2).blk t).view.emb _) = _
  refine congrArg (V c main_v4) (funext fun a => Fin.ext ?_)
  match a with
  | ⟨0, _⟩ => show win1_2.index t (0 : Fin 3) * 1 + 1 * 0 = t.val / 8; omega
  | ⟨1, _⟩ => show win1_2.index t (1 : Fin 3) * 1 + 1 * 0 = 0; omega
  | ⟨2, _⟩ => show win1_2.index t (2 : Fin 3) * 8192 + 1 * l.val = (t.val % 8) * 8192 + l.val; omega

/-- The tile coordinate of point `t` is `t % 8`. -/
theorem tile_coord (t : Fin cfg1.N) : ((grid1.coords t) 1).val = t.val % 8 := (idx_facts1 t).1

end Cert.Bridge
end
-- ==== Proof.TileRef.lean ====
import proofs.«409296_j25357486916145_3_alg».proof.Proof.RefRead
import proofs.«409296_j25357486916145_3_alg».proof.Proof.TileCol
import Idealize.ShloMosaic.PureOps.Ideal.Laws
import Idealize.ShloMosaic.Lib.ValueIdx
import Idealize.ShloMosaic.Lib.Pipeline.Value
import Idealize.ShloMosaic.Lib.StableHlo.Predicate

set_option maxRecDepth 16384

noncomputable section

namespace Cert.Bridge

open Idealize.ShloMosaic Idealize.ShloMosaic.TcCoe Idealize.SL.Sem
open Idealize.ShloMosaic.ValueIdx
open Cert.ReferenceIdeal Cert.ReferenceIdeal.Gen Cert.ReferenceIdeal.ReadP

/-! ## The log-softmax of a class column -/

/-- A maximum over axis 1 of a [2, 256, 65535] array from −∞ on the host, at (b, n): the maximum over c of the array at
    (b, c, n). -/
theorem host_max_axis1_apply (y : S2x256x65535.Idx → Ideal .f32) (init : S_.Idx → Ideal .f32)
    (hinit : init (Shape.Idx.first h_S_) = (⊥ : EReal)) (b : Fin 2) (n : Fin 65535) :
    Host.reduce FloatOps.maximumf y init reducesTo_S2x256x65535_S2x65535_d1 h_S_ (ix2 b n)
      = colMax (fun c : Fin 256 => y (ix3 b c n)) := by
  refine (Host.reduce_eq_fold_single FloatOps.maximumf y init reducesTo_S2x256x65535_S2x65535_d1 (by decide) h_S_ (ix2 b n)).trans ?_
  rw [hinit]
  unfold colMax
  refine congrArg (fun f => Finset.fold max (⊥ : EReal) f Finset.univ) (funext fun c => ?_)
  exact congrArg y (funext fun a => Fin.ext (by match a with | ⟨0, _⟩ => rfl | ⟨1, _⟩ => rfl | ⟨2, _⟩ => rfl))

/-- The pattern of −∞. -/
theorem ofBits_neg_inf : Ideal.ofBits .f32 0xFF800000#32 = (⊥ : EReal) := by simp [Ideal.ofBits, Ideal.ieee]

/-- The column maximum the reference reduces at (b, n), from −∞. -/
theorem ref_colMax_apply (x0 : Vec Ideal S2x256x65535 .f32) (b : Fin 2) (n : Fin 65535) :
    val_main_call0_v0 (F := Ideal) x0 (ix2 b n) = colMax (fun c : Fin 256 => x0 (ix3 b c n)) := by
  unfold val_main_call0_v0
  exact host_max_axis1_apply _ _ ofBits_neg_inf b n

/-- The reference's entry less the column maximum, at (b, c, n). -/
theorem ref_centered_apply (x0 : Vec Ideal S2x256x65535 .f32) (b : Fin 2) (c : Fin 256) (n : Fin 65535) :
    val_main_call0_v5 (F := Ideal) x0 (ix3 b c n)
      = x0 (ix3 b c n) - max ⊥ (colMax (fun c : Fin 256 => x0 (ix3 b c n))) := by
  refine (val_main_call0_v5_apply (F := Ideal) x0 (ix3 b c n)).trans ?_
  refine congrArg (x0 (ix3 b c n) - ·) ?_
  refine (val_main_call0_v4_apply (F := Ideal) x0 (ix3 b c n)).trans ?_
  refine (val_main_call0_v3_apply (F := Ideal) x0 _).trans ?_
  have e : idx_main_call0_v3 (idx_main_call0_v4 (ix3 b c n)) = ix2 b n :=
    funext fun a => Fin.ext (by match a with | ⟨0, _⟩ => rfl | ⟨1, _⟩ => rfl)
  rw [e]
  refine (val_main_call0_v2_apply (F := Ideal) x0 (ix2 b n)).trans ?_
  refine congrArg₂ max ?_ (ref_colMax_apply x0 b n)
  exact ((val_main_call0_v1_apply (F := Ideal) (ix2 b n)).trans (val_main_call0_cst_0_apply (F := Ideal) _)).trans ofBits_neg_inf

/-- The reference's log-softmax at (b, t, n) is the log-softmax of the class column at t. -/
theorem ref_lsm_apply (x0 : Vec Ideal S2x256x65535 .f32) (b : Fin 2) (t : Fin 256) (n : Fin 65535) :
    val_main_v26 (F := Ideal) x0 (ix3 b t n) = refVal (fun c : Fin 256 => x0 (ix3 b c n)) t := by
  refine (val_main_v26_apply (F := Ideal) x0 (ix3 b t n)).trans ?_
  unfold refVal
  refine congrArg₂ (· - ·) (ref_centered_apply x0 b t n) ?_
  refine (val_main_call0_v10_apply (F := Ideal) x0 (ix3 b t n)).trans ?_
  refine (val_main_call0_v9_apply (F := Ideal) x0 _).trans ?_
  refine (Ideal.hostUnary_log_def (φ := .f32) _).trans ?_
  refine congrArg Ideal.log ?_
  refine (val_main_call0_v8_apply (F := Ideal) x0 _).trans ?_
  have e : idx_main_call0_v8 (idx_main_call0_v10 (ix3 b t n)) = ix2 b n :=
    funext fun a => Fin.ext (by match a with | ⟨0, _⟩ => rfl | ⟨1, _⟩ => rfl)
  rw [e]
  refine (val_main_call0_v7_apply x0 (ix2 b n)).trans ?_
  refine congrArg₂ (· + ·) ((val_main_call0_cst_1_apply (F := Ideal) _).trans Ideal.ofBits_zero_f32) ?_
  refine Finset.sum_congr rfl fun c _ => ?_
  have e' : idx_main_call0_v7 (ix2 b n) c = ix3 b c n :=
    funext fun a => Fin.ext (by match a with | ⟨0, _⟩ => rfl | ⟨1, _⟩ => rfl | ⟨2, _⟩ => rfl)
  rw [e']
  refine (val_main_call0_v6_apply (F := Ideal) x0 (ix3 b c n)).trans ?_
  refine (Ideal.hostUnary_exp_def (φ := .f32) _).trans ?_
  exact congrArg Ideal.exp (ref_centered_apply x0 b c n)

/-! ## The target word, the guard and the gather -/

/-- The `and` from 1 over a one-element family is its element. -/
theorem fold_and_fin1 (f : Fin 1 → BitVec 1) : (Finset.univ : Finset (Fin 1)).fold IntOp.andi 1#1 f = f 0 := by
  rw [Finset.univ_unique, Finset.fold_singleton]
  show IntOp.andi (f 0) 1#1 = f 0
  generalize f 0 = c
  revert c; decide

/-- A reduce by `and` over the last axis, of size one, of a [2, 1, 65535, 1] array from 1, at (b, u, n): the array at
    (b, u, n, 0). -/
theorem host_and_axis3_apply (y : S2x1x65535x1.Idx → BitVec 1) (init : S_.Idx → BitVec 1)
    (hinit : init (Shape.Idx.first h_S_) = 1#1) (b : Fin 2) (u : Fin 1) (n : Fin 65535) :
    Host.reduce IntOp.andi y init reducesTo_S2x1x65535x1_S2x1x65535_d3 h_S_ (ix3 b u n) = y (ix4 b u n (0 : Fin 1)) := by
  have hR : S2x1x65535x1.Reduces [3] S2x1x65535 := by decide
  refine (Host.reduce_eq_fold_single IntOp.andi y init reducesTo_S2x1x65535x1_S2x1x65535_d3 hR h_S_ (ix3 b u n)).trans ?_
  rw [hinit]
  refine (fold_and_fin1 (y ∘ hR.lift (ix3 b u n))).trans ?_
  exact congrArg y (funext fun a => Fin.ext (by match a with | ⟨0, _⟩ => rfl | ⟨1, _⟩ => rfl | ⟨2, _⟩ => rfl | ⟨3, _⟩ => rfl))

/-- The gather's start word at (b, 0, n, 0) is the target word at (b, 0, n) when that is the word of a class. -/
theorem ref_start_apply (x3 : Vec Ideal S2x1x65535 .i32) (b : Fin 2) (n : Fin 65535) (t : Fin 256)
    (ht : x3 (ix3 b (0 : Fin 1) n) = BitVec.ofNat 32 t.val) :
    val_main_call1_v5 (F := Ideal) x3 (ix4 b (0 : Fin 1) n (0 : Fin 1)) = BitVec.ofNat 32 t.val := by
  have htl := t.isLt
  refine (val_main_call1_v5_apply (F := Ideal) x3 _).trans ?_
  have e : idx_main_call1_v5 (ix4 b (0 : Fin 1) n (0 : Fin 1)) = ix3 b (0 : Fin 1) n :=
    funext fun a => Fin.ext (by
      have hb := b.isLt; have hn := n.isLt
      match a with
      | ⟨0, _⟩ => show (((b.val * 1 + 0) * 65535 + n.val) * 1 + 0) / 65535 = b.val; omega
      | ⟨1, _⟩ => rfl
      | ⟨2, _⟩ => show (((b.val * 1 + 0) * 65535 + n.val) * 1 + 0) % 65535 = n.val; omega)
  rw [e]
  refine (val_main_call1_v4_apply (F := Ideal) x3 _).trans ?_
  have h0 : val_main_call1_v0 (F := Ideal) (ix3 b (0 : Fin 1) n) = 0#32 :=
    (val_main_call1_v0_apply (F := Ideal) _).trans (val_main_call1_c_apply (F := Ideal) _)
  have hslt : val_main_call1_v1 (F := Ideal) x3 (ix3 b (0 : Fin 1) n) = 0#1 := by
    refine (val_main_call1_v1_apply (F := Ideal) x3 _).trans ?_
    refine eq_zero_of_ne_one fun h1 => ?_
    have hlt := IntOp.cmpi_slt.1 h1
    rw [ht, h0, StableHlo.Predicate.toInt_ofNat_small t.val (by omega)] at hlt
    have z : (0#32 : BitVec 32).toInt = 0 := by decide
    rw [z] at hlt; omega
  rw [hslt, select_zero, ht]

/-- The guard at (b, 0, n) is 1 when the target word there is the word of a class. -/
theorem ref_guard_apply (x3 : Vec Ideal S2x1x65535 .i32) (b : Fin 2) (n : Fin 65535) (t : Fin 256)
    (ht : x3 (ix3 b (0 : Fin 1) n) = BitVec.ofNat 32 t.val) :
    val_main_call1_v12 (F := Ideal) x3 (ix3 b (0 : Fin 1) n) = 1#1 := by
  have htl := t.isLt
  unfold val_main_call1_v12
  refine (host_and_axis3_apply _ _ rfl b 0 n).trans ?_
  refine (val_main_call1_v11_apply (F := Ideal) x3 _).trans ?_
  have h6 : val_main_call1_v6 (F := Ideal) (ix4 b (0 : Fin 1) n (0 : Fin 1)) = 0#32 :=
    (val_main_call1_v6_apply (F := Ideal) _).trans (val_main_call1_c_2_apply (F := Ideal) _)
  have h9 : val_main_call1_v9 (F := Ideal) (ix4 b (0 : Fin 1) n (0 : Fin 1)) = 255#32 :=
    (val_main_call1_v9_apply (F := Ideal) _).trans ((val_main_call1_v8_apply (F := Ideal) _).trans (val_main_call1_c_1_apply (F := Ideal) _))
  have z0 : (0#32 : BitVec 32).toInt = 0 := by decide
  have z255 : (255#32 : BitVec 32).toInt = 255 := by decide
  refine IntOp.andi_eq_one.2 ⟨?_, ?_⟩
  · refine (val_main_call1_v7_apply (F := Ideal) x3 _).trans ?_
    refine IntOp.cmpi_sge.2 ?_
    rw [ref_start_apply x3 b n t ht, h6, StableHlo.Predicate.toInt_ofNat_small t.val (by omega), z0]
    omega
  · refine (val_main_call1_v10_apply (F := Ideal) x3 _).trans ?_
    refine IntOp.cmpi_sle.2 ?_
    rw [ref_start_apply x3 b n t ht, h9, StableHlo.Predicate.toInt_ofNat_small t.val (by omega), z255]
    omega

/-- The batched gather read at (b, u, n): batch axes 0 and 2 keep b and n, and the collapsed class axis is read at the
    start word at (b, u, n, 0), read signed and clamped into [0, 255]. -/
theorem gather_class_apply {α : Type} (x : S2x256x65535.Idx → α) (idx : IVec S2x1x65535x1 32)
    (b : Fin 2) (u : Fin 1) (n : Fin 65535) (k : Fin 256)
    (hk : k.val = min (idx (ix4 b u n (0 : Fin 1))).toInt.toNat 255) :
    Host.gather gather_S2x256x65535_S2x1x65535x1_S2x1x65535_n_1_02_02_1_3_111 x idx (ix3 b u n) = x (ix3 b k n) := by
  unfold Host.gather
  refine congrArg x (funext fun a => Fin.ext ?_)
  match a with
  | ⟨0, _⟩ =>
    show gather_S2x256x65535_S2x1x65535x1_S2x1x65535_n_1_02_02_1_3_111.start (ix3 b u n) idx (0 : Fin 3)
        + gather_S2x256x65535_S2x1x65535x1_S2x1x65535_n_1_02_02_1_3_111.batchCoord (ix3 b u n) (0 : Fin 3)
        + gather_S2x256x65535_S2x1x65535x1_S2x1x65535_n_1_02_02_1_3_111.offCoord (ix3 b u n) (0 : Fin 3) = b.val
    rw [GatherDims.start_batching _ _ _ _ (by decide), GatherDims.offCoord_eq_zero _ _ _ (by decide), Nat.zero_add, Nat.add_zero]
    rfl
  | ⟨1, _⟩ =>
    show gather_S2x256x65535_S2x1x65535x1_S2x1x65535_n_1_02_02_1_3_111.start (ix3 b u n) idx (1 : Fin 3)
        + gather_S2x256x65535_S2x1x65535x1_S2x1x65535_n_1_02_02_1_3_111.batchCoord (ix3 b u n) (1 : Fin 3)
        + gather_S2x256x65535_S2x1x65535x1_S2x1x65535_n_1_02_02_1_3_111.offCoord (ix3 b u n) (1 : Fin 3) = k.val
    rw [GatherDims.batchCoord_eq_zero _ _ _ (by decide), GatherDims.offCoord_eq_zero _ _ _ (by decide), hk]
    simp only [Nat.add_zero]
    unfold GatherDims.start
    rw [dif_pos (show (1 : Fin 3) ∈ gather_S2x256x65535_S2x1x65535x1_S2x1x65535_n_1_02_02_1_3_111.startIndexMap from by decide)]
    have hsi : gather_S2x256x65535_S2x1x65535x1_S2x1x65535_n_1_02_02_1_3_111.siIdx (ix3 b u n)
        ⟨List.idxOf (1 : Fin 3) gather_S2x256x65535_S2x1x65535x1_S2x1x65535_n_1_02_02_1_3_111.startIndexMap,
          List.idxOf_lt_length_iff.2 (by decide)⟩ = ix4 b u n (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    show gather_S2x256x65535_S2x1x65535x1_S2x1x65535_n_1_02_02_1_3_111.start (ix3 b u n) idx (2 : Fin 3)
        + gather_S2x256x65535_S2x1x65535x1_S2x1x65535_n_1_02_02_1_3_111.batchCoord (ix3 b u n) (2 : Fin 3)
        + gather_S2x256x65535_S2x1x65535x1_S2x1x65535_n_1_02_02_1_3_111.offCoord (ix3 b u n) (2 : Fin 3) = n.val
    rw [GatherDims.start_batching _ _ _ _ (by decide), GatherDims.offCoord_eq_zero _ _ _ (by decide), Nat.zero_add, Nat.add_zero]
    rfl

variable [Cert.ReferenceIdeal.Facts]

/-- The reference's gathered log-softmax entry at batch row b and wave position n, when the target word there is the
    word of class t: the log-softmax of the class column at t. -/
theorem lsm_eq_refVal (x0 : Vec Ideal S2x256x65535 .f32) (x3 : Vec Ideal S2x1x65535 .i32) (b : Fin 2) (n : Fin 65535) (t : Fin 256)
    (ht : x3 (ix3 b (0 : Fin 1) n) = BitVec.ofNat 32 t.val) :
    val_main_v27 (F := Ideal) x0 x3 (ix3 b (0 : Fin 1) n) = refVal (fun c : Fin 256 => x0 (ix3 b c n)) t := by
  have htl := t.isLt
  refine (val_main_v27_apply (F := Ideal) x0 x3 _).trans ?_
  rw [ref_guard_apply x3 b n t ht, select_one]
  unfold val_main_call1_v13
  refine (gather_class_apply _ _ b 0 n t ?_).trans (ref_lsm_apply x0 b t n)
  rw [ref_start_apply x3 b n t ht, StableHlo.Predicate.toInt_ofNat_small t.val (by omega)]
  omega

end Cert.Bridge
end
-- ==== Proof.Tile.lean ====
/-
  One tile of the second kernel at the ideal instance. The body's masked lane sum over a tile — per wave position the
  log-softmax of the class column read at the target's class (the column's entry at the target, minus the column's
  maximum plus the logarithm of the sum of exponentials of the differences), plus the repeated codebook term, the
  positions past the array's end selected away — is the sum over the tile's positions inside the array of the
  reference's gathered log-softmax entry plus the codebook term there, whatever a fetch left on the overhanging lane.
-/
import proofs.«409296_j25357486916145_3_alg».proof.Proof.KI.Data
import proofs.«409296_j25357486916145_3_alg».proof.Proof.RefRead
import proofs.«409296_j25357486916145_3_alg».proof.Proof.TileKernel
import proofs.«409296_j25357486916145_3_alg».proof.Proof.TileStage
import proofs.«409296_j25357486916145_3_alg».proof.Proof.TileRef
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.Bridge

open Idealize.ShloMosaic Idealize.ShloMosaic.TcCoe Idealize.SL.Sem
open Cert.KernelIdeal Cert.KernelIdeal.Gen Cert.KernelIdeal.Hand

variable [Cert.ReferenceIdeal.Facts]

/-- The reference's term at batch row `b` and wave position `n`, but for the codebook terms: the gathered
    log-softmax entry (`val_main_v27`), over the arrays `x0` (the class scores) and `x3` (the targets). -/
def lsmAt (x0 : Vec Ideal Cert.KernelIdeal.S2x256x65535 .f32) (x3 : Vec Ideal Cert.KernelIdeal.S2x1x65535 .i32)
    (b : Fin 2) (n : Fin 65535) : EReal :=
  Cert.ReferenceIdeal.ReadP.val_main_v27 (F := Ideal) x0 x3 (ValueIdx.ix3 b (0 : Fin 1) n)

/-- A word whose signed value is a class index is the word of that class. -/
theorem word_of_range (w : BitVec 32) (h : 0 ≤ w.toInt ∧ w.toInt < 256) : ∃ tt : Fin 256, w = BitVec.ofNat 32 tt.val := by
  have hc := BitVec.toInt_eq_toNat_cond w
  have hlt : w.toNat < 2 ^ 32 := w.isLt
  have e : w.toInt = (w.toNat : Int) := by
    by_cases hn : 2 * w.toNat < 2 ^ 32
    · rw [hc, if_pos hn]
    · rw [hc, if_neg hn] at h; omega
  refine ⟨⟨w.toNat, by omega⟩, BitVec.eq_of_toNat_eq ?_⟩
  rw [BitVec.toNat_ofNat]
  exact (Nat.mod_eq_of_lt hlt).symm

/-- The tile's value. `V` is the second pipeline's entry contents at the ideal instance; its class scores are real
    numbers and its targets are class indices in range. -/
theorem tile_value (V : (c : Dev nD) → (b : Ref sig .tc) → Buf (Elt Ideal) ((c : Thread nD τ).loc b)) (c : Dev nD) (t : Fin cfg1.N)
    (d0 : (cfg1.win 0).block.Idx → Elt Ideal (cfg1.win 0).elt) (d1 : (cfg1.win 1).block.Idx → Elt Ideal (cfg1.win 1).elt)
    (d2 : (cfg1.win 2).block.Idx → Elt Ideal (cfg1.win 2).elt)
    (hfin : ∀ i, ∃ r : ℝ, (V c main_arg0 : Vec Ideal S2x256x65535 .f32) i = (r : EReal))
    (hrange : ∀ i, 0 ≤ ((V c main_arg3 : Vec Ideal S2x1x65535 .i32) i).toInt ∧ ((V c main_arg3 : Vec Ideal S2x1x65535 .i32) i).toInt < 256)
    (k : S1x1x1.Idx) :
    k1_pay3 (F := Ideal) (grid1.coords t) (stg1 V c 0 t d0) (stg1 V c 1 t d1) (stg1 V c 2 t d2) k
      = (0 : EReal) + ∑ l : Fin 8192,
          if h : (t.val % 8) * 8192 + l.val < 65535 then
            lsmAt (V c main_arg0) (V c main_arg3) ⟨t.val / 8, by have := t.isLt; have : cfg1.N = 16 := N_1; omega⟩ ⟨(t.val % 8) * 8192 + l.val, h⟩
              + (V c main_v4 : Vec Ideal S2x1x65535 .f32) (ValueIdx.ix3 (⟨t.val / 8, by have := t.isLt; have : cfg1.N = 16 := N_1; omega⟩ : Fin 2) (0 : Fin 1) (⟨(t.val % 8) * 8192 + l.val, h⟩ : Fin 65535))
          else 0 := by
  have hN : cfg1.N = 16 := N_1
  have hb : t.val / 8 < 2 := by have := t.isLt; omega
  rw [k1_pay3_apply, zero_add]
  refine Finset.sum_congr rfl fun l _ => ?_
  rw [tile_coord t]
  by_cases h : (t.val % 8) * 8192 + l.val < 65535
  · rw [if_pos h, dif_pos h]
    rw [show (fun cl : Fin 256 => (stg1 V c 0 t d0 : Vec Ideal S1x256x8192 .f32) (ValueIdx.ix3 (0 : Fin 1) cl l))
          = fun cl : Fin 256 => (V c main_arg0 : Vec Ideal S2x256x65535 .f32) (ValueIdx.ix3 (⟨t.val / 8, hb⟩ : Fin 2) cl (⟨(t.val % 8) * 8192 + l.val, h⟩ : Fin 65535))
        from funext fun cl => stg1_0_apply V c t d0 cl l hb h,
      stg1_1_apply V c t d1 l hb h, stg1_2_apply V c t d2 l hb h]
    obtain ⟨tt, htt⟩ := word_of_range _ (hrange (ValueIdx.ix3 (⟨t.val / 8, hb⟩ : Fin 2) (0 : Fin 1) (⟨(t.val % 8) * 8192 + l.val, h⟩ : Fin 65535)))
    rw [htt, laneVal_eq _ (fun cl => hfin _) tt]
    unfold lsmAt
    rw [lsm_eq_refVal _ _ _ _ tt htt]
  · rw [if_neg h, dif_neg h]

end Cert.Bridge

end
-- ==== Proof.AccValue.lean ====
/-
  The scratch row after a tile. What the second kernel's scratch row may hold after the body at grid point `t`
  (batch row `t / 8`, tile `t % 8`) is, on every lane, the running sum of the row's tiles up to that tile: the zero
  row plus the first tile's sum at a first tile, and what the row held plus the tile's sum at a later one.
-/
import proofs.«409296_j25357486916145_3_alg».proof.Proof.Tile
import proofs.«409296_j25357486916145_3_alg».proof.Proof.Sums

noncomputable section

namespace Cert.Bridge

open Idealize.ShloMosaic Idealize.ShloMosaic.TcCoe Idealize.SL.Sem
open Cert.KernelIdeal Cert.KernelIdeal.Gen Cert.KernelIdeal.Hand

variable [Cert.ReferenceIdeal.Facts]

/-- The zero row reads zero on every lane. -/
theorem k1_pay2_apply (k : S1x1x128.Idx) : k1_pay2 (F := Ideal) k = 0 := by
  unfold k1_pay2
  rw [shapeCast_self]
  exact Ideal.ofBits_zero_f32

/-- The updated row on a lane: what the row held there plus the tile sum's one entry. -/
theorem k1_pay1_apply (r : FVec Ideal S1x1x1 .f32) (S : Vec Ideal S1x1x128 .f32) (k : S1x1x128.Idx) :
    k1_pay1 r S k = S k + r (ValueIdx.ix3 (0 : Fin 1) (0 : Fin 1) (0 : Fin 1)) := by
  unfold k1_pay1
  rw [shapeCast_self, shapeCast_self, ValueIdx.addf_apply]
  congr 1
  refine broadcastTo_apply _ _ _ _ (fun a => ?_)
  match a with
  | ⟨0, _⟩ => rfl
  | ⟨1, _⟩ => rfl
  | ⟨2, _⟩ => rfl

/-- The per-position term the tiles sum: the gathered log-softmax entry plus the repeated codebook term. -/
def posTerm (V : (c : Dev nD) → (b : Ref sig .tc) → Buf (Elt Ideal) ((c : Thread nD τ).loc b)) (c : Dev nD) (b : Fin 2) (n : Fin 65535) : EReal :=
  lsmAt (V c main_arg0) (V c main_arg3) b n + (V c main_v4 : Vec Ideal S2x1x65535 .f32) (ValueIdx.ix3 b (0 : Fin 1) n)

/-- A batch row's first tile is the tile numbered 0 in the row. -/
theorem isFirst_iff : ∀ t : Fin cfg1.N, isFirst (grid1.coords t) ↔ t.val % 8 = 0 :=
  (by decide +kernel : ∀ t : Fin grid1.N, isFirst (grid1.coords t) ↔ t.val % 8 = 0)

/-- A grid point's batch row is one of the two. -/
theorem row_lt (t : Fin cfg1.N) : t.val / 8 < 2 := by
  have := t.isLt; have : cfg1.N = 16 := N_1; omega

/-- The tile's one entry is the tile's sum of the per-position terms. -/
theorem tile_sum (V : (c : Dev nD) → (b : Ref sig .tc) → Buf (Elt Ideal) ((c : Thread nD τ).loc b)) (c : Dev nD) (t : Fin cfg1.N)
    (d0 : (cfg1.win 0).block.Idx → Elt Ideal (cfg1.win 0).elt) (d1 : (cfg1.win 1).block.Idx → Elt Ideal (cfg1.win 1).elt)
    (d2 : (cfg1.win 2).block.Idx → Elt Ideal (cfg1.win 2).elt)
    (hfin : ∀ i, ∃ r : ℝ, (V c main_arg0 : Vec Ideal S2x256x65535 .f32) i = (r : EReal))
    (hrange : ∀ i, 0 ≤ ((V c main_arg3 : Vec Ideal S2x1x65535 .i32) i).toInt ∧ ((V c main_arg3 : Vec Ideal S2x1x65535 .i32) i).toInt < 256)
    (k : S1x1x1.Idx) :
    k1_pay3 (F := Ideal) (grid1.coords t) (stg1 V c 0 t d0) (stg1 V c 1 t d1) (stg1 V c 2 t d2) k
      = tileSum (posTerm V c) ⟨t.val / 8, row_lt t⟩ (t.val % 8) :=
  tile_value V c t d0 d1 d2 hfin hrange k

/-- One tile's update on a lane: the tile's sum added to what the row held there, to zero at a first tile. -/
theorem accNext_apply (V : (c : Dev nD) → (b : Ref sig .tc) → Buf (Elt Ideal) ((c : Thread nD τ).loc b)) (c : Dev nD) (t : Fin cfg1.N)
    (d0 : (cfg1.win 0).block.Idx → Elt Ideal (cfg1.win 0).elt) (d1 : (cfg1.win 1).block.Idx → Elt Ideal (cfg1.win 1).elt)
    (d2 : (cfg1.win 2).block.Idx → Elt Ideal (cfg1.win 2).elt)
    (hfin : ∀ i, ∃ r : ℝ, (V c main_arg0 : Vec Ideal S2x256x65535 .f32) i = (r : EReal))
    (hrange : ∀ i, 0 ≤ ((V c main_arg3 : Vec Ideal S2x1x65535 .i32) i).toInt ∧ ((V c main_arg3 : Vec Ideal S2x1x65535 .i32) i).toInt < 256)
    (S0 : Vec Ideal S1x1x128 .f32) (k : S1x1x128.Idx) :
    accNext (grid1.coords t) (stg1 V c 0 t d0) (stg1 V c 1 t d1) (stg1 V c 2 t d2) S0 k
      = (if isFirst (grid1.coords t) then (0 : EReal) else S0 k) + tileSum (posTerm V c) ⟨t.val / 8, row_lt t⟩ (t.val % 8) := by
  unfold accNext
  rw [k1_pay1_apply, tile_sum V c t d0 d1 d2 hfin hrange]
  congr 1
  by_cases hF : isFirst (grid1.coords t)
  · rw [if_pos hF, if_pos hF]; exact k1_pay2_apply k
  · rw [if_neg hF, if_neg hF]

/-- What the scratch row may hold after the body at grid point `t` is, on every lane, the running sum of the batch
    row's tiles up to tile `t % 8`. -/
theorem acc_value (V : (c : Dev nD) → (b : Ref sig .tc) → Buf (Elt Ideal) ((c : Thread nD τ).loc b)) (c : Dev nD)
    (hfin : ∀ i, ∃ r : ℝ, (V c main_arg0 : Vec Ideal S2x256x65535 .f32) i = (r : EReal))
    (hrange : ∀ i, 0 ≤ ((V c main_arg3 : Vec Ideal S2x1x65535 .i32) i).toInt ∧ ((V c main_arg3 : Vec Ideal S2x1x65535 .i32) i).toInt < 256)
    (t : Fin cfg1.N) (X : Vec Ideal S1x1x128 .f32) (h : Acc V c t X) (k : S1x1x128.Idx) :
    X k = accUpTo (tileSum (posTerm V c) ⟨t.val / 8, by have := t.isLt; have : cfg1.N = 16 := N_1; omega⟩) (t.val % 8) := by
  induction h generalizing k with
  | first t hF d0 d1 d2 S0 =>
    have h8 : t.val % 8 = 0 := (isFirst_iff t).mp hF
    rw [accNext_apply V c t d0 d1 d2 hfin hrange, if_pos hF, h8, accUpTo]
  | next t t' ht hF d0 d1 d2 S0 h0 ih =>
    have h8 : t'.val % 8 ≠ 0 := fun e => hF ((isFirst_iff t').mpr e)
    have hb : (⟨t'.val / 8, row_lt t'⟩ : Fin 2) = ⟨t.val / 8, row_lt t⟩ := Fin.ext (by show t'.val / 8 = t.val / 8; omega)
    have hi : t'.val % 8 = t.val % 8 + 1 := by omega
    rw [accNext_apply V c t' d0 d1 d2 hfin hrange, if_neg hF, ih k, hb, hi, accUpTo]

end Cert.Bridge

end
-- ==== Proof.P5Rows.lean ====
/-
  The second pipeline's result array at its exit, read at lane 0 of its two rows. The result window (one row of 128
  lanes per batch row) is written back twice over the grid, after the last tile of each batch row; at those points the
  body has copied the scratch row into the window's buffer. So whatever the array may hold at exit, lane 0 of row `b`
  is lane 0 of a scratch row reachable after the eighth tile of batch row `b`.
-/
import proofs.«409296_j25357486916145_3_alg».proof.Proof.KI.Run
import Idealize.ShloMosaic.Lib.ValueIdx
import Idealize.ShloMosaic.Lib.Pipeline.Value

noncomputable section

namespace Cert.Bridge

open Idealize.ShloMosaic Idealize.ShloMosaic.TcCoe Idealize.SL.Sem
open Cert.KernelIdeal Cert.KernelIdeal.Gen Cert.KernelIdeal.Hand
open Idealize.ShloMosaic.Pipeline (RDat)

variable {F : FTy → Type} [FloatOps F]

/-! ## The two write-backs -/

/-- Over a stretch of points none of which writes the result window back (none is the eighth tile of a batch row),
    what the result array may hold does not change. -/
theorem arrAt_stretch (V : (c : Dev nD) → (b : Ref sig .tc) → Buf (Elt F) ((c : Thread nD τ).loc b)) (c : Dev nD) (a : Nat) :
    ∀ n : Nat, a + n ≤ cfg1.N → (∀ k, a ≤ k → k < a + n → k % 8 ≠ 7) →
      (rdat1 V c).ArrAt 3 (a + n) = (rdat1 V c).ArrAt 3 a
  | 0, _, _ => rfl
  | n + 1, hN, h => by
    have hlt : a + n < cfg1.N := by omega
    have hs := (rdat1 V c).ArrAt_succ 3 ⟨a + n, hlt⟩
    rw [if_neg (fun hf => h (a + n) (by omega) (by omega) ((flush1_3 ⟨a + n, hlt⟩).mp hf))] at hs
    exact hs.trans (arrAt_stretch V c a n (by omega) fun k hk hk' => h k hk (by omega))

/-- The result array at exit is its entry contents overwritten through the block of point 7 and then through the block
    of point 15, each time by something the body may have left in the window's buffer at that point. -/
theorem P5_writes (m : (ℓ : Loc nD τ sig) → Buf (Elt F) ℓ) (c : Dev nD) (O : Buf (Elt F) ((c : Thread nD τ).loc main_v5))
    (h : P5 m c O) :
    ∃ X7 X15, (rdat1 (E2 m) c).Leaves 3 t1_7 X7 ∧ (rdat1 (E2 m) c).Leaves 3 t1_15 X15 ∧
      O = ((cfg1.win 3).blk t1_15).view.write (Elt F)
            (((cfg1.win 3).blk t1_7).view.write (Elt F) (E2 m c main_v5) ((cfg1.win 3).cut (grid1.coords t1_7) X7) Finset.univ)
            ((cfg1.win 3).cut (grid1.coords t1_15) X15) Finset.univ := by
  -- points 0 … 6 write nothing back, point 7 does
  have e7 : (rdat1 (E2 m) c).ArrAt 3 8 = (rdat1 (E2 m) c).ArrStep 3 t1_7 (fun G => G = E2 m c main_v5) := by
    have hs := (rdat1 (E2 m) c).ArrAt_succ 3 t1_7
    rw [if_pos ((flush1_3 t1_7).mpr (by decide))] at hs
    exact hs.trans (congrArg _ (arrAt_stretch (E2 m) c 0 7 (by decide) (by omega)))
  -- points 8 … 14 write nothing back, point 15 does
  have e15 : (rdat1 (E2 m) c).ArrAt 3 cfg1.N = (rdat1 (E2 m) c).ArrStep 3 t1_15 ((rdat1 (E2 m) c).ArrAt 3 8) := by
    have hs := (rdat1 (E2 m) c).ArrAt_succ 3 t1_15
    rw [if_pos ((flush1_3 t1_15).mpr (by decide))] at hs
    exact hs.trans (congrArg _ (arrAt_stretch (E2 m) c 8 7 (by decide) (by omega)))
  unfold P5 at h
  rw [e15, e7] at h
  obtain ⟨G₁, X15, ⟨G₀, X7, hG₀, hL7, rfl⟩, hL15, rfl⟩ := h
  exact ⟨X7, X15, hL7, hL15, by rw [show G₀ = E2 m c main_v5 from hG₀]⟩

/-! ## What is written is a reachable scratch row

Points 7 and 15 are the eighth tiles of the two batch rows: there the body's condition holds, and what it leaves in the
window's buffer is the scratch row. -/

theorem acc_of_leaves7 (m : (ℓ : Loc nD τ sig) → Buf (Elt F) ℓ) (c : Dev nD) (X : Vec F S1x1x128 .f32)
    (h : (rdat1 (E2 m) c).Leaves 3 t1_7 X) : Acc (E2 m) c t1_7 X := by
  obtain ⟨Y, -, hX⟩ := h
  exact hX.1 (by decide +kernel)

theorem acc_of_leaves15 (m : (ℓ : Loc nD τ sig) → Buf (Elt F) ℓ) (c : Dev nD) (X : Vec F S1x1x128 .f32)
    (h : (rdat1 (E2 m) c).Leaves 3 t1_15 X) : Acc (E2 m) c t1_15 X := by
  obtain ⟨Y, -, hX⟩ := h
  exact hX.1 (by decide +kernel)

/-! ## Where the two blocks lie

The block of point `t` is row `t / 8` of the array (block index `(t / 8, 0, 0)` times block size `(1, 1, 128)`, plus the
coordinate inside the block). -/

/-- Lane 0 of the block of point 15 is lane 0 of row 1. -/
theorem emb15 : ((cfg1.win 3).blk t1_15).view.emb (ValueIdx.ix3 (0 : Fin 1) (0 : Fin 1) (0 : Fin 128))
    = ValueIdx.ix3 (1 : Fin 2) (0 : Fin 1) (0 : Fin 128) := by
  refine funext fun a => Fin.ext ?_
  revert a
  decide +kernel

/-- Lane 0 of the block of point 7 is lane 0 of row 0. -/
theorem emb7 : ((cfg1.win 3).blk t1_7).view.emb (ValueIdx.ix3 (0 : Fin 1) (0 : Fin 1) (0 : Fin 128))
    = ValueIdx.ix3 (0 : Fin 2) (0 : Fin 1) (0 : Fin 128) := by
  refine funext fun a => Fin.ext ?_
  revert a
  decide +kernel

/-- Row 0 is outside the block of point 15, which starts at row 1. -/
theorem not_mem15 : ValueIdx.ix3 (0 : Fin 2) (0 : Fin 1) (0 : Fin 128) ∉ ((cfg1.win 3).blk t1_15).view.setOn Finset.univ := by
  rw [View.setOn_univ]
  show _ ∉ ((View.whole main_v5).slice (win1_3.rect t1_15)).set
  rw [View.set_slice_whole, Rect.mem_set_unit]
  intro h
  have h0 : win1_3.index t1_15 0 * win1_3.size 0 ≤ 0 := (h 0).1
  revert h0; decide +kernel

/-! ## The result array at lane 0 of its two rows -/

theorem P5_lane0 (m : (ℓ : Loc nD τ sig) → Buf (Elt F) ℓ) (c : Dev nD) (O : Buf (Elt F) ((c : Thread nD τ).loc main_v5))
    (h : P5 m c O) :
    ∃ X7 X15 : Vec F S1x1x128 .f32, Acc (E2 m) c t1_7 X7 ∧ Acc (E2 m) c t1_15 X15
      ∧ (O : Vec F S2x1x128 .f32) (ValueIdx.ix3 (0 : Fin 2) (0 : Fin 1) (0 : Fin 128)) = X7 (ValueIdx.ix3 (0 : Fin 1) (0 : Fin 1) (0 : Fin 128))
      ∧ (O : Vec F S2x1x128 .f32) (ValueIdx.ix3 (1 : Fin 2) (0 : Fin 1) (0 : Fin 128)) = X15 (ValueIdx.ix3 (0 : Fin 1) (0 : Fin 1) (0 : Fin 128)) := by
  obtain ⟨X7, X15, hL7, hL15, rfl⟩ := P5_writes m c O h
  refine ⟨X7, X15, acc_of_leaves7 m c X7 hL7, acc_of_leaves15 m c X15 hL15, ?_, ?_⟩
  · -- row 0: the second write-back leaves it, the first wrote the block's lane 0 there; the block is not cut
    rw [View.write_of_not_mem _ _ _ not_mem15, ← emb7, View.write_emb_of_mem _ _ (Finset.mem_univ _)]
    rfl
  · -- row 1: the second write-back wrote the block's lane 0 there
    rw [← emb15, View.write_emb_of_mem _ _ (Finset.mem_univ _)]
    rfl

end Cert.Bridge

end
-- ==== Proof.KernelValue.lean ====
/-
  The idealized kernel's result is the reference's. At the ideal instance, under the precondition (every class score,
  row entry and codebook entry a real number, every target a class index), whatever result array the second pipeline's
  write-backs may leave, the program's result buffer ends at the reference's last stage function of the four argument
  arrays: lane 0 of the two result rows are the two batch rows' sums tile by tile of the per-position terms, a per-position
  term is the gathered log-softmax entry plus the first pipeline's result repeated along the wave axis, that result is the
  sum of the reference's codebook term and commitment term, and the reference adds the same three terms in another
  grouping and sums them over all positions before the same division.
-/
import proofs.«409296_j25357486916145_3_alg».proof.Proof.Host
import proofs.«409296_j25357486916145_3_alg».proof.Proof.Codebook
import proofs.«409296_j25357486916145_3_alg».proof.Proof.AccValue
import proofs.«409296_j25357486916145_3_alg».proof.Proof.P5Rows

noncomputable section

namespace Cert.Bridge

open Idealize.ShloMosaic Idealize.ShloMosaic.TcCoe Idealize.SL.Sem
open Cert.KernelIdeal Cert.KernelIdeal.Gen Cert.KernelIdeal.Hand
open Cert.ReferenceIdeal.ReadP

variable [Cert.ReferenceIdeal.Facts]

variable (m : (ℓ : Loc nD τ sig) → Buf (Elt Ideal) ℓ) (c : Dev nD)

/-! ## What the host operations between the pipelines keep -/

theorem W2_keeps (r : Ref sig .tc) (h1 : r ∉ hostOps1_W) (h0 : r ≠ main_v0) : W2 m c r = m ((c : Thread nD τ).loc r) :=
  (StableHlo.after_of_writes_sub hostOps1 _ hostOps1_writes h1).trans
    (Function.update_of_ne (StableHlo.devRef_ne_of_ne h0 : (Proc.devRef .tc r : DevRef τ sig) ≠ Proc.devRef .tc main_v0) _ _)

theorem E2_arg0 : E2 m c main_arg0 = m ((c : Thread nD τ).loc main_arg0) := W2_keeps m c main_arg0 (by decide) (by decide)
theorem E2_arg3 : E2 m c main_arg3 = m ((c : Thread nD τ).loc main_arg3) := W2_keeps m c main_arg3 (by decide) (by decide)

theorem W1_v0 : W1 m c main_v0 = O0 m c :=
  Function.update_self (β := fun b : DevRef τ sig => b.ty.Contents (Elt Ideal)) (Proc.devRef .tc main_v0 : DevRef τ sig) (O0 m c) (W0 m c)

theorem W3_v5 (O : Buf (Elt Ideal) ((c : Thread nD τ).loc main_v5)) : W3 m c O main_v5 = O :=
  Function.update_self (β := fun b : DevRef τ sig => b.ty.Contents (Elt Ideal)) (Proc.devRef .tc main_v5 : DevRef τ sig) O (W2 m c)

/-! ## One position -/

/-- The per-position term the tiles sum is the reference's per-position term. -/
theorem posTerm_eq
    (h1 : ∀ i, ∃ r : ℝ, (m ((c : Thread nD τ).loc main_arg1) : Vec Ideal S2x64x1024 .f32) i = (r : EReal))
    (h2 : ∀ i, ∃ r : ℝ, (m ((c : Thread nD τ).loc main_arg2) : Vec Ideal S512x1024 .f32) i = (r : EReal))
    (b : Fin 2) (n : Fin 65535) :
    posTerm (E2 m) c b n
      = val_main_v29 (F := Ideal) (m ((c : Thread nD τ).loc main_arg0)) (m ((c : Thread nD τ).loc main_arg1))
          (m ((c : Thread nD τ).loc main_arg2)) (m ((c : Thread nD τ).loc main_arg3)) (ValueIdx.ix3 b (0 : Fin 1) n) := by
  unfold posTerm lsmAt
  rw [E2_arg0, E2_arg3]
  have hc : (E2 m c main_v4 : Vec Ideal S2x1x65535 .f32) (ValueIdx.ix3 b (0 : Fin 1) n)
      = val_main_v21 (F := Ideal) (m ((c : Thread nD τ).loc main_arg1)) (m ((c : Thread nD τ).loc main_arg2)) (ValueIdx.ix3 b (0 : Fin 1) n)
        + val_main_v25 (F := Ideal) (m ((c : Thread nD τ).loc main_arg1)) (m ((c : Thread nD τ).loc main_arg2)) (ValueIdx.ix3 b (0 : Fin 1) n) := by
    rw [ref_codebook_at, ref_commit_at]
    show (StableHlo.after (hostOps1 (F := Ideal)) (W1 m c) main_v4 : Vec Ideal S2x1x65535 .f32) (ValueIdx.ix3 b (0 : Fin 1) n) = _
    rw [host1_value (W1 m c) b n, W1_v0, O0_value, codebook_eq _ _ h1 h2]
  rw [hc, val_main_v29_apply, val_main_v28_apply]
  exact (add_assoc _ _ _).symm

/-! ## The result -/

theorem kernel_value
    (h0 : ∀ i, ∃ r : ℝ, (m ((c : Thread nD τ).loc main_arg0) : Vec Ideal S2x256x65535 .f32) i = (r : EReal))
    (h1 : ∀ i, ∃ r : ℝ, (m ((c : Thread nD τ).loc main_arg1) : Vec Ideal S2x64x1024 .f32) i = (r : EReal))
    (h2 : ∀ i, ∃ r : ℝ, (m ((c : Thread nD τ).loc main_arg2) : Vec Ideal S512x1024 .f32) i = (r : EReal))
    (h3 : ∀ i, 0 ≤ ((m ((c : Thread nD τ).loc main_arg3) : Vec Ideal S2x1x65535 .i32) i).toInt
      ∧ ((m ((c : Thread nD τ).loc main_arg3) : Vec Ideal S2x1x65535 .i32) i).toInt < 256)
    (O : Buf (Elt Ideal) ((c : Thread nD τ).loc main_v5)) (hO : P5 m c O) :
    (W4 m c O main_v9 : Vec Ideal S_ .f32)
      = val_main_v31 (F := Ideal) (m ((c : Thread nD τ).loc main_arg0)) (m ((c : Thread nD τ).loc main_arg1))
          (m ((c : Thread nD τ).loc main_arg2)) (m ((c : Thread nD τ).loc main_arg3)) := by
  funext i
  obtain ⟨X7, X15, a7, a15, e7, e15⟩ := P5_lane0 m c O hO
  have hfin : ∀ i, ∃ r : ℝ, (E2 m c main_arg0 : Vec Ideal S2x256x65535 .f32) i = (r : EReal) := by rw [E2_arg0]; exact h0
  have hrange : ∀ i, 0 ≤ ((E2 m c main_arg3 : Vec Ideal S2x1x65535 .i32) i).toInt ∧ ((E2 m c main_arg3 : Vec Ideal S2x1x65535 .i32) i).toInt < 256 := by
    rw [E2_arg3]; exact h3
  have v7 := acc_value (E2 m) c hfin hrange t1_7 X7 a7 (ValueIdx.ix3 (0 : Fin 1) (0 : Fin 1) (0 : Fin 128))
  have v15 := acc_value (E2 m) c hfin hrange t1_15 X15 a15 (ValueIdx.ix3 (0 : Fin 1) (0 : Fin 1) (0 : Fin 128))
  have hs := sum_tiles (posTerm (E2 m) c)
  rw [Fin.sum_univ_two] at hs
  have l0 : lane0 (W3 m c O) (0 : Fin 2) = accUpTo (tileSum (posTerm (E2 m) c) (0 : Fin 2)) 7 := by
    unfold lane0; rw [W3_v5]; exact e7.trans v7
  have l1 : lane0 (W3 m c O) (1 : Fin 2) = accUpTo (tileSum (posTerm (E2 m) c) (1 : Fin 2)) 7 := by
    unfold lane0; rw [W3_v5]; exact e15.trans v15
  show (StableHlo.after (hostOps2 (F := Ideal)) (W3 m c O) main_v9 : Vec Ideal S_ .f32) i = _
  rw [host2_value (W3 m c O) i, Fin.sum_univ_two, l0, l1, hs, val_main_v31_apply, val_main_v30_apply, sum_idx_2x1x65535]
  refine congrArg₂ _ (congrArg₂ _ rfl ?_) rfl
  exact Finset.sum_congr rfl fun b _ => Finset.sum_congr rfl fun n _ => posTerm_eq m c h1 h2 b n

end Cert.Bridge

end
-- ==== Proof.PreDecode.lean ====
/-
  The precondition read: the printed predicate is all ones exactly when every entry of the three float arrays is below
  +inf in absolute value — a real number — and every target is a class index, 0 ≤ t < 256 as a signed word.
-/
import proofs.«409296_j25357486916145_3_alg».proof.Pre_finite_inputs
import proofs.«409296_j25357486916145_3_alg».proof.Proof.Gen.Pre_finite_inputs
import Idealize.ShloMosaic.PureOps.Ideal.Laws
import Idealize.ShloMosaic.Lib.ReduceAll
import Idealize.ShloMosaic.Lib.ValueIdx
import Idealize.ShloMosaic.Lib.StableHlo.Predicate

set_option maxRecDepth 16384

noncomputable section

namespace Cert.Bridge

open Idealize.ShloMosaic

/-- The rank-zero shape has one index. -/
instance : Subsingleton Cert.Pre_finite_inputs.S_.Idx := ⟨fun a b => funext fun d => d.elim0⟩

/-- An extended real whose absolute value is below +∞ is a real number. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at h
  have hlt : max a (-a) < ⊤ := by
    have := (StableHlo.Predicate.ofBool_eq_one_iff _).1 h
    exact of_decide_eq_true this
  induction a using EReal.rec with
  | bot => simp at hlt
  | top => simp at hlt
  | coe r => exact ⟨r, rfl⟩

/-- Where the comparison of |x| with the +∞ constant broadcast over the array is 1, the entry is a real number. -/
theorem real_of_cmp {s : Shape} (x : FVec Ideal s .f32) (hb : Cert.Pre_finite_inputs.S_.BroadcastsInDim s (![] : Fin 0 → Fin s.rank))
    (h0 : 0 < Cert.Pre_finite_inputs.S_.numel) (i : s.Idx)
    (e : cmpf .olt (Host.absf x) (broadcastInDim s ![] hb (constant (F := Ideal) Cert.Pre_finite_inputs.S_ .f32 0x7F800000#32)) i = 1#1) :
    ∃ r : ℝ, x i = (r : EReal) := by
  have hbc := StableHlo.Predicate.bcast_scalar hb h0 (constant (F := Ideal) Cert.Pre_finite_inputs.S_ .f32 0x7F800000#32) i
  have e' : Ideal.cmp .olt (max (x i) (-(x i)))
      (broadcastInDim s ![] hb (constant (F := Ideal) Cert.Pre_finite_inputs.S_ .f32 0x7F800000#32) i) = 1#1 := e
  rw [hbc] at e'
  exact real_of_abs_lt_inf _ e'

/-- Where the two comparisons of a word with the constants 0 and 256 broadcast over the array are both 1, the word,
    read signed, is in [0, 256). -/
theorem range_of_cmp {s : Shape} (x : IVec s 32) (hb : Cert.Pre_finite_inputs.S_.BroadcastsInDim s (![] : Fin 0 → Fin s.rank))
    (h0 : 0 < Cert.Pre_finite_inputs.S_.numel) (i : s.Idx)
    (e : andi (cmpi .sge x (broadcastInDim s ![] hb (constantI Cert.Pre_finite_inputs.S_ 32 0#32)))
        (cmpi .slt x (broadcastInDim s ![] hb (constantI Cert.Pre_finite_inputs.S_ 32 256#32))) i = 1#1) :
    0 ≤ (x i).toInt ∧ (x i).toInt < 256 := by
  have hb0 := StableHlo.Predicate.bcast_scalar hb h0 (constantI Cert.Pre_finite_inputs.S_ 32 0#32) i
  have hb256 := StableHlo.Predicate.bcast_scalar hb h0 (constantI Cert.Pre_finite_inputs.S_ 32 256#32) i
  obtain ⟨ege, elt⟩ := IntOp.andi_eq_one.1 e
  have ege' : IntOp.cmpi .sge (x i) (broadcastInDim s ![] hb (constantI Cert.Pre_finite_inputs.S_ 32 0#32) i) = 1#1 := ege
  have elt' : IntOp.cmpi .slt (x i) (broadcastInDim s ![] hb (constantI Cert.Pre_finite_inputs.S_ 32 256#32) i) = 1#1 := elt
  rw [hb0] at ege'
  rw [hb256] at elt'
  have h1 : (0#32 : BitVec 32).toInt ≤ (x i).toInt := IntOp.cmpi_sge.1 ege'
  have h2 : (x i).toInt < (256#32 : BitVec 32).toInt := IntOp.cmpi_slt.1 elt'
  have z0 : (0#32 : BitVec 32).toInt = 0 := by decide
  have z256 : (256#32 : BitVec 32).toInt = 256 := by decide
  rw [z0] at h1
  rw [z256] at h2
  exact ⟨h1, h2⟩

variable [Cert.Pre_finite_inputs.Facts]

/-- What the precondition says of the four argument arrays at the ideal instance. -/
theorem pre_decode (x0 : FVec Ideal Cert.Pre_finite_inputs.S2x256x65535 .f32) (x1 : FVec Ideal Cert.Pre_finite_inputs.S2x64x1024 .f32)
    (x2 : FVec Ideal Cert.Pre_finite_inputs.S512x1024 .f32) (x3 : IVec Cert.Pre_finite_inputs.S2x1x65535 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, 0 ≤ (x3 i).toInt ∧ (x3 i).toInt < 256) := by
  have e := congrFun h ValueIdx.ix0
  unfold Cert.Pre_finite_inputs.fn Cert.Pre_finite_inputs.fn_part1 at e
  dsimp only at e
  obtain ⟨e012, e3⟩ := IntOp.andi_eq_one.1 e
  obtain ⟨e01, e2⟩ := IntOp.andi_eq_one.1 e012
  obtain ⟨e0, e1⟩ := IntOp.andi_eq_one.1 e01
  refine ⟨fun i => ?_, fun i => ?_, fun i => ?_, fun i => ?_⟩
  · exact real_of_cmp x0 _ Cert.Pre_finite_inputs.Facts.h_S_ i (Host.reduce_andi_all _ _ _ _ _ e0 i)
  · exact real_of_cmp x1 _ Cert.Pre_finite_inputs.Facts.h_S_ i (Host.reduce_andi_all _ _ _ _ _ e1 i)
  · exact real_of_cmp x2 _ Cert.Pre_finite_inputs.Facts.h_S_ i (Host.reduce_andi_all _ _ _ _ _ e2 i)
  · exact range_of_cmp x3 _ Cert.Pre_finite_inputs.Facts.h_S_ i (Host.reduce_andi_all _ _ _ _ _ e3 i)

end Cert.Bridge

end
-- ==== Proof.RefRun.lean ====
/-
  The reference's run, stretch by stretch. Its @main is 74 host operations in four consecutive stretches: the two
  codebook distances and their repeat along the wave axis (A), the log-softmax over the class axis (B), the gather of the
  target's class (C), the sum of the three terms and its mean (D). Each stretch is read from an arbitrary valuation of
  the buffers it takes over: what it writes is the stage functions of the read-at-an-index module applied to those
  buffers, and the buffers a later stretch still reads are kept. Composed, every weakly fair execution ends with the
  result buffer at `val_main_v31` of the four arguments and the arguments as launched.

  Stretches B and C are the bodies of the two module-local functions: their operations carry each value at its
  tensor type and move it to and from its buffer's type along the equation between the two. Between a write and the
  reads of it the two moves cancel, as a proved equation that holds at any typed reference (`ofBuf_toBuf`); what is left
  is one move at each argument read and one at the stretch's result, each the identity on contents taken as a variable.
  The composed term with the moves is so rewritten, by equations, to the one without them; the reductions over the class
  axis (each a fold over every element of its operand) are never unfolded.
-/
import proofs.«409296_j25357486916145_3_alg».proof.Proof.RefRead
import Idealize.ShloMosaic.Lib.StableHlo.Run

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Contents at a typed reference -/

/-- Contents moved to a typed reference's buffer type and back are unchanged: the two moves are along one equation
    and its inverse, so once the value's type IS the buffer's both are the identity. -/
theorem ofBuf_toBuf {sig : RefSig} {Val : EltTy → Type} {T : BufTy} (x : TRef sig T) (v : T.Contents Val) :
    x.ofBuf (x.toBuf v) = v := by
  obtain ⟨r, h, _, _⟩ := x
  subst h
  rfl

/-! ## Stretch A: the codebook distances, repeated along the wave axis -/

set_option maxRecDepth 8192 in
set_option maxHeartbeats 4000000 in
theorem A_v21 (W : Valuation τ sig (Elt F)) :
    after opsA W (Proc.devRef .tc main_v21) = val_main_v21 (F := F) (W (Proc.devRef .tc main_arg1)) (W (Proc.devRef .tc main_arg2)) := by
  after_results_simp <;> rfl

set_option maxRecDepth 8192 in
set_option maxHeartbeats 4000000 in
theorem A_v25 (W : Valuation τ sig (Elt F)) :
    after opsA W (Proc.devRef .tc main_v25) = val_main_v25 (F := F) (W (Proc.devRef .tc main_arg1)) (W (Proc.devRef .tc main_arg2)) := by
  after_results_simp <;> rfl

set_option maxRecDepth 8192 in
theorem A_arg0 (W : Valuation τ sig (Elt F)) : after opsA W (Proc.devRef .tc main_arg0) = W (Proc.devRef .tc main_arg0) := by
  after_results_simp <;> rfl
set_option maxRecDepth 8192 in
theorem A_arg3 (W : Valuation τ sig (Elt F)) : after opsA W (Proc.devRef .tc main_arg3) = W (Proc.devRef .tc main_arg3) := by
  after_results_simp <;> rfl

/-! ## Stretch B: the log-softmax over the class axis -/

set_option maxRecDepth 8192 in
set_option maxHeartbeats 4000000 in
theorem B_v26 (W : Valuation τ sig (Elt F)) :
    after opsB W (Proc.devRef .tc main_v26) = val_main_v26 (F := F) (W (Proc.devRef .tc main_arg0)) := by
  -- the move at the argument read and the move at the result, each on contents taken as a variable
  have h0 : ∀ v : (Proc.devRef (τ := τ) .tc main_arg0).ty.Contents (Elt F),
      (TRef.of (T := ⟨S2x256x65535, .f32⟩) main_arg0).ofBuf v = v := fun _ => rfl
  have h26 : ∀ v : (⟨S2x256x65535, .f32⟩ : BufTy).Contents (Elt F),
      (TRef.of (T := ⟨S2x256x65535, .f32⟩) main_v26).toBuf v = v := fun _ => rfl
  after_results_simp
  simp only [ofBuf_toBuf]
  rw [h0, h26]
  generalize W (Proc.devRef .tc main_arg0) = x0
  rfl

set_option maxRecDepth 8192 in
theorem B_v21 (W : Valuation τ sig (Elt F)) : after opsB W (Proc.devRef .tc main_v21) = W (Proc.devRef .tc main_v21) := by
  after_results_simp <;> rfl
set_option maxRecDepth 8192 in
theorem B_v25 (W : Valuation τ sig (Elt F)) : after opsB W (Proc.devRef .tc main_v25) = W (Proc.devRef .tc main_v25) := by
  after_results_simp <;> rfl
set_option maxRecDepth 8192 in
theorem B_arg3 (W : Valuation τ sig (Elt F)) : after opsB W (Proc.devRef .tc main_arg3) = W (Proc.devRef .tc main_arg3) := by
  after_results_simp <;> rfl

/-! ## Stretch C: the target's class gathered, the out-of-range guard around it -/

set_option maxRecDepth 8192 in
set_option maxHeartbeats 4000000 in
theorem C_v27 (W : Valuation τ sig (Elt F)) :
    after opsC W (Proc.devRef .tc main_v27)
      = select (val_main_call1_v12 (F := F) (W (Proc.devRef .tc main_arg3)))
          (Host.gather gather_S2x256x65535_S2x1x65535x1_S2x1x65535_n_1_02_02_1_3_111 (W (Proc.devRef .tc main_v26))
            (val_main_call1_v5 (F := F) (W (Proc.devRef .tc main_arg3))))
          (val_main_call1_v14 (F := F)) := by
  -- the moves at the two argument reads and at the result, each on contents taken as a variable
  have h3 : ∀ v : (Proc.devRef (τ := τ) .tc main_arg3).ty.Contents (Elt F),
      (TRef.of (T := ⟨S2x1x65535, .i32⟩) main_arg3).ofBuf v = v := fun _ => rfl
  have h26 : ∀ v : (Proc.devRef (τ := τ) .tc main_v26).ty.Contents (Elt F),
      (TRef.of (T := ⟨S2x256x65535, .f32⟩) main_v26).ofBuf v = v := fun _ => rfl
  have h27 : ∀ v : (⟨S2x1x65535, .f32⟩ : BufTy).Contents (Elt F),
      (TRef.of (T := ⟨S2x1x65535, .f32⟩) main_v27).toBuf v = v := fun _ => rfl
  -- the reshape writes its operand's contents re-indexed, both still at their buffers' types: the two moves around
  -- it, on a selected index vector taken as a variable
  have h5 : ∀ (s : (⟨S2x1x65535, .i32⟩ : BufTy).Contents (Elt F)) p,
      (TRef.of (T := ⟨S2x1x65535x1, .i32⟩) main_call1_v5).ofBuf
          (fun i => shapeCast main_call1_v5.ty.shape ((TRef.of (T := ⟨S2x1x65535, .i32⟩) main_call1_v4).toBuf s) p i)
        = shapeCast S2x1x65535x1 s shapeCasts_S2x1x65535_S2x1x65535x1 := fun _ _ => rfl
  after_results_simp
  simp only [ofBuf_toBuf]
  rw [h3, h26, h27, h5]
  generalize W (Proc.devRef .tc main_arg3) = x3
  generalize W (Proc.devRef .tc main_v26) = y26
  rfl

set_option maxRecDepth 8192 in
theorem C_v21 (W : Valuation τ sig (Elt F)) : after opsC W (Proc.devRef .tc main_v21) = W (Proc.devRef .tc main_v21) := by
  after_results_simp <;> rfl
set_option maxRecDepth 8192 in
theorem C_v25 (W : Valuation τ sig (Elt F)) : after opsC W (Proc.devRef .tc main_v25) = W (Proc.devRef .tc main_v25) := by
  after_results_simp <;> rfl

/-! ## Stretch D: the three terms summed, and the mean -/

set_option maxRecDepth 8192 in
theorem D_v31 (W : Valuation τ sig (Elt F)) :
    after opsD W (Proc.devRef .tc main_v31)
      = Host.divf (Host.reduceAdd (addf (addf (W (Proc.devRef .tc main_v27)) (W (Proc.devRef .tc main_v21))) (W (Proc.devRef .tc main_v25)))
          (val_main_cst_4 (F := F)) reducesTo_S2x1x65535_S_d0_1_2 h_S_) (val_main_cst_5 (F := F)) := by
  after_results_simp <;> rfl

/-! ## The four composed -/

/-- The result buffer after all 74 operations is the last stage function of the four arguments. -/
theorem after_v31 (V : Valuation τ sig (Elt F)) :
    after (ops (F := F)) V (Proc.devRef .tc main_v31)
      = val_main_v31 (F := F) (V (Proc.devRef .tc main_arg0)) (V (Proc.devRef .tc main_arg1)) (V (Proc.devRef .tc main_arg2)) (V (Proc.devRef .tc main_arg3)) := by
  rw [ops_eq, after_append, after_append, after_append, D_v31, C_v27, C_v21, C_v25, B_v26, B_v21, B_v25, B_arg3, A_v21, A_v25, A_arg0, A_arg3]
  rfl

set_option maxRecDepth 8192 in
set_option maxHeartbeats 4000000 in
/-- On every device, for any float values, from any memory with zero counters: every weakly fair execution of the
    reference's @main terminates, its result at the last stage function of the argument arrays, those unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = val_main_v31 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v31).trans (after_v31 _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunP

end
-- ==== Proof.lean ====
/-
  The certificate's claim. The kernel computes the vector-quantisation loss in two pipelines — the codebook distance by
  its expansion min_k (64·e_k² − 2·e_k·Σ_q z_q) + Σ_q z_q², scaled by 1.25, and the log-softmax of the class scores read at
  the target class, added to the repeated distance and summed tile by tile into a scratch row — against a reference that
  takes min_k Σ_q (z_q − e_k)² twice (the second time scaled by 0.25), the log-softmax by a gather, and one mean.

  Frames: both programs of the kernel run through the two pipelines with relational proof data (the last tile of each
  batch row overhangs the arrays by one column, whose lane a fetch leaves at contents nobody names and the body selects
  away), the reference runs as a straight line of host operations. Over the extended reals, with every float entry a real
  number and every target a class index, the two results are one: a per-position term is the same three summands in two
  groupings, the distance's expansion is the distance, and a sum by tiles and rows is the sum.
-/
import proofs.«409296_j25357486916145_3_alg».proof.Defs
import proofs.«409296_j25357486916145_3_alg».proof.Proof.K.Run
import proofs.«409296_j25357486916145_3_alg».proof.Proof.KernelValue
import proofs.«409296_j25357486916145_3_alg».proof.Proof.PreDecode
import proofs.«409296_j25357486916145_3_alg».proof.Proof.RefRun

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m g _ => Cert.Kernel.Hand.frame (F := Bits) m g

/-- The idealized kernel runs and keeps its arguments. -/
theorem frame_ki : Cert.frame_KernelIdeal (hKernelIdeal := Cert.KernelIdeal.Gen.facts) (hPre_finite_inputs := Cert.Pre_finite_inputs.Gen.facts) :=
  fun m g _ => Cert.KernelIdeal.Hand.frame (F := Ideal) m g

/-- The idealized reference runs and keeps its arguments. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.RunP.run (F := Ideal) m g)

/-- From memories agreeing on the arguments both idealized programs end, the kernel's result buffer and the reference's
    at the reference's last stage function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.ReferenceIdeal.ReadP.val_main_v31 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_main (F := Ideal) m g)
    obtain ⟨O, hO, hb⟩ := h c
    obtain ⟨h0, h1, h2, h3⟩ := Cert.Bridge.pre_decode _ _ _ _ (hpre c)
    exact ⟨(hb _ (Cert.KernelIdeal.Hand.mem_uc Cert.KernelIdeal.main_v9 (by decide))).trans (Cert.Bridge.kernel_value m c h0 h1 h2 h3 O hO),
      (hb _ (Cert.KernelIdeal.Hand.mem_uc Cert.KernelIdeal.main_arg0 (by decide))).trans (Cert.KernelIdeal.Hand.W4_of m c O Cert.KernelIdeal.main_arg0 (by decide) (by decide) (by decide) (by decide)),
      (hb _ (Cert.KernelIdeal.Hand.mem_uc Cert.KernelIdeal.main_arg1 (by decide))).trans (Cert.KernelIdeal.Hand.W4_of m c O Cert.KernelIdeal.main_arg1 (by decide) (by decide) (by decide) (by decide)),
      (hb _ (Cert.KernelIdeal.Hand.mem_uc Cert.KernelIdeal.main_arg2 (by decide))).trans (Cert.KernelIdeal.Hand.W4_of m c O Cert.KernelIdeal.main_arg2 (by decide) (by decide) (by decide) (by decide)),
      (hb _ (Cert.KernelIdeal.Hand.mem_uc Cert.KernelIdeal.main_arg3 (by decide))).trans (Cert.KernelIdeal.Hand.W4_of m c O Cert.KernelIdeal.main_arg3 (by decide) (by decide) (by decide) (by decide))⟩
  · refine (θ_run Cert.ReferenceIdeal.defs _ _).mono (fun r h c => ⟨(h c).1.trans ?_, (h c).2⟩) (Cert.ReferenceIdeal.RunP.run (F := Ideal) m' g')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
